-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v234) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x128 : Shape := ⟨2, ![131072, 128]⟩
abbrev S384x128 : Shape := ⟨2, ![384, 128]⟩
abbrev S384 : Shape := ⟨1, ![384]⟩
abbrev S384x256 : Shape := ⟨2, ![384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S131072x128 : S_.BroadcastsInDim S131072x128 (![] : Fin 0 → Fin S131072x128.rank)
  reducesTo_S131072x128_S_d0_1 : S131072x128.ReducesTo [0, 1] S_
  h_S_ : 0 < S_.numel
  bcast_S_S384x128 : S_.BroadcastsInDim S384x128 (![] : Fin 0 → Fin S384x128.rank)
  reducesTo_S384x128_S_d0_1 : S384x128.ReducesTo [0, 1] S_
  bcast_S_S384 : S_.BroadcastsInDim S384 (![] : Fin 0 → Fin S384.rank)
  reducesTo_S384_S_d0 : S384.ReducesTo [0] S_
  bcast_S_S384x256 : S_.BroadcastsInDim S384x256 (![] : Fin 0 → Fin S384x256.rank)
  reducesTo_S384x256_S_d0_1 : S384x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part5 {F : FTy → Type} [FloatOps F] (main_arg18 : FVec F S10 .f32) (main_v83 : IVec S_ 1) (main_v84 : FVec F S64x10 .f32) (main_cst_32 : FVec F S_ .f32) : IVec S_ 1 :=
  let main_v85 : FVec F S64x10 .f32 := broadcastInDim S64x10 ![] bcast_S_S64x10 main_cst_32
  let main_v86 : IVec S64x10 1 := cmpf .olt main_v84 main_v85
  let main_c_33 : IVec S_ 1 := constantI S_ 1 1#1
  let main_v87 : IVec S_ 1 := (fun x v => Host.reduce IntOp.andi x v reducesTo_S64x10_S_d0_1 h_S_) main_v86 main_c_33
  let main_v88 : IVec S_ 1 := andi main_v83 main_v87
  let main_v89 : FVec F S10 .f32 := Host.absf main_arg18
  let main_cst_34 : FVec F S_ .f32 := constant S_ .f32 0x7F800000#32
  let main_v90 : FVec F S10 .f32 := broadcastInDim S10 ![] bcast_S_S10 main_cst_34
  let main_v91 : IVec S10 1 := cmpf .olt main_v89 main_v90
  let main_c_35 : IVec S_ 1 := constantI S_ 1 1#1
  let main_v92 : IVec S_ 1 := (fun x v => Host.reduce IntOp.andi x v reducesTo_S10_S_d0 h_S_) main_v91 main_c_35
  let main_v93 : IVec S_ 1 := andi main_v88 main_v92
  main_v93

def fn_part4 {F : FTy → Type} [FloatOps F] (main_arg14 : FVec F S128 .f32) (main_arg15 : FVec F S128x64 .f32) (main_arg16 : FVec F S64 .f32) (main_arg17 : FVec F S64x10 .f32) (main_arg18 : FVec F S10 .f32) (main_v63 : IVec S_ 1) (main_v67 : IVec S_ 1) : IVec S_ 1 :=
  let main_v68 : IVec S_ 1 := andi main_v63 main_v67
  let main_v69 : FVec F S128 .f32 := Host.absf main_arg14
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x64 .f32 := Host.absf main_arg15
  let main_cst_28 : FVec F S_ .f32 := constant S_ .f32 0x7F800000#32
  let main_v75 : FVec F S128x64 .f32 := broadcastInDim S128x64 ![] bcast_S_S128x64 main_cst_28
  let main_v76 : IVec S128x64 1 := cmpf .olt main_v74 main_v75
  let main_c_29 : IVec S_ 1 := constantI S_ 1 1#1
  let main_v77 : IVec S_ 1 := (fun x v => Host.reduce IntOp.andi x v reducesTo_S128x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x10 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) (main_v48 : IVec S_ 1) (main_v49 : FVec F S384x256 .f32) (main_v50 : FVec F S384x256 .f32) : IVec S_ 1 :=
  let main_v51 : IVec S384x256 1 := cmpf .olt main_v49 main_v50
  let main_c_19 : IVec S_ 1 := constantI S_ 1 1#1
  let main_v52 : IVec S_ 1 := (fun x v => Host.reduce IntOp.andi x v reducesTo_S384x256_S_d0_1 h_S_) main_v51 main_c_19
  let main_v53 : IVec S_ 1 := andi main_v48 main_v52
  let main_v54 : FVec F S384 .f32 := Host.absf main_arg11
  let main_cst_20 : FVec F S_ .f32 := constant S_ .f32 0x7F800000#32
  let main_v55 : FVec F S384 .f32 := broadcastInDim S384 ![] bcast_S_S384 main_cst_20
  let main_v56 : IVec S384 1 := cmpf .olt main_v54 main_v55
  let main_c_21 : IVec S_ 1 := constantI S_ 1 1#1
  let main_v57 : IVec S_ 1 := (fun x v => Host.reduce IntOp.andi x v reducesTo_S384_S_d0 h_S_) main_v56 main_c_21
  let main_v58 : IVec S_ 1 := andi main_v53 main_v57
  let main_v59 : FVec F S384 .f32 := Host.absf main_arg12
  let main_cst_22 : FVec F S_ .f32 := constant S_ .f32 0x7F800000#32
  let main_v60 : FVec F S384 .f32 := broadcastInDim S384 ![] bcast_S_S384 main_cst_22
  let main_v61 : IVec S384 1 := cmpf .olt main_v59 main_v60
  let main_c_23 : IVec S_ 1 := constantI S_ 1 1#1
  let main_v62 : IVec S_ 1 := (fun x v => Host.reduce IntOp.andi x v reducesTo_S384_S_d0 h_S_) main_v61 main_c_23
  let main_v63 : IVec S_ 1 := andi main_v58 main_v62
  let main_v64 : FVec F S256x128 .f32 := Host.absf main_arg13
  let main_cst_24 : FVec F S_ .f32 := constant S_ .f32 0x7F800000#32
  let main_v65 : FVec F S256x128 .f32 := broadcastInDim S256x128 ![] bcast_S_S256x128 main_cst_24
  let main_v66 : IVec S256x128 1 := cmpf .olt main_v64 main_v65
  let main_c_25 : IVec S_ 1 := constantI S_ 1 1#1
  let main_v67 : IVec S_ 1 := (fun x v => Host.reduce IntOp.andi x v reducesTo_S256x128_S_d0_1 h_S_) main_v66 main_c_25
  fn_part4 (F := F) main_arg14 main_arg15 main_arg16 main_arg17 main_arg18 main_v63 main_v67

def fn_part2 {F : FTy → Type} [FloatOps F] (main_arg7 : FVec F S384x256 .f32) (main_arg8 : FVec F S384 .f32) (main_arg9 : FVec F S384 .f32) (main_arg10 : FVec F S384x256 .f32) (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) (main_v33 : IVec S_ 1) : IVec S_ 1 :=
  let main_v34 : FVec F S384x256 .f32 := Host.absf main_arg7
  let main_cst_12 : FVec F S_ .f32 := constant S_ .f32 0x7F800000#32
  let main_v35 : FVec F S384x256 .f32 := broadcastInDim S384x256 ![] bcast_S_S384x256 main_cst_12
  let main_v36 : IVec S384x256 1 := cmpf .olt main_v34 main_v35
  let main_c_13 : IVec S_ 1 := constantI S_ 1 1#1
  let main_v37 : IVec S_ 1 := (fun x v => Host.reduce IntOp.andi x v reducesTo_S384x256_S_d0_1 h_S_) main_v36 main_c_13
  let main_v38 : IVec S_ 1 := andi main_v33 main_v37
  let main_v39 : FVec F S384 .f32 := Host.absf main_arg8
  let main_cst_14 : FVec F S_ .f32 := constant S_ .f32 0x7F800000#32
  let main_v40 : FVec F S384 .f32 := broadcastInDim S384 ![] bcast_S_S384 main_cst_14
  let main_v41 : IVec S384 1 := cmpf .olt main_v39 main_v40
  let main_c_15 : IVec S_ 1 := constantI S_ 1 1#1
  let main_v42 : IVec S_ 1 := (fun x v => Host.reduce IntOp.andi x v reducesTo_S384_S_d0 h_S_) main_v41 main_c_15
  let main_v43 : IVec S_ 1 := andi main_v38 main_v42
  let main_v44 : FVec F S384 .f32 := Host.absf main_arg9
  let main_cst_16 : FVec F S_ .f32 := constant S_ .f32 0x7F800000#32
  let main_v45 : FVec F S384 .f32 := broadcastInDim S384 ![] bcast_S_S384 main_cst_16
  let main_v46 : IVec S384 1 := cmpf .olt main_v44 main_v45
  let main_c_17 : IVec S_ 1 := constantI S_ 1 1#1
  let main_v47 : IVec S_ 1 := (fun x v => Host.reduce IntOp.andi x v reducesTo_S384_S_d0 h_S_) main_v46 main_c_17
  let main_v48 : IVec S_ 1 := andi main_v43 main_v47
  let main_v49 : FVec F S384x256 .f32 := Host.absf main_arg10
  let main_cst_18 : FVec F S_ .f32 := constant S_ .f32 0x7F800000#32
  let main_v50 : FVec F S384x256 .f32 := broadcastInDim S384x256 ![] bcast_S_S384x256 main_cst_18
  fn_part3 (F := F) main_arg11 main_arg12 main_arg13 main_arg14 main_arg15 main_arg16 main_arg17 main_arg18 main_v48 main_v49 main_v50

def fn_part1 {F : FTy → Type} [FloatOps F] (main_arg4 : FVec F S384x128 .f32) (main_arg5 : FVec F S384 .f32) (main_arg6 : FVec F S384 .f32) (main_arg7 : FVec F S384x256 .f32) (main_arg8 : FVec F S384 .f32) (main_arg9 : FVec F S384 .f32) (main_arg10 : FVec F S384x256 .f32) (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) (main_v13 : IVec S_ 1) (main_v16 : IVec S384 1) : IVec S_ 1 :=
  let main_c_5 : IVec S_ 1 := constantI S_ 1 1#1
  let main_v17 : IVec S_ 1 := (fun x v => Host.reduce IntOp.andi x v reducesTo_S384_S_d0 h_S_) main_v16 main_c_5
  let main_v18 : IVec S_ 1 := andi main_v13 main_v17
  let main_v19 : FVec F S384x128 .f32 := Host.absf main_arg4
  let main_cst_6 : FVec F S_ .f32 := constant S_ .f32 0x7F800000#32
  let main_v20 : FVec F S384x128 .f32 := broadcastInDim S384x128 ![] bcast_S_S384x128 main_cst_6
  let main_v21 : IVec S384x128 1 := cmpf .olt main_v19 main_v20
  let main_c_7 : IVec S_ 1 := constantI S_ 1 1#1
  let main_v22 : IVec S_ 1 := (fun x v => Host.reduce IntOp.andi x v reducesTo_S384x128_S_d0_1 h_S_) main_v21 main_c_7
  let main_v23 : IVec S_ 1 := andi main_v18 main_v22
  let main_v24 : FVec F S384 .f32 := Host.absf main_arg5
  let main_cst_8 : FVec F S_ .f32 := constant S_ .f32 0x7F800000#32
  let main_v25 : FVec F S384 .f32 := broadcastInDim S384 ![] bcast_S_S384 main_cst_8
  let main_v26 : IVec S384 1 := cmpf .olt main_v24 main_v25
  let main_c_9 : IVec S_ 1 := constantI S_ 1 1#1
  let main_v27 : IVec S_ 1 := (fun x v => Host.reduce IntOp.andi x v reducesTo_S384_S_d0 h_S_) main_v26 main_c_9
  let main_v28 : IVec S_ 1 := andi main_v23 main_v27
  let main_v29 : FVec F S384 .f32 := Host.absf main_arg6
  let main_cst_10 : FVec F S_ .f32 := constant S_ .f32 0x7F800000#32
  let main_v30 : FVec F S384 .f32 := broadcastInDim S384 ![] bcast_S_S384 main_cst_10
  let main_v31 : IVec S384 1 := cmpf .olt main_v29 main_v30
  let main_c_11 : IVec S_ 1 := constantI S_ 1 1#1
  let main_v32 : IVec S_ 1 := (fun x v => Host.reduce IntOp.andi x v reducesTo_S384_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S131072x128 .f32) (main_arg1 : FVec F S384x128 .f32) (main_arg2 : FVec F S384 .f32) (main_arg3 : FVec F S384 .f32) (main_arg4 : FVec F S384x128 .f32) (main_arg5 : FVec F S384 .f32) (main_arg6 : FVec F S384 .f32) (main_arg7 : FVec F S384x256 .f32) (main_arg8 : FVec F S384 .f32) (main_arg9 : FVec F S384 .f32) (main_arg10 : FVec F S384x256 .f32) (main_arg11 : FVec F S384 .f32) (main_arg12 : FVec F S384 .f32) (main_arg13 : FVec F S256x128 .f32) (main_arg14 : FVec F S128 .f32) (main_arg15 : FVec F S128x64 .f32) (main_arg16 : FVec F S64 .f32) (main_arg17 : FVec F S64x10 .f32) (main_arg18 : FVec F S10 .f32) : IVec S_ 1 :=
  let main_v0 : FVec F S131072x128 .f32 := Host.absf main_arg0
  let main_cst : FVec F S_ .f32 := constant S_ .f32 0x7F800000#32
  let main_v1 : FVec F S131072x128 .f32 := broadcastInDim S131072x128 ![] bcast_S_S131072x128 main_cst
  let main_v2 : IVec S131072x128 1 := cmpf .olt main_v0 main_v1
  let main_c : IVec S_ 1 := constantI S_ 1 1#1
  let main_v3 : IVec S_ 1 := (fun x v => Host.reduce IntOp.andi x v reducesTo_S131072x128_S_d0_1 h_S_) main_v2 main_c
  let main_v4 : FVec F S384x128 .f32 := Host.absf main_arg1
  let main_cst_0 : FVec F S_ .f32 := constant S_ .f32 0x7F800000#32
  let main_v5 : FVec F S384x128 .f32 := broadcastInDim S384x128 ![] bcast_S_S384x128 main_cst_0
  let main_v6 : IVec S384x128 1 := cmpf .olt main_v4 main_v5
  let main_c_1 : IVec S_ 1 := constantI S_ 1 1#1
  let main_v7 : IVec S_ 1 := (fun x v => Host.reduce IntOp.andi x v reducesTo_S384x128_S_d0_1 h_S_) main_v6 main_c_1
  let main_v8 : IVec S_ 1 := andi main_v3 main_v7
  let main_v9 : FVec F S384 .f32 := Host.absf main_arg2
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S384 .f32 := Host.absf main_arg3
  let main_cst_4 : FVec F S_ .f32 := constant S_ .f32 0x7F800000#32
  let main_v15 : FVec F S384 .f32 := broadcastInDim S384 ![] bcast_S_S384 main_cst_4
  let main_v16 : IVec S384 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S131072x128 : Shape := ⟨2, ![131072, 128]⟩
abbrev S384x128 : Shape := ⟨2, ![384, 128]⟩
abbrev S384 : Shape := ⟨1, ![384]⟩
abbrev S384x256 : Shape := ⟨2, ![384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S131072x10 : Shape := ⟨2, ![131072, 10]⟩
abbrev S512x128 : Shape := ⟨2, ![512, 128]⟩
abbrev S8x128 : Shape := ⟨2, ![8, 128]⟩
abbrev S512x10 : Shape := ⟨2, ![512, 10]⟩
abbrev S528x128 : Shape := ⟨2, ![528, 128]⟩
abbrev S528x384 : Shape := ⟨2, ![528, 384]⟩
abbrev S1x384 : Shape := ⟨2, ![1, 384]⟩
abbrev S1x128 : Shape := ⟨2, ![1, 128]⟩
abbrev S528x256 : Shape := ⟨2, ![528, 256]⟩
abbrev S528x1 : Shape := ⟨2, ![528, 1]⟩
abbrev S514x1 : Shape := ⟨2, ![514, 1]⟩
abbrev S514x128 : Shape := ⟨2, ![514, 128]⟩
abbrev S514x64 : Shape := ⟨2, ![514, 64]⟩
abbrev S512x1 : Shape := ⟨2, ![512, 1]⟩
abbrev S512x64 : Shape := ⟨2, ![512, 64]⟩
abbrev S1x64 : Shape := ⟨2, ![1, 64]⟩
abbrev S1x10 : Shape := ⟨2, ![1, 10]⟩

abbrev nBuf : Space → Nat
  | .hbm => 20
  | .vmem => 26
  | .smem => 0
  | _ => 0

abbrev bufTy : (tb : Table) → Fin (tcTables nBuf tb) → BufTy
  | .hbm, ⟨0, _⟩ => ⟨S131072x128, .f32⟩
  | .hbm, ⟨1, _⟩ => ⟨S384x128, .f32⟩
  | .hbm, ⟨2, _⟩ => ⟨S384, .f32⟩
  | .hbm, ⟨3, _⟩ => ⟨S384, .f32⟩
  | .hbm, ⟨4, _⟩ => ⟨S384x128, .f32⟩
  | .hbm, ⟨5, _⟩ => ⟨S384, .f32⟩
  | .hbm, ⟨6, _⟩ => ⟨S384, .f32⟩
  | .hbm, ⟨7, _⟩ => ⟨S384x256, .f32⟩
  | .hbm, ⟨8, _⟩ => ⟨S384, .f32⟩
  | .hbm, ⟨9, _⟩ => ⟨S384, .f32⟩
  | .hbm, ⟨10, _⟩ => ⟨S384x256, .f32⟩
  | .hbm, ⟨11, _⟩ => ⟨S384, .f32⟩
  | .hbm, ⟨12, _⟩ => ⟨S384, .f32⟩
  | .hbm, ⟨13, _⟩ => ⟨S256x128, .f32⟩
  | .hbm, ⟨14, _⟩ => ⟨S128, .f32⟩
  | .hbm, ⟨15, _⟩ => ⟨S128x64, .f32⟩
  | .hbm, ⟨16, _⟩ => ⟨S64, .f32⟩
  | .hbm, ⟨17, _⟩ => ⟨S64x10, .f32⟩
  | .hbm, ⟨18, _⟩ => ⟨S10, .f32⟩
  | .hbm, ⟨19, _⟩ => ⟨S131072x10, .f32⟩
  | .local _ .vmem, ⟨0, _⟩ => ⟨S512x128, .f32⟩
  | .local _ .vmem, ⟨1, _⟩ => ⟨S512x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S384x128, .f32⟩
  | .local _ .vmem, ⟨7, _⟩ => ⟨S384, .f32⟩
  | .local _ .vmem, ⟨8, _⟩ => ⟨S384, .f32⟩
  | .local _ .vmem, ⟨9, _⟩ => ⟨S384x128, .f32⟩
  | .local _ .vmem, ⟨10, _⟩ => ⟨S384, .f32⟩
  | .local _ .vmem, ⟨11, _⟩ => ⟨S384, .f32⟩
  | .local _ .vmem, ⟨12, _⟩ => ⟨S384x256, .f32⟩
  | .local _ .vmem, ⟨13, _⟩ => ⟨S384, .f32⟩
  | .local _ .vmem, ⟨14, _⟩ => ⟨S384, .f32⟩
  | .local _ .vmem, ⟨15, _⟩ => ⟨S384x256, .f32⟩
  | .local _ .vmem, ⟨16, _⟩ => ⟨S384, .f32⟩
  | .local _ .vmem, ⟨17, _⟩ => ⟨S384, .f32⟩
  | .local _ .vmem, ⟨18, _⟩ => ⟨S256x128, .f32⟩
  | .local _ .vmem, ⟨19, _⟩ => ⟨S128, .f32⟩
  | .local _ .vmem, ⟨20, _⟩ => ⟨S128x64, .f32⟩
  | .local _ .vmem, ⟨21, _⟩ => ⟨S64, .f32⟩
  | .local _ .vmem, ⟨22, _⟩ => ⟨S64x10, .f32⟩
  | .local _ .vmem, ⟨23, _⟩ => ⟨S10, .f32⟩
  | .local _ .vmem, ⟨24, _⟩ => ⟨S512x10, .f32⟩
  | .local _ .vmem, ⟨25, _⟩ => ⟨S512x10, .f32⟩
  | _, _ => ⟨S131072x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg17_0 : Ref sig .tc := ⟨.vmem, 20, rfl⟩
abbrev cc0_stg18_0 : Ref sig .tc := ⟨.vmem, 21, rfl⟩
abbrev cc0_stg19_0 : Ref sig .tc := ⟨.vmem, 22, rfl⟩
abbrev cc0_stg20_0 : Ref sig .tc := ⟨.vmem, 23, rfl⟩
abbrev cc0_stg21_0 : Ref sig .tc := ⟨.vmem, 24, rfl⟩
abbrev cc0_stg21_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem17_0 : DmaSem sig := 20
abbrev cc0_sem18_0 : DmaSem sig := 21
abbrev cc0_sem19_0 : DmaSem sig := 22
abbrev cc0_sem20_0 : DmaSem sig := 23
abbrev cc0_sem21_0 : DmaSem sig := 24
abbrev cc0_sem21_1 : DmaSem sig := 25

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c16383_i32 : BitVec 32 := 16383#32
  let v2 : BitVec 32 := Scalar.minsi v1 c16383_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S384x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S384 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S384x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S384 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S384x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S384 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S384 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S384x256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S384 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S384 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x128 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S128x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S64x10 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S10 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S512x10 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

class Facts₀ : Prop where
  inb_S8x128_S8x128_0_0 : ∀ a, (![0, 0] : Fin 2 → Nat) a + S8x128.size a ≤ S8x128.size a
  h_S8x128 : 0 < S8x128.numel
  inb_S512x128_S512x128_0_0 : ∀ a, (![0, 0] : Fin 2 → Nat) a + S512x128.size a ≤ S512x128.size a
  h_S512x128 : 0 < S512x128.numel
  concatenates_S8x128_S512x128_S8x128_S528x128_d0 : Shape.Concatenates [S8x128, S512x128, S8x128] S528x128 0
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S384_S384_0 : ∀ a, (![0] : Fin 1 → Nat) a + S384.size a ≤ S384.size a
  h_S384 : 0 < S384.numel
  shapeCasts_S384_S1x384 : S384.ShapeCasts S1x384
  broadcasts_S1x384_S528x384 : S1x384.Broadcasts S528x384
  slices_S528x384_o0_0_S528x128 : S528x384.Slices ![0, 0] S528x128
  slices_S528x384_o0_128_S528x128 : S528x384.Slices ![0, 128] S528x128
  slices_S528x384_o0_256_S528x128 : S528x384.Slices ![0, 256] S528x128
  slices_S384_o0_S128 : S384.Slices ![0] S128
  slices_S384_o128_S128 : S384.Slices ![128] S128
  slices_S384_o256_S128 : S384.Slices ![256] S128
  shapeCasts_S128_S1x128 : S128.ShapeCasts S1x128
  broadcasts_S1x128_S528x128 : S1x128.Broadcasts S528x128
  concatenates_S528x128_S528x128_S528x256_d1 : Shape.Concatenates [S528x128, S528x128] S528x256 1
  inb_S384x256_S384x256_0_0 : ∀ a, (![0, 0] : Fin 2 → Nat) a + S384x256.size a ≤ S384x256.size a
  h_S384x256 : 0 < S384x256.numel
  inb_S256x128_S256x128_0_0 : ∀ a, (![0, 0] : Fin 2 → Nat) a + S256x128.size a ≤ S256x128.size a
  h_S256x128 : 0 < S256x128.numel
  iota_S528x1_d0_w32 : S528x1.Iotas .tc 32 [0]
  slices_S528x1_o7_0_S514x1 : S528x1.Slices ![7, 0] S514x1
  slices_S528x1_o6_0_S514x1 : S528x1.Slices ![6, 0] S514x1
  slices_S528x1_o8_0_S514x1 : S528x1.Slices ![8, 0] S514x1
  natLt_1_32 : 1 < 32
  slices_S528x128_o7_0_S514x128 : S528x128.Slices ![7, 0] S514x128
  slices_S528x128_o6_0_S514x128 : S528x128.Slices ![6, 0] S514x128
  slices_S528x128_o8_0_S514x128 : S528x128.Slices ![8, 0] S514x128
  broadcasts_S514x1_S514x128 : S514x1.Broadcasts S514x128
  inb_S128_S128_0 : ∀ a, (![0] : Fin 1 → Nat) a + S128.size a ≤ S128.size a
  h_S128 : 0 < S128.numel
  broadcasts_S1x128_S514x128 : S1x128.Broadcasts S514x128
  inb_S128x64_S128x64_0_0 : ∀ a, (![0, 0] : Fin 2 → Nat) a + S128x64.size a ≤ S128x64.size a
  h_S128x64 : 0 < S128x64.numel
  slices_S514x1_o1_0_S512x1 : S514x1.Slices ![1, 0] S512x1
  slices_S514x64_o1_0_S512x64 : S514x64.Slices ![1, 0] S512x64
  slices_S514x64_o0_0_S512x64 : S514x64.Slices ![0, 0] S512x64
  slices_S514x64_o2_0_S512x64 : S514x64.Slices ![2, 0] S512x64
  broadcasts_S512x1_S512x64 : S512x1.Broadcasts S512x64
  inb_S64_S64_0 : ∀ a, (![0] : Fin 1 → Nat) a + S64.size a ≤ S64.size a
  h_S64 : 0 < S64.numel
  shapeCasts_S64_S1x64 : S64.ShapeCasts S1x64
  broadcasts_S1x64_S512x64 : S1x64.Broadcasts S512x64
  inb_S64x10_S64x10_0_0 : ∀ a, (![0, 0] : Fin 2 → Nat) a + S64x10.size a ≤ S64x10.size a
  h_S64x10 : 0 < S64x10.numel
  inb_S10_S10_0 : ∀ a, (![0] : Fin 1 → Nat) a + S10.size a ≤ S10.size a
  h_S10 : 0 < S10.numel
  shapeCasts_S10_S1x10 : S10.ShapeCasts S1x10
  broadcasts_S1x10_S512x10 : S1x10.Broadcasts S512x10
  inb_S512x10_S512x10_0_0 : ∀ a, (![0, 0] : Fin 2 → Nat) a + S512x10.size a ≤ S512x10.size a
  h_S512x10 : 0 < S512x10.numel
  dot_S528x128_S384x128_S528x384_1_1_0_0_n_n_wf : DotDims.WF S528x128 S384x128 S528x384 [1] [1] [0] [0] [] []
  dot_S528x256_S384x256_S528x384_1_1_0_0_n_n_wf : DotDims.WF S528x256 S384x256 S528x384 [1] [1] [0] [0] [] []
  dot_S528x256_S256x128_S528x128_1_0_0_1_n_n_wf : DotDims.WF S528x256 S256x128 S528x128 [1] [0] [0] [1] [] []
  dot_S514x128_S128x64_S514x64_1_0_0_1_n_n_wf : DotDims.WF S514x128 S128x64 S514x64 [1] [0] [0] [1] [] []
  dot_S512x64_S64x10_S512x10_1_0_0_1_n_n_wf : DotDims.WF S512x64 S64x10 S512x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x128.size a ≤ S131072x128.size a
  hwx0_0 : ∀ i : grid0.Coords, EltTy.bits .f32 = 32 ∨ (Rect.block (s := S131072x128) S512x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128.size a ≤ S131072x128.size a
  hwx0_1 : ∀ i : grid0.Coords, EltTy.bits .f32 = 32 ∨ (Rect.block (s := S131072x128) S8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S131072x128.size a
  hwx0_2 : ∀ i : grid0.Coords, EltTy.bits .f32 = 32 ∨ (Rect.block (s := S131072x128) S8x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S384x128.size a ≤ S384x128.size a
  hwx0_3 : ∀ i : grid0.Coords, EltTy.bits .f32 = 32 ∨ (Rect.block (s := S384x128) S384x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S384.size a ≤ S384.size a
  hwx0_4 : ∀ i : grid0.Coords, EltTy.bits .f32 = 32 ∨ (Rect.block (s := S384) S384.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S384.size a ≤ S384.size a
  hwx0_5 : ∀ i : grid0.Coords, EltTy.bits .f32 = 32 ∨ (Rect.block (s := S384) S384.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S384x128.size a ≤ S384x128.size a
  hwx0_6 : ∀ i : grid0.Coords, EltTy.bits .f32 = 32 ∨ (Rect.block (s := S384x128) S384x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S384.size a ≤ S384.size a
  hwx0_7 : ∀ i : grid0.Coords, EltTy.bits .f32 = 32 ∨ (Rect.block (s := S384) S384.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S384.size a ≤ S384.size a
  hwx0_8 : ∀ i : grid0.Coords, EltTy.bits .f32 = 32 ∨ (Rect.block (s := S384) S384.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S384x256.size a ≤ S384x256.size a
  hwx0_9 : ∀ i : grid0.Coords, EltTy.bits .f32 = 32 ∨ (Rect.block (s := S384x256) S384x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S384.size a ≤ S384.size a
  hwx0_10 : ∀ i : grid0.Coords, EltTy.bits .f32 = 32 ∨ (Rect.block (s := S384) S384.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S384.size a ≤ S384.size a
  hwx0_11 : ∀ i : grid0.Coords, EltTy.bits .f32 = 32 ∨ (Rect.block (s := S384) S384.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S384x256.size a ≤ S384x256.size a
  hwx0_12 : ∀ i : grid0.Coords, EltTy.bits .f32 = 32 ∨ (Rect.block (s := S384x256) S384x256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S384.size a ≤ S384.size a
  hwx0_13 : ∀ i : grid0.Coords, EltTy.bits .f32 = 32 ∨ (Rect.block (s := S384) S384.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S384.size a ≤ S384.size a
  hwx0_14 : ∀ i : grid0.Coords, EltTy.bits .f32 = 32 ∨ (Rect.block (s := S384) S384.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x128.size a ≤ S256x128.size a
  hwx0_15 : ∀ i : grid0.Coords, EltTy.bits .f32 = 32 ∨ (Rect.block (s := S256x128) S256x128.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S128.size a ≤ S128.size a
  hwx0_16 : ∀ i : grid0.Coords, EltTy.bits .f32 = 32 ∨ (Rect.block (s := S128) S128.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S128x64.size a ≤ S128x64.size a
  hwx0_17 : ∀ i : grid0.Coords, EltTy.bits .f32 = 32 ∨ (Rect.block (s := S128x64) S128x64.size (cc0_transform_17 i) (hinb0_17 i)).WholeWords (EltTy.packing .f32)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S64.size a ≤ S64.size a
  hwx0_18 : ∀ i : grid0.Coords, EltTy.bits .f32 = 32 ∨ (Rect.block (s := S64) S64.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S64x10.size a ≤ S64x10.size a
  hwx0_19 : ∀ i : grid0.Coords, EltTy.bits .f32 = 32 ∨ (Rect.block (s := S64x10) S64x10.size (cc0_transform_19 i) (hinb0_19 i)).WholeWords (EltTy.packing .f32)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S10.size a ≤ S10.size a
  hwx0_20 : ∀ i : grid0.Coords, EltTy.bits .f32 = 32 ∨ (Rect.block (s := S10) S10.size (cc0_transform_20 i) (hinb0_20 i)).WholeWords (EltTy.packing .f32)
  hstage0_21 : ∀ j, (stage0_21 j).IsWhole
  nbuf0_21 : grid0.bufCount reads0_21 false = 2
  hreads0_21 : ∀ i i' : grid0.Coords, (∀ a, reads0_21 a = true → i a = i' a) → cc0_transform_21 i = cc0_transform_21 i'
  hinb0_21 : ∀ (i : grid0.Coords) a, (cc0_transform_21 i a + 1) * S512x10.size a ≤ S131072x10.size a
  hwx0_21 : ∀ i : grid0.Coords, EltTy.bits .f32 = 32 ∨ (Rect.block (s := S131072x10) S512x10.size (cc0_transform_21 i) (hinb0_21 i)).WholeWords (EltTy.packing .f32)

variable [Facts₀]

def dot_S528x128_S384x128_S528x384_1_1_0_0_n_n : DotDims S528x128 S384x128 S528x384 where
  lhsContracting := [1]
  rhsContracting := [1]
  lhsNonContracting := [0]
  rhsNonContracting := [0]
  lhsBatch := []
  rhsBatch := []
  wf := dot_S528x128_S384x128_S528x384_1_1_0_0_n_n_wf
def dot_S528x256_S384x256_S528x384_1_1_0_0_n_n : DotDims S528x256 S384x256 S528x384 where
  lhsContracting := [1]
  rhsContracting := [1]
  lhsNonContracting := [0]
  rhsNonContracting := [0]
  lhsBatch := []
  rhsBatch := []
  wf := dot_S528x256_S384x256_S528x384_1_1_0_0_n_n_wf
def dot_S528x256_S256x128_S528x128_1_0_0_1_n_n : DotDims S528x256 S256x128 S528x128 where
  lhsContracting := [1]
  rhsContracting := [0]
  lhsNonContracting := [0]
  rhsNonContracting := [1]
  lhsBatch := []
  rhsBatch := []
  wf := dot_S528x256_S256x128_S528x128_1_0_0_1_n_n_wf
def dot_S514x128_S128x64_S514x64_1_0_0_1_n_n : DotDims S514x128 S128x64 S514x64 where
  lhsContracting := [1]
  rhsContracting := [0]
  lhsNonContracting := [0]
  rhsNonContracting := [1]
  lhsBatch := []
  rhsBatch := []
  wf := dot_S514x128_S128x64_S514x64_1_0_0_1_n_n_wf
def dot_S512x64_S64x10_S512x10_1_0_0_1_n_n : DotDims S512x64 S64x10 S512x10 where
  lhsContracting := [1]
  rhsContracting := [0]
  lhsNonContracting := [0]
  rhsNonContracting := [1]
  lhsBatch := []
  rhsBatch := []
  wf := dot_S512x64_S64x10_S512x10_1_0_0_1_n_n_wf

abbrev win0_0 : Pipeline.Window sig grid0 :=
  Pipeline.Window.ofSpec (Memref.whole main_arg0) S512x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S8x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S384x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S384.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S384.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S384x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S384.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg6) S384.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg7) S384x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S384.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg9) S384.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg10) S384x256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg11) S384.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg12) S384.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg13) S256x128.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg14) S128.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_arg15) S128x64.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg16) S64.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_arg17) S64x10.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg18) S10.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v0) S512x10.size cc0_transform_21 reads0_21 true false 2 stage0_21 sem0_21
    hrank0 hreads0_21 hinb0_21 nbuf0_21 (Memref.isWhole_whole _) hwx0_21 hstage0_21

abbrev win0 : Fin 22 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | ⟨_ + 22, h⟩ => absurd h (Nat.not_lt.2 (Nat.le_add_left _ _))
abbrev spec0 : Fin 22 → Pipeline.WinSpec sig grid0.rank := fun w => (win0 w).toWinSpec

class Facts : Prop extends Facts₀ where

variable [Facts]
-- ==== ReferenceIdeal.lean ====
abbrev S131072x128 : Shape := ⟨2, ![131072, 128]⟩
abbrev S384x128 : Shape := ⟨2, ![384, 128]⟩
abbrev S384 : Shape := ⟨1, ![384]⟩
abbrev S384x256 : Shape := ⟨2, ![384, 256]⟩
abbrev S256x128 : Shape := ⟨2, ![256, 128]⟩
abbrev S128 : Shape := ⟨1, ![128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S128x384 : Shape := ⟨2, ![128, 384]⟩
abbrev S131072x384 : Shape := ⟨2, ![131072, 384]⟩
abbrev S1x384 : Shape := ⟨2, ![1, 384]⟩
abbrev S1x128 : Shape := ⟨2, ![1, 128]⟩
abbrev S_ : Shape := ⟨0, ![]⟩
abbrev S131072x256 : Shape := ⟨2, ![131072, 256]⟩
abbrev S256x384 : Shape := ⟨2, ![256, 384]⟩
abbrev S131071 : Shape := ⟨1, ![131071]⟩
abbrev S131072 : Shape := ⟨1, ![131072]⟩
abbrev S393214 : Shape := ⟨1, ![393214]⟩
abbrev S393214x1 : Shape := ⟨2, ![393214, 1]⟩
abbrev S393214x128 : Shape := ⟨2, ![393214, 128]⟩
abbrev S131072x64 : Shape := ⟨2, ![131072, 64]⟩
abbrev S393214x64 : Shape := ⟨2, ![393214, 64]⟩
abbrev S1x64 : Shape := ⟨2, ![1, 64]⟩
abbrev S131072x10 : Shape := ⟨2, ![131072, 10]⟩
abbrev S1x10 : Shape := ⟨2, ![1, 10]⟩

abbrev nBuf : Space → Nat
  | .hbm => 293
  | .vmem => 0
  | .smem => 0
  | _ => 0

abbrev hbmTy0_0 (i : Nat) : BufTy := match i % 128 with
  | 0 => ⟨S131072x128, .f32⟩
  | 1 => ⟨S384x128, .f32⟩
  | 2 => ⟨S384, .f32⟩
  | 3 => ⟨S384, .f32⟩
  | 4 => ⟨S384x128, .f32⟩
  | 5 => ⟨S384, .f32⟩
  | 6 => ⟨S384, .f32⟩
  | 7 => ⟨S384x256, .f32⟩
  | 8 => ⟨S384, .f32⟩
  | 9 => ⟨S384, .f32⟩
  | 10 => ⟨S384x256, .f32⟩
  | 11 => ⟨S384, .f32⟩
  | 12 => ⟨S384, .f32⟩
  | 13 => ⟨S256x128, .f32⟩
  | 14 => ⟨S128, .f32⟩
  | 15 => ⟨S128x64, .f32⟩
  | 16 => ⟨S64, .f32⟩
  | 17 => ⟨S64x10, .f32⟩
  | 18 => ⟨S10, .f32⟩
  | 19 => ⟨S128x384, .f32⟩
  | 20 => ⟨S131072x384, .f32⟩
  | 21 => ⟨S1x384, .f32⟩
  | 22 => ⟨S131072x384, .f32⟩
  | 23 => ⟨S131072x384, .f32⟩
  | 24 => ⟨S131072x128, .f32⟩
  | 25 => ⟨S131072x128, .f32⟩
  | 26 => ⟨S131072x128, .f32⟩
  | 27 => ⟨S128, .f32⟩
  | 28 => ⟨S128, .f32⟩
  | 29 => ⟨S128, .f32⟩
  | 30 => ⟨S1x128, .f32⟩
  | 31 => ⟨S131072x128, .f32⟩
  | 32 => ⟨S131072x128, .f32⟩
  | 33 => ⟨S131072x128, .f32⟩
  | 34 => ⟨S131072x128, .f32⟩
  | 35 => ⟨S_, .f32⟩
  | 36 => ⟨S131072x128, .f32⟩
  | 37 => ⟨S131072x128, .f32⟩
  | 38 => ⟨S_, .f32⟩
  | 39 => ⟨S131072x128, .f32⟩
  | 40 => ⟨S131072x128, .f32⟩
  | 41 => ⟨S1x128, .f32⟩
  | 42 => ⟨S131072x128, .f32⟩
  | 43 => ⟨S131072x128, .f32⟩
  | 44 => ⟨S131072x128, .f32⟩
  | 45 => ⟨S131072x128, .f32⟩
  | 46 => ⟨S_, .f32⟩
  | 47 => ⟨S131072x128, .f32⟩
  | 48 => ⟨S131072x128, .f32⟩
  | 49 => ⟨S_, .f32⟩
  | 50 => ⟨S131072x128, .f32⟩
  | 51 => ⟨S131072x128, .f32⟩
  | 52 => ⟨S1x128, .f32⟩
  | 53 => ⟨S131072x128, .f32⟩
  | 54 => ⟨S131072x128, .f32⟩
  | 55 => ⟨S131072x128, .f32⟩
  | 56 => ⟨S131072x128, .f32⟩
  | 57 => ⟨S_, .f32⟩
  | 58 => ⟨S131072x128, .f32⟩
  | 59 => ⟨S131072x128, .f32⟩
  | 60 => ⟨S131072x128, .f32⟩
  | 61 => ⟨S128x384, .f32⟩
  | 62 => ⟨S131072x384, .f32⟩
  | 63 => ⟨S1x384, .f32⟩
  | 64 => ⟨S131072x384, .f32⟩
  | 65 => ⟨S131072x384, .f32⟩
  | 66 => ⟨S131072x128, .f32⟩
  | 67 => ⟨S131072x128, .f32⟩
  | 68 => ⟨S131072x128, .f32⟩
  | 69 => ⟨S128, .f32⟩
  | 70 => ⟨S128, .f32⟩
  | 71 => ⟨S128, .f32⟩
  | 72 => ⟨S1x128, .f32⟩
  | 73 => ⟨S131072x128, .f32⟩
  | 74 => ⟨S131072x128, .f32⟩
  | 75 => ⟨S131072x128, .f32⟩
  | 76 => ⟨S131072x128, .f32⟩
  | 77 => ⟨S_, .f32⟩
  | 78 => ⟨S131072x128, .f32⟩
  | 79 => ⟨S131072x128, .f32⟩
  | 80 => ⟨S_, .f32⟩
  | 81 => ⟨S131072x128, .f32⟩
  | 82 => ⟨S131072x128, .f32⟩
  | 83 => ⟨S1x128, .f32⟩
  | 84 => ⟨S131072x128, .f32⟩
  | 85 => ⟨S131072x128, .f32⟩
  | 86 => ⟨S131072x128, .f32⟩
  | 87 => ⟨S131072x128, .f32⟩
  | 88 => ⟨S_, .f32⟩
  | 89 => ⟨S131072x128, .f32⟩
  | 90 => ⟨S131072x128, .f32⟩
  | 91 => ⟨S_, .f32⟩
  | 92 => ⟨S131072x128, .f32⟩
  | 93 => ⟨S131072x128, .f32⟩
  | 94 => ⟨S1x128, .f32⟩
  | 95 => ⟨S131072x128, .f32⟩
  | 96 => ⟨S131072x128, .f32⟩
  | 97 => ⟨S131072x128, .f32⟩
  | 98 => ⟨S131072x128, .f32⟩
  | 99 => ⟨S_, .f32⟩
  | 100 => ⟨S131072x128, .f32⟩
  | 101 => ⟨S131072x128, .f32⟩
  | 102 => ⟨S131072x128, .f32⟩
  | 103 => ⟨S131072x256, .f32⟩
  | 104 => ⟨S256x384, .f32⟩
  | 105 => ⟨S131072x384, .f32⟩
  | 106 => ⟨S1x384, .f32⟩
  | 107 => ⟨S131072x384, .f32⟩
  | 108 => ⟨S131072x384, .f32⟩
  | 109 => ⟨S131072x128, .f32⟩
  | 110 => ⟨S131072x128, .f32⟩
  | 111 => ⟨S131072x128, .f32⟩
  | 112 => ⟨S128, .f32⟩
  | 113 => ⟨S128, .f32⟩
  | 114 => ⟨S128, .f32⟩
  | 115 => ⟨S1x128, .f32⟩
  | 116 => ⟨S131072x128, .f32⟩
  | 117 => ⟨S131072x128, .f32⟩
  | 118 => ⟨S131072x128, .f32⟩
  | 119 => ⟨S131072x128, .f32⟩
  | 120 => ⟨S_, .f32⟩
  | 121 => ⟨S131072x128, .f32⟩
  | 122 => ⟨S131072x128, .f32⟩
  | 123 => ⟨S_, .f32⟩
  | 124 => ⟨S131072x128, .f32⟩
  | 125 => ⟨S131072x128, .f32⟩
  | 126 => ⟨S1x128, .f32⟩
  | 127 => ⟨S131072x128, .f32⟩
  | _ => ⟨S131072x128, .f32⟩

abbrev hbmTy0_1 (i : Nat) : BufTy := match i % 128 with
  | 0 => ⟨S131072x128, .f32⟩
  | 1 => ⟨S131072x128, .f32⟩
  | 2 => ⟨S131072x128, .f32⟩
  | 3 => ⟨S_, .f32⟩
  | 4 => ⟨S131072x128, .f32⟩
  | 5 => ⟨S131072x128, .f32⟩
  | 6 => ⟨S_, .f32⟩
  | 7 => ⟨S131072x128, .f32⟩
  | 8 => ⟨S131072x128, .f32⟩
  | 9 => ⟨S1x128, .f32⟩
  | 10 => ⟨S131072x128, .f32⟩
  | 11 => ⟨S131072x128, .f32⟩
  | 12 => ⟨S131072x128, .f32⟩
  | 13 => ⟨S131072x128, .f32⟩
  | 14 => ⟨S_, .f32⟩
  | 15 => ⟨S131072x128, .f32⟩
  | 16 => ⟨S131072x128, .f32⟩
  | 17 => ⟨S131072x128, .f32⟩
  | 18 => ⟨S256x384, .f32⟩
  | 19 => ⟨S131072x384, .f32⟩
  | 20 => ⟨S1x384, .f32⟩
  | 21 => ⟨S131072x384, .f32⟩
  | 22 => ⟨S131072x384, .f32⟩
  | 23 => ⟨S131072x128, .f32⟩
  | 24 => ⟨S131072x128, .f32⟩
  | 25 => ⟨S131072x128, .f32⟩
  | 26 => ⟨S128, .f32⟩
  | 27 => ⟨S128, .f32⟩
  | 28 => ⟨S128, .f32⟩
  | 29 => ⟨S1x128, .f32⟩
  | 30 => ⟨S131072x128, .f32⟩
  | 31 => ⟨S131072x128, .f32⟩
  | 32 => ⟨S131072x128, .f32⟩
  | 33 => ⟨S131072x128, .f32⟩
  | 34 => ⟨S_, .f32⟩
  | 35 => ⟨S131072x128, .f32⟩
  | 36 => ⟨S131072x128, .f32⟩
  | 37 => ⟨S_, .f32⟩
  | 38 => ⟨S131072x128, .f32⟩
  | 39 => ⟨S131072x128, .f32⟩
  | 40 => ⟨S1x128, .f32⟩
  | 41 => ⟨S131072x128, .f32⟩
  | 42 => ⟨S131072x128, .f32⟩
  | 43 => ⟨S131072x128, .f32⟩
  | 44 => ⟨S131072x128, .f32⟩
  | 45 => ⟨S_, .f32⟩
  | 46 => ⟨S131072x128, .f32⟩
  | 47 => ⟨S131072x128, .f32⟩
  | 48 => ⟨S_, .f32⟩
  | 49 => ⟨S131072x128, .f32⟩
  | 50 => ⟨S131072x128, .f32⟩
  | 51 => ⟨S1x128, .f32⟩
  | 52 => ⟨S131072x128, .f32⟩
  | 53 => ⟨S131072x128, .f32⟩
  | 54 => ⟨S131072x128, .f32⟩
  | 55 => ⟨S131072x128, .f32⟩
  | 56 => ⟨S_, .f32⟩
  | 57 => ⟨S131072x128, .f32⟩
  | 58 => ⟨S131072x128, .f32⟩
  | 59 => ⟨S131072x128, .f32⟩
  | 60 => ⟨S131072x256, .f32⟩
  | 61 => ⟨S131071, .i32⟩
  | 62 => ⟨S131071, .i32⟩
  | 63 => ⟨S_, .i32⟩
  | 64 => ⟨S131071, .i32⟩
  | 65 => ⟨S131071, .i32⟩
  | 66 => ⟨S131072, .i32⟩
  | 67 => ⟨S393214, .i32⟩
  | 68 => ⟨S393214, .i32⟩
  | 69 => ⟨S131072x128, .f32⟩
  | 70 => ⟨S_, .f32⟩
  | 71 => ⟨S393214, .f32⟩
  | 72 => ⟨S_, .f32⟩
  | 73 => ⟨S131072, .f32⟩
  | 74 => ⟨S393214x1, .i32⟩
  | 75 => ⟨S131072, .f32⟩
  | 76 => ⟨S131072, .f32⟩
  | 77 => ⟨S_, .i32⟩
  | 78 => ⟨S393214, .i32⟩
  | 79 => ⟨S393214, .i1⟩
  | 80 => ⟨S_, .i32⟩
  | 81 => ⟨S393214, .i32⟩
  | 82 => ⟨S393214, .i32⟩
  | 83 => ⟨S393214, .i32⟩
  | 84 => ⟨S393214x1, .i32⟩
  | 85 => ⟨S393214, .f32⟩
  | 86 => ⟨S_, .i32⟩
  | 87 => ⟨S393214, .i32⟩
  | 88 => ⟨S393214, .i1⟩
  | 89 => ⟨S_, .i32⟩
  | 90 => ⟨S393214, .i32⟩
  | 91 => ⟨S393214, .i32⟩
  | 92 => ⟨S393214, .i32⟩
  | 93 => ⟨S393214x1, .i32⟩
  | 94 => ⟨S393214, .f32⟩
  | 95 => ⟨S393214, .f32⟩
  | 96 => ⟨S393214x1, .f32⟩
  | 97 => ⟨S_, .i32⟩
  | 98 => ⟨S393214, .i32⟩
  | 99 => ⟨S393214, .i1⟩
  | 100 => ⟨S_, .i32⟩
  | 101 => ⟨S393214, .i32⟩
  | 102 => ⟨S393214, .i32⟩
  | 103 => ⟨S393214, .i32⟩
  | 104 => ⟨S393214x1, .i32⟩
  | 105 => ⟨S393214x128, .f32⟩
  | 106 => ⟨S393214x128, .f32⟩
  | 107 => ⟨S393214x128, .f32⟩
  | 108 => ⟨S_, .f32⟩
  | 109 => ⟨S131072x128, .f32⟩
  | 110 => ⟨S393214x1, .i32⟩
  | 111 => ⟨S131072x128, .f32⟩
  | 112 => ⟨S1x128, .f32⟩
  | 113 => ⟨S131072x128, .f32⟩
  | 114 => ⟨S131072x128, .f32⟩
  | 115 => ⟨S131072x64, .f32⟩
  | 116 => ⟨S_, .f32⟩
  | 117 => ⟨S393214, .f32⟩
  | 118 => ⟨S_, .f32⟩
  | 119 => ⟨S131072, .f32⟩
  | 120 => ⟨S393214x1, .i32⟩
  | 121 => ⟨S131072, .f32⟩
  | 122 => ⟨S131072, .f32⟩
  | 123 => ⟨S_, .i32⟩
  | 124 => ⟨S393214, .i32⟩
  | 125 => ⟨S393214, .i1⟩
  | 126 => ⟨S_, .i32⟩
  | 127 => ⟨S393214, .i32⟩
  | _ => ⟨S131072x128, .f32⟩

abbrev hbmTy0_2 (i : Nat) : BufTy := match i % 128 with
  | 0 => ⟨S393214, .i32⟩
  | 1 => ⟨S393214, .i32⟩
  | 2 => ⟨S393214x1, .i32⟩
  | 3 => ⟨S393214, .f32⟩
  | 4 => ⟨S_, .i32⟩
  | 5 => ⟨S393214, .i32⟩
  | 6 => ⟨S393214, .i1⟩
  | 7 => ⟨S_, .i32⟩
  | 8 => ⟨S393214, .i32⟩
  | 9 => ⟨S393214, .i32⟩
  | 10 => ⟨S393214, .i32⟩
  | 11 => ⟨S393214x1, .i32⟩
  | 12 => ⟨S393214, .f32⟩
  | 13 => ⟨S393214, .f32⟩
  | 14 => ⟨S393214x1, .f32⟩
  | 15 => ⟨S_, .i32⟩
  | 16 => ⟨S393214, .i32⟩
  | 17 => ⟨S393214, .i1⟩
  | 18 => ⟨S_, .i32⟩
  | 19 => ⟨S393214, .i32⟩
  | 20 => ⟨S393214, .i32⟩
  | 21 => ⟨S393214, .i32⟩
  | 22 => ⟨S393214x1, .i32⟩
  | 23 => ⟨S393214x64, .f32⟩
  | 24 => ⟨S393214x64, .f32⟩
  | 25 => ⟨S393214x64, .f32⟩
  | 26 => ⟨S_, .f32⟩
  | 27 => ⟨S131072x64, .f32⟩
  | 28 => ⟨S393214x1, .i32⟩
  | 29 => ⟨S131072x64, .f32⟩
  | 30 => ⟨S1x64, .f32⟩
  | 31 => ⟨S131072x64, .f32⟩
  | 32 => ⟨S131072x64, .f32⟩
  | 33 => ⟨S131072x10, .f32⟩
  | 34 => ⟨S1x10, .f32⟩
  | 35 => ⟨S131072x10, .f32⟩
  | 36 => ⟨S131072x10, .f32⟩
  | _ => ⟨S131072x128, .f32⟩

abbrev hbmTy (i : Nat) : BufTy := match i / 128 with
  | 0 => hbmTy0_0 i
  | 1 => hbmTy0_1 i
  | 2 => hbmTy0_2 i
  | _ => ⟨S131072x128, .f32⟩

abbrev bufTy : (tb : Table) → Fin (tcTables nBuf tb) → BufTy
  | .hbm, ⟨i, _⟩ => hbmTy i
  | _, _ => ⟨S131072x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst : Ref sig .tc := ⟨.hbm, 35, rfl⟩
abbrev main_v16 : Ref sig .tc := ⟨.hbm, 36, rfl⟩
abbrev main_v17 : Ref sig .tc := ⟨.hbm, 37, rfl⟩
abbrev main_cst_0 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_1 : Ref sig .tc := ⟨.hbm, 46, rfl⟩
abbrev main_v25 : Ref sig .tc := ⟨.hbm, 47, rfl⟩
abbrev main_v26 : Ref sig .tc := ⟨.hbm, 48, rfl⟩
abbrev main_cst_2 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_4 : Ref sig .tc := ⟨.hbm, 77, rfl⟩
abbrev main_v53 : Ref sig .tc := ⟨.hbm, 78, rfl⟩
abbrev main_v54 : Ref sig .tc := ⟨.hbm, 79, rfl⟩
abbrev main_cst_5 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_6 : Ref sig .tc := ⟨.hbm, 88, rfl⟩
abbrev main_v62 : Ref sig .tc := ⟨.hbm, 89, rfl⟩
abbrev main_v63 : Ref sig .tc := ⟨.hbm, 90, rfl⟩
abbrev main_cst_7 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_8 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_cst_9 : Ref sig .tc := ⟨.hbm, 120, rfl⟩
abbrev main_v91 : Ref sig .tc := ⟨.hbm, 121, rfl⟩
abbrev main_v92 : Ref sig .tc := ⟨.hbm, 122, rfl⟩
abbrev main_cst_10 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_cst_11 : Ref sig .tc := ⟨.hbm, 131, rfl⟩
abbrev main_v100 : Ref sig .tc := ⟨.hbm, 132, rfl⟩
abbrev main_v101 : Ref sig .tc := ⟨.hbm, 133, rfl⟩
abbrev main_cst_12 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_v107 : Ref sig .tc := ⟨.hbm, 140, rfl⟩
abbrev main_v108 : Ref sig .tc := ⟨.hbm, 141, rfl⟩
abbrev main_cst_13 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_cst_14 : Ref sig .tc := ⟨.hbm, 162, rfl⟩
abbrev main_v128 : Ref sig .tc := ⟨.hbm, 163, rfl⟩
abbrev main_v129 : Ref sig .tc := ⟨.hbm, 164, rfl⟩
abbrev main_cst_15 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_cst_16 : Ref sig .tc := ⟨.hbm, 173, rfl⟩
abbrev main_v137 : Ref sig .tc := ⟨.hbm, 174, rfl⟩
abbrev main_v138 : Ref sig .tc := ⟨.hbm, 175, rfl⟩
abbrev main_cst_17 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_cst_18 : Ref sig .tc := ⟨.hbm, 184, rfl⟩
abbrev main_v146 : Ref sig .tc := ⟨.hbm, 185, rfl⟩
abbrev main_v147 : Ref sig .tc := ⟨.hbm, 186, rfl⟩
abbrev main_v148 : Ref sig .tc := ⟨.hbm, 187, rfl⟩
abbrev main_v149 : Ref sig .tc := ⟨.hbm, 188, rfl⟩
abbrev main_v150 : Ref sig .tc := ⟨.hbm, 189, rfl⟩
abbrev main_v151 : Ref sig .tc := ⟨.hbm, 190, rfl⟩
abbrev main_c : Ref sig .tc := ⟨.hbm, 191, rfl⟩
abbrev main_v152 : Ref sig .tc := ⟨.hbm, 192, rfl⟩
abbrev main_v153 : Ref sig .tc := ⟨.hbm, 193, rfl⟩
abbrev main_v154 : Ref sig .tc := ⟨.hbm, 194, rfl⟩
abbrev main_v155 : Ref sig .tc := ⟨.hbm, 195, rfl⟩
abbrev main_v156 : Ref sig .tc := ⟨.hbm, 196, rfl⟩
abbrev main_v157 : Ref sig .tc := ⟨.hbm, 197, rfl⟩
abbrev main_cst_19 : Ref sig .tc := ⟨.hbm, 198, rfl⟩
abbrev main_v158 : Ref sig .tc := ⟨.hbm, 199, rfl⟩
abbrev main_cst_20 : Ref sig .tc := ⟨.hbm, 200, rfl⟩
abbrev main_v159 : Ref sig .tc := ⟨.hbm, 201, rfl⟩
abbrev main_v160 : Ref sig .tc := ⟨.hbm, 202, rfl⟩
abbrev main_v161 : Ref sig .tc := ⟨.hbm, 203, rfl⟩
abbrev main_v162 : Ref sig .tc := ⟨.hbm, 204, rfl⟩
abbrev main_c_21 : Ref sig .tc := ⟨.hbm, 205, rfl⟩
abbrev main_v163 : Ref sig .tc := ⟨.hbm, 206, rfl⟩
abbrev main_v164 : Ref sig .tc := ⟨.hbm, 207, rfl⟩
abbrev main_c_22 : Ref sig .tc := ⟨.hbm, 208, rfl⟩
abbrev main_v165 : Ref sig .tc := ⟨.hbm, 209, rfl⟩
abbrev main_v166 : Ref sig .tc := ⟨.hbm, 210, rfl⟩
abbrev main_v167 : Ref sig .tc := ⟨.hbm, 211, rfl⟩
abbrev main_v168 : Ref sig .tc := ⟨.hbm, 212, rfl⟩
abbrev main_v169 : Ref sig .tc := ⟨.hbm, 213, rfl⟩
abbrev main_c_23 : Ref sig .tc := ⟨.hbm, 214, rfl⟩
abbrev main_v170 : Ref sig .tc := ⟨.hbm, 215, rfl⟩
abbrev main_v171 : Ref sig .tc := ⟨.hbm, 216, rfl⟩
abbrev main_c_24 : Ref sig .tc := ⟨.hbm, 217, rfl⟩
abbrev main_v172 : Ref sig .tc := ⟨.hbm, 218, rfl⟩
abbrev main_v173 : Ref sig .tc := ⟨.hbm, 219, rfl⟩
abbrev main_v174 : Ref sig .tc := ⟨.hbm, 220, rfl⟩
abbrev main_v175 : Ref sig .tc := ⟨.hbm, 221, rfl⟩
abbrev main_v176 : Ref sig .tc := ⟨.hbm, 222, rfl⟩
abbrev main_v177 : Ref sig .tc := ⟨.hbm, 223, rfl⟩
abbrev main_v178 : Ref sig .tc := ⟨.hbm, 224, rfl⟩
abbrev main_c_25 : Ref sig .tc := ⟨.hbm, 225, rfl⟩
abbrev main_v179 : Ref sig .tc := ⟨.hbm, 226, rfl⟩
abbrev main_v180 : Ref sig .tc := ⟨.hbm, 227, rfl⟩
abbrev main_c_26 : Ref sig .tc := ⟨.hbm, 228, rfl⟩
abbrev main_v181 : Ref sig .tc := ⟨.hbm, 229, rfl⟩
abbrev main_v182 : Ref sig .tc := ⟨.hbm, 230, rfl⟩
abbrev main_v183 : Ref sig .tc := ⟨.hbm, 231, rfl⟩
abbrev main_v184 : Ref sig .tc := ⟨.hbm, 232, rfl⟩
abbrev main_v185 : Ref sig .tc := ⟨.hbm, 233, rfl⟩
abbrev main_v186 : Ref sig .tc := ⟨.hbm, 234, rfl⟩
abbrev main_v187 : Ref sig .tc := ⟨.hbm, 235, rfl⟩
abbrev main_cst_27 : Ref sig .tc := ⟨.hbm, 236, rfl⟩
abbrev main_v188 : Ref sig .tc := ⟨.hbm, 237, rfl⟩
abbrev main_v189 : Ref sig .tc := ⟨.hbm, 238, rfl⟩
abbrev main_v190 : Ref sig .tc := ⟨.hbm, 239, rfl⟩
abbrev main_v191 : Ref sig .tc := ⟨.hbm, 240, rfl⟩
abbrev main_v192 : Ref sig .tc := ⟨.hbm, 241, rfl⟩
abbrev main_v193 : Ref sig .tc := ⟨.hbm, 242, rfl⟩
abbrev main_v194 : Ref sig .tc := ⟨.hbm, 243, rfl⟩
abbrev main_cst_28 : Ref sig .tc := ⟨.hbm, 244, rfl⟩
abbrev main_v195 : Ref sig .tc := ⟨.hbm, 245, rfl⟩
abbrev main_cst_29 : Ref sig .tc := ⟨.hbm, 246, rfl⟩
abbrev main_v196 : Ref sig .tc := ⟨.hbm, 247, rfl⟩
abbrev main_v197 : Ref sig .tc := ⟨.hbm, 248, rfl⟩
abbrev main_v198 : Ref sig .tc := ⟨.hbm, 249, rfl⟩
abbrev main_v199 : Ref sig .tc := ⟨.hbm, 250, rfl⟩
abbrev main_c_30 : Ref sig .tc := ⟨.hbm, 251, rfl⟩
abbrev main_v200 : Ref sig .tc := ⟨.hbm, 252, rfl⟩
abbrev main_v201 : Ref sig .tc := ⟨.hbm, 253, rfl⟩
abbrev main_c_31 : Ref sig .tc := ⟨.hbm, 254, rfl⟩
abbrev main_v202 : Ref sig .tc := ⟨.hbm, 255, rfl⟩
abbrev main_v203 : Ref sig .tc := ⟨.hbm, 256, rfl⟩
abbrev main_v204 : Ref sig .tc := ⟨.hbm, 257, rfl⟩
abbrev main_v205 : Ref sig .tc := ⟨.hbm, 258, rfl⟩
abbrev main_v206 : Ref sig .tc := ⟨.hbm, 259, rfl⟩
abbrev main_c_32 : Ref sig .tc := ⟨.hbm, 260, rfl⟩
abbrev main_v207 : Ref sig .tc := ⟨.hbm, 261, rfl⟩
abbrev main_v208 : Ref sig .tc := ⟨.hbm, 262, rfl⟩
abbrev main_c_33 : Ref sig .tc := ⟨.hbm, 263, rfl⟩
abbrev main_v209 : Ref sig .tc := ⟨.hbm, 264, rfl⟩
abbrev main_v210 : Ref sig .tc := ⟨.hbm, 265, rfl⟩
abbrev main_v211 : Ref sig .tc := ⟨.hbm, 266, rfl⟩
abbrev main_v212 : Ref sig .tc := ⟨.hbm, 267, rfl⟩
abbrev main_v213 : Ref sig .tc := ⟨.hbm, 268, rfl⟩
abbrev main_v214 : Ref sig .tc := ⟨.hbm, 269, rfl⟩
abbrev main_v215 : Ref sig .tc := ⟨.hbm, 270, rfl⟩
abbrev main_c_34 : Ref sig .tc := ⟨.hbm, 271, rfl⟩
abbrev main_v216 : Ref sig .tc := ⟨.hbm, 272, rfl⟩
abbrev main_v217 : Ref sig .tc := ⟨.hbm, 273, rfl⟩
abbrev main_c_35 : Ref sig .tc := ⟨.hbm, 274, rfl⟩
abbrev main_v218 : Ref sig .tc := ⟨.hbm, 275, rfl⟩
abbrev main_v219 : Ref sig .tc := ⟨.hbm, 276, rfl⟩
abbrev main_v220 : Ref sig .tc := ⟨.hbm, 277, rfl⟩
abbrev main_v221 : Ref sig .tc := ⟨.hbm, 278, rfl⟩
abbrev main_v222 : Ref sig .tc := ⟨.hbm, 279, rfl⟩
abbrev main_v223 : Ref sig .tc := ⟨.hbm, 280, rfl⟩
abbrev main_v224 : Ref sig .tc := ⟨.hbm, 281, rfl⟩
abbrev main_cst_36 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_v231 : Ref sig .tc := ⟨.hbm, 289, rfl⟩
abbrev main_v232 : Ref sig .tc := ⟨.hbm, 290, rfl⟩
abbrev main_v233 : Ref sig .tc := ⟨.hbm, 291, rfl⟩
abbrev main_v234 : Ref sig .tc := ⟨.hbm, 292, rfl⟩

abbrev nD : Nat := 1
abbrev τ : Topo := Topo.v7x

variable {F : FTy → Type} [FloatOps F]

class Facts₀ : Prop where
  transposes_S384x128_S128x384_1_0 : S384x128.Transposes [1, 0] S128x384
  bcast_S384_S1x384_1 : S384.BroadcastsInDim S1x384 (![1] : Fin 1 → Fin S1x384.rank)
  bcast_S1x384_S131072x384_0_1 : S1x384.BroadcastsInDim S131072x384 (![0, 1] : Fin 2 → Fin S131072x384.rank)
  slices_S131072x384_S131072x128_0_0 : S131072x384.Slices ![0, 0] S131072x128
  slices_S131072x384_S131072x128_0_128 : S131072x384.Slices ![0, 128] S131072x128
  slices_S131072x384_S131072x128_0_256 : S131072x384.Slices ![0, 256] S131072x128
  slices_S384_S128_0 : S384.Slices ![0] S128
  slices_S384_S128_128 : S384.Slices ![128] S128
  slices_S384_S128_256 : S384.Slices ![256] S128
  bcast_S128_S1x128_1 : S128.BroadcastsInDim S1x128 (![1] : Fin 1 → Fin S1x128.rank)
  bcast_S1x128_S131072x128_0_1 : S1x128.BroadcastsInDim S131072x128 (![0, 1] : Fin 2 → Fin S131072x128.rank)
  bcast_S_S131072x128 : S_.BroadcastsInDim S131072x128 (![] : Fin 0 → Fin S131072x128.rank)
  concatenates_S131072x128_S131072x128_S131072x256_d1 : Shape.Concatenates [S131072x128, S131072x128] S131072x256 1
  transposes_S384x256_S256x384_1_0 : S384x256.Transposes [1, 0] S256x384
  bcast_S_S131071 : S_.BroadcastsInDim S131071 (![] : Fin 0 → Fin S131071.rank)
  concatenates_S131071_S131071_S131072_S393214_d0 : Shape.Concatenates [S131071, S131071, S131072] S393214 0
  bcast_S_S393214 : S_.BroadcastsInDim S393214 (![] : Fin 0 → Fin S393214.rank)
  bcast_S_S131072 : S_.BroadcastsInDim S131072 (![] : Fin 0 → Fin S131072.rank)
  bcast_S393214_S393214x1_0 : S393214.BroadcastsInDim S393214x1 (![0] : Fin 1 → Fin S393214x1.rank)
  bcast_S393214x1_S393214x128_0_1 : S393214x1.BroadcastsInDim S393214x128 (![0, 1] : Fin 2 → Fin S393214x128.rank)
  bcast_S393214x1_S393214x64_0_1 : S393214x1.BroadcastsInDim S393214x64 (![0, 1] : Fin 2 → Fin S393214x64.rank)
  bcast_S_S131072x64 : S_.BroadcastsInDim S131072x64 (![] : Fin 0 → Fin S131072x64.rank)
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S10_S1x10_1 : S10.BroadcastsInDim S1x10 (![1] : Fin 1 → Fin S1x10.rank)
  bcast_S1x10_S131072x10_0_1 : S1x10.BroadcastsInDim S131072x10 (![0, 1] : Fin 2 → Fin S131072x10.rank)
  dot_S131072x128_S128x384_S131072x384_1_0_0_1_n_n_wf : DotDims.WF S131072x128 S128x384 S131072x384 [1] [0] [0] [1] [] []
  dot_S131072x256_S256x384_S131072x384_1_0_0_1_n_n_wf : DotDims.WF S131072x256 S256x384 S131072x384 [1] [0] [0] [1] [] []
  dot_S131072x256_S256x128_S131072x128_1_0_0_1_n_n_wf : DotDims.WF S131072x256 S256x128 S131072x128 [1] [0] [0] [1] [] []
  scatter_S131072_S393214x1_S393214_n_0_0_1_wf : ScatterDims.WF S131072 S393214x1 S393214 [] [0] [0] 1
  gather_S131072_S393214x1_S393214_n_0_n_n_0_1_1_wf : GatherDims.WF S131072 S393214x1 S393214 [] [0] [] [0] [] 1 ![1]
  gather_S131072x128_S393214x1_S393214x128_1_0_n_n_0_1_1128_wf : GatherDims.WF S131072x128 S393214x1 S393214x128 [1] [0] [] [0] [] 1 ![1, 128]
  scatter_S131072x128_S393214x1_S393214x128_1_0_0_1_wf : ScatterDims.WF S131072x128 S393214x1 S393214x128 [1] [0] [0] 1
  dot_S131072x128_S128x64_S131072x64_1_0_0_1_n_n_wf : DotDims.WF S131072x128 S128x64 S131072x64 [1] [0] [0] [1] [] []
  gather_S131072x64_S393214x1_S393214x64_1_0_n_n_0_1_164_wf : GatherDims.WF S131072x64 S393214x1 S393214x64 [1] [0] [] [0] [] 1 ![1, 64]
  scatter_S131072x64_S393214x1_S393214x64_1_0_0_1_wf : ScatterDims.WF S131072x64 S393214x1 S393214x64 [1] [0] [0] 1
  dot_S131072x64_S64x10_S131072x10_1_0_0_1_n_n_wf : DotDims.WF S131072x64 S64x10 S131072x10 [1] [0] [0] [1] [] []

variable [Facts₀]

def dot_S131072x128_S128x384_S131072x384_1_0_0_1_n_n : DotDims S131072x128 S128x384 S131072x384 where
  lhsContracting := [1]
  rhsContracting := [0]
  lhsNonContracting := [0]
  rhsNonContracting := [1]
  lhsBatch := []
  rhsBatch := []
  wf := dot_S131072x128_S128x384_S131072x384_1_0_0_1_n_n_wf
def dot_S131072x256_S256x384_S131072x384_1_0_0_1_n_n : DotDims S131072x256 S256x384 S131072x384 where
  lhsContracting := [1]
  rhsContracting := [0]
  lhsNonContracting := [0]
  rhsNonContracting := [1]
  lhsBatch := []
  rhsBatch := []
  wf := dot_S131072x256_S256x384_S131072x384_1_0_0_1_n_n_wf
def dot_S131072x256_S256x128_S131072x128_1_0_0_1_n_n : DotDims S131072x256 S256x128 S131072x128 where
  lhsContracting := [1]
  rhsContracting := [0]
  lhsNonContracting := [0]
  rhsNonContracting := [1]
  lhsBatch := []
  rhsBatch := []
  wf := dot_S131072x256_S256x128_S131072x128_1_0_0_1_n_n_wf
def scatter_S131072_S393214x1_S393214_n_0_0_1 : ScatterDims S131072 S393214x1 S393214 where
  updateWindowDims := []
  insertedWindowDims := [0]
  scatterDimsToOperandDims := [0]
  indexVectorDim := 1
  wf := scatter_S131072_S393214x1_S393214_n_0_0_1_wf
def gather_S131072_S393214x1_S393214_n_0_n_n_0_1_1 : GatherDims S131072 S393214x1 S393214 where
  offsetDims := []
  collapsedSliceDims := [0]
  operandBatchingDims := []
  startIndicesBatchingDims := []
  startIndexMap := [0]
  indexVectorDim := 1
  sliceSizes := ![1]
  wf := gather_S131072_S393214x1_S393214_n_0_n_n_0_1_1_wf
def gather_S131072x128_S393214x1_S393214x128_1_0_n_n_0_1_1128 : GatherDims S131072x128 S393214x1 S393214x128 where
  offsetDims := [1]
  collapsedSliceDims := [0]
  operandBatchingDims := []
  startIndicesBatchingDims := []
  startIndexMap := [0]
  indexVectorDim := 1
  sliceSizes := ![1, 128]
  wf := gather_S131072x128_S393214x1_S393214x128_1_0_n_n_0_1_1128_wf
def scatter_S131072x128_S393214x1_S393214x128_1_0_0_1 : ScatterDims S131072x128 S393214x1 S393214x128 where
  updateWindowDims := [1]
  insertedWindowDims := [0]
  scatterDimsToOperandDims := [0]
  indexVectorDim := 1
  wf := scatter_S131072x128_S393214x1_S393214x128_1_0_0_1_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def gather_S131072x64_S393214x1_S393214x64_1_0_n_n_0_1_164 : GatherDims S131072x64 S393214x1 S393214x64 where
  offsetDims := [1]
  collapsedSliceDims := [0]
  operandBatchingDims := []
  startIndicesBatchingDims := []
  startIndexMap := [0]
  indexVectorDim := 1
  sliceSizes := ![1, 64]
  wf := gather_S131072x64_S393214x1_S393214x64_1_0_n_n_0_1_164_wf
def scatter_S131072x64_S393214x1_S393214x64_1_0_0_1 : ScatterDims S131072x64 S393214x1 S393214x64 where
  updateWindowDims := [1]
  insertedWindowDims := [0]
  scatterDimsToOperandDims := [0]
  indexVectorDim := 1
  wf := scatter_S131072x64_S393214x1_S393214x64_1_0_0_1_wf
def dot_S131072x64_S64x10_S131072x10_1_0_0_1_n_n : DotDims S131072x64 S64x10 S131072x10 where
  lhsContracting := [1]
  rhsContracting := [0]
  lhsNonContracting := [0]
  rhsNonContracting := [1]
  lhsBatch := []
  rhsBatch := []
  wf := dot_S131072x64_S64x10_S131072x10_1_0_0_1_n_n_wf

class Facts : Prop extends Facts₀ where

variable [Facts]
-- ==== Proof.Tile.lean ====
/-
  The kernel's work at one grid point, as one pure function of what it loads.

  A grid point handles 512 rows.  It loads its 512 rows of the input and the 8 rows before and the 8 rows after
  (528 rows in all: extended row e stands for array row 512·t + e − 8), applies both recurrent layers and the first
  feature transform to all 528 rows (these are row-local), then the first graph convolution on the 514 rows
  512·t − 1 … 512·t + 512 (each needs its two neighbours), the second feature transform on those, and the second
  convolution and the final linear layer on its own 512 rows.  A neighbour that does not exist (before row 0, after
  row 131071) enters with the factor 0.
-/
import proofs.«114131_j67370857005464_1_alg».proof.Proof.Gen.KernelIdeal.Skeleton

noncomputable section

namespace Cert.KernelIdeal.Tile

open Cert.KernelIdeal Cert.KernelIdeal.Gen Idealize.ShloMosaic Idealize.SL.Sem

variable {F : FTy → Type} [FloatOps F]

/-- The 528 extended input rows: the 8 rows before, the point's 512 rows, the 8 rows after. -/
def ext (xp : Vec F S8x128 .f32) (xm : Vec F S512x128 .f32) (xn : Vec F S8x128 .f32) : FVec F S528x128 .f32 :=
  k0_pay2 xp xm xn

/-- The first recurrent layer on the extended rows: forward cell beside backward cell. -/
def h1 (xp : Vec F S8x128 .f32) (xm : Vec F S512x128 .f32) (xn : Vec F S8x128 .f32) (wf1 : Vec F S384x128 .f32) (uf1 hf1 : Vec F S384 .f32) (wb1 : Vec F S384x128 .f32) (ub1 hb1 : Vec F S384 .f32) : FVec F S528x256 .f32 :=
  k0_pay5 (k0_pay3 xp xm xn wf1 uf1 hf1) (k0_pay4 xp xm xn wb1 ub1) hb1

/-- The second recurrent layer and the first feature transform on the extended rows, from the first layer's forward
    output, the backward cell's gates and hidden bias. -/
def xw1 (v34 : FVec F S528x128 .f32) (v42 : FVec F S528x384 .f32) (hb1 : Vec F S384 .f32) (wf2 : Vec F S384x256 .f32) (uf2 hf2 : Vec F S384 .f32) (wb2 : Vec F S384x256 .f32) (ub2 hb2 : Vec F S384 .f32) (wg1 : Vec F S256x128 .f32) : FVec F S528x128 .f32 :=
  k0_pay9 (k0_pay5 v34 v42 hb1) (k0_pay7 v34 v42 hb1 wf2 uf2 hf2) (k0_pay8 v34 v42 hb1 wf2 uf2 hf2) (Scalar.ofBits .f32 0x3F800000#32) wb2 ub2 hb2 wg1

/-- The first graph convolution and the second feature transform on the 514 rows 512·t − 1 … 512·t + 512, at grid
    coordinate `a0`. -/
def xw2 (a0 : BitVec 32) (v133 : FVec F S528x128 .f32) (bg1 : Vec F S128 .f32) (wg2 : Vec F S128x64 .f32) : FVec F S514x64 .f32 :=
  k0_pay19 v133 (k0_pay10 a0) (k0_pay11 a0) k0_pay12 bg1 wg2

/-- The second graph convolution and the final linear layer on the point's own 512 rows. -/
def out (a0 : BitVec 32) (v133 : FVec F S528x128 .f32) (bg1 : Vec F S128 .f32) (wg2 : Vec F S128x64 .f32) (bg2 : Vec F S64 .f32) (wfc : Vec F S64x10 .f32) (bfc : Vec F S10 .f32) : FVec F S512x10 .f32 :=
  k0_pay1 (k0_pay20 (F := F) (k0_pay10 a0) (k0_pay11 a0) k0_pay12) (k0_pay21 v133 (k0_pay10 a0) (k0_pay11 a0) k0_pay12 bg1 wg2)
    (k0_pay22 v133 (k0_pay10 a0) (k0_pay11 a0) k0_pay12 bg1 wg2) (k0_pay23 v133 (k0_pay10 a0) (k0_pay11 a0) k0_pay12 bg1 wg2) bg2 wfc bfc

/-- Everything a grid point computes and stores, from the 21 blocks it loads (in the order of the kernel's operands:
    the point's rows, the rows before, the rows after, then the weights and biases) at grid coordinate `a0`. -/
def tile (a0 : BitVec 32) (xm : Vec F S512x128 .f32) (xp xn : Vec F S8x128 .f32) (wf1 : Vec F S384x128 .f32) (uf1 hf1 : Vec F S384 .f32) (wb1 : Vec F S384x128 .f32) (ub1 hb1 : Vec F S384 .f32) (wf2 : Vec F S384x256 .f32) (uf2 hf2 : Vec F S384 .f32) (wb2 : Vec F S384x256 .f32) (ub2 hb2 : Vec F S384 .f32) (wg1 : Vec F S256x128 .f32) (bg1 : Vec F S128 .f32) (wg2 : Vec F S128x64 .f32) (bg2 : Vec F S64 .f32) (wfc : Vec F S64x10 .f32) (bfc : Vec F S10 .f32) : FVec F S512x10 .f32 :=
  out a0 (xw1 (k0_pay3 xp xm xn wf1 uf1 hf1) (k0_pay4 xp xm xn wb1 ub1) hb1 wf2 uf2 hf2 wb2 ub2 hb2 wg1) bg1 wg2 bg2 wfc bfc

end Cert.KernelIdeal.Tile

end
-- ==== Proof.KBody.lean ====
/-
  The kernel body as a separation-logic triple.

  Called on whole staging buffers — the 21 input buffers at contents x₁ … x₂₁, the output buffer at anything — the
  body runs without a fault to its end, leaves every input buffer as it was, and leaves the output buffer at the
  tile function of the inputs (the body's one store covers the whole output buffer).
-/
import proofs.«114131_j67370857005464_1_alg».proof.Proof.Tile
import proofs.«114131_j67370857005464_1_alg».proof.Proof.Gen.KernelIdeal.Launch
import proofs.«114131_j67370857005464_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole rank-2 access are all zero. -/
private theorem zeros2 : (![0, 0] : Fin 2 → Nat) = fun _ => 0 := funext fun a => by fin_cases a <;> rfl

/-- The offset of a whole rank-1 access is zero. -/
private theorem zeros1 : (![0] : Fin 1 → Nat) = fun _ => 0 := funext fun a => by fin_cases a; rfl

/-- One store through the rectangle of the whole 512×10 buffer leaves its payload there, whatever the buffer held:
    the one piece covers every index, and the canonical contents of a single whole piece are its payload. -/
private theorem read_store_whole {κ : Kind} {sp : Space} (v : View sig κ sp S512x10 .f32) (f : v.ty.Contents (Elt F))
    (w : Vec F S512x10 .f32) :
    v.read (Elt F) (v.writes (Elt F) f
      [⟨Rect.unit (s := S512x10) ![0, 0] S512x10.size inb_S512x10_S512x10_0_0, w⟩]) = w := by
  have hcov : ∀ y : S512x10.Idx, ∃ p ∈ ([⟨Rect.unit (s := S512x10) ![0, 0] S512x10.size inb_S512x10_S512x10_0_0, w⟩] :
      List (View.Piece (Elt F) S512x10 .f32)), y ∈ p.1.set :=
    fun y => ⟨_, List.mem_singleton_self _, View.mem_set_unit_zero (S := S512x10) zeros2 inb_S512x10_S512x10_0_0 y⟩
  rw [View.read_writes_eq_canon v f _ hcov]
  exact View.canon_unit_zero (S := S512x10) zeros2 inb_S512x10_S512x10_0_0 w

/-- The tile function with its stages opened: one tree of the printed payloads over the 21 loaded blocks. -/
private theorem tile_eq (a0 : BitVec 32) (x1 : Vec F S512x128 .f32) (x2 x3 : Vec F S8x128 .f32) (x4 : Vec F S384x128 .f32) (x5 x6 : Vec F S384 .f32) (x7 : Vec F S384x128 .f32) (x8 x9 : Vec F S384 .f32) (x10 : Vec F S384x256 .f32) (x11 x12 : Vec F S384 .f32) (x13 : Vec F S384x256 .f32) (x14 x15 : Vec F S384 .f32) (x16 : Vec F S256x128 .f32) (x17 : Vec F S128 .f32) (x18 : Vec F S128x64 .f32) (x19 : Vec F S64 .f32) (x20 : Vec F S64x10 .f32) (x21 : Vec F S10 .f32) :
    Tile.tile a0 x1 x2 x3 x4 x5 x6 x7 x8 x9 x10 x11 x12 x13 x14 x15 x16 x17 x18 x19 x20 x21 =
      k0_pay1 (k0_pay20 (F := F) (k0_pay10 a0) (k0_pay11 a0) k0_pay12)
        (k0_pay21 (k0_pay9 (k0_pay5 (k0_pay3 x2 x1 x3 x4 x5 x6) (k0_pay4 x2 x1 x3 x7 x8) x9)
            (k0_pay7 (k0_pay3 x2 x1 x3 x4 x5 x6) (k0_pay4 x2 x1 x3 x7 x8) x9 x10 x11 x12)
            (k0_pay8 (k0_pay3 x2 x1 x3 x4 x5 x6) (k0_pay4 x2 x1 x3 x7 x8) x9 x10 x11 x12)
            (Scalar.ofBits .f32 0x3F800000#32) x13 x14 x15 x16) (k0_pay10 a0) (k0_pay11 a0) k0_pay12 x17 x18)
        (k0_pay22 (k0_pay9 (k0_pay5 (k0_pay3 x2 x1 x3 x4 x5 x6) (k0_pay4 x2 x1 x3 x7 x8) x9)
            (k0_pay7 (k0_pay3 x2 x1 x3 x4 x5 x6) (k0_pay4 x2 x1 x3 x7 x8) x9 x10 x11 x12)
            (k0_pay8 (k0_pay3 x2 x1 x3 x4 x5 x6) (k0_pay4 x2 x1 x3 x7 x8) x9 x10 x11 x12)
            (Scalar.ofBits .f32 0x3F800000#32) x13 x14 x15 x16) (k0_pay10 a0) (k0_pay11 a0) k0_pay12 x17 x18)
        (k0_pay23 (k0_pay9 (k0_pay5 (k0_pay3 x2 x1 x3 x4 x5 x6) (k0_pay4 x2 x1 x3 x7 x8) x9)
            (k0_pay7 (k0_pay3 x2 x1 x3 x4 x5 x6) (k0_pay4 x2 x1 x3 x7 x8) x9 x10 x11 x12)
            (k0_pay8 (k0_pay3 x2 x1 x3 x4 x5 x6) (k0_pay4 x2 x1 x3 x7 x8) x9 x10 x11 x12)
            (Scalar.ofBits .f32 0x3F800000#32) x13 x14 x15 x16) (k0_pay10 a0) (k0_pay11 a0) k0_pay12 x17 x18)
        x19 x20 x21 := rfl

set_option maxHeartbeats 1000000 in
/-- The body's triple: inputs kept, the output buffer at the tile function of the inputs. -/
theorem sound_kernel (c : Dev nD) (E : Set ℕ) (i : grid0.Coords) (arg1 : Memref sig .tc .vmem S512x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S384x128 .f32) (harg4 : arg4.IsWhole) (arg5 : Memref sig .tc .vmem S384 .f32) (harg5 : arg5.IsWhole) (arg6 : Memref sig .tc .vmem S384 .f32) (harg6 : arg6.IsWhole) (arg7 : Memref sig .tc .vmem S384x128 .f32) (harg7 : arg7.IsWhole) (arg8 : Memref sig .tc .vmem S384 .f32) (harg8 : arg8.IsWhole) (arg9 : Memref sig .tc .vmem S384 .f32) (harg9 : arg9.IsWhole) (arg10 : Memref sig .tc .vmem S384x256 .f32) (harg10 : arg10.IsWhole) (arg11 : Memref sig .tc .vmem S384 .f32) (harg11 : arg11.IsWhole) (arg12 : Memref sig .tc .vmem S384 .f32) (harg12 : arg12.IsWhole) (arg13 : Memref sig .tc .vmem S384x256 .f32) (harg13 : arg13.IsWhole) (arg14 : Memref sig .tc .vmem S384 .f32) (harg14 : arg14.IsWhole) (arg15 : Memref sig .tc .vmem S384 .f32) (harg15 : arg15.IsWhole) (arg16 : Memref sig .tc .vmem S256x128 .f32) (harg16 : arg16.IsWhole) (arg17 : Memref sig .tc .vmem S128 .f32) (harg17 : arg17.IsWhole) (arg18 : Memref sig .tc .vmem S128x64 .f32) (harg18 : arg18.IsWhole) (arg19 : Memref sig .tc .vmem S64 .f32) (harg19 : arg19.IsWhole) (arg20 : Memref sig .tc .vmem S64x10 .f32) (harg20 : arg20.IsWhole) (arg21 : Memref sig .tc .vmem S10 .f32) (harg21 : arg21.IsWhole) (arg22 : Memref sig .tc .vmem S512x10 .f32) (harg22 : arg22.IsWhole)
    (x1 : Vec F S512x128 .f32) (x2 : Vec F S8x128 .f32) (x3 : Vec F S8x128 .f32) (x4 : Vec F S384x128 .f32) (x5 : Vec F S384 .f32) (x6 : Vec F S384 .f32) (x7 : Vec F S384x128 .f32) (x8 : Vec F S384 .f32) (x9 : Vec F S384 .f32) (x10 : Vec F S384x256 .f32) (x11 : Vec F S384 .f32) (x12 : Vec F S384 .f32) (x13 : Vec F S384x256 .f32) (x14 : Vec F S384 .f32) (x15 : Vec F S384 .f32) (x16 : Vec F S256x128 .f32) (x17 : Vec F S128 .f32) (x18 : Vec F S128x64 .f32) (x19 : Vec F S64 .f32) (x20 : Vec F S64x10 .f32) (x21 : Vec F S10 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg22 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare (Tile.tile (BitVec.ofNat 32 (i 0).val) x1 x2 x3 x4 x5 x6 x7 x8 x9 x10 x11 x12 x13 x14 x15 x16 x17 x18 x19 x20 x21)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  -- the body is its four parts' loads followed by three more loads, a load of the output buffer and one store
  simp only [cc0__kernel_eq_skeleton]; unfold cc0__kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf1 hf2 hf3 hf4 hf5 hf6 hf7 hf8 hf9 hf10 hf11 hf12 hf13 hf14 hf15 hf16 hf17 hf18 hf19 hf20 hf21
  sl_exec
  sl_step
  -- every input buffer is as it was
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  iexists _; isplitr
  swap; · iexact H22
  ipureintro
  -- the one store covers the whole output buffer, so the buffer reads as the stored payload;
  refine Eq.trans (read_store_whole _ _ _) ?_
  -- each load is of a whole buffer, so it reads that buffer's contents; over those the payload is the tile function
  sl_unfold_run_names
  dsimp only
  simp only [View.readAt_eq_ld,
    View.ld_unit_zero (S := S8x128) zeros2,
    View.ld_unit_zero (S := S512x128) zeros2,
    View.ld_unit_zero (S := S384x128) zeros2,
    View.ld_unit_zero (S := S384x256) zeros2,
    View.ld_unit_zero (S := S256x128) zeros2,
    View.ld_unit_zero (S := S128x64) zeros2,
    View.ld_unit_zero (S := S64x10) zeros2,
    View.ld_unit_zero (S := S384) zeros1,
    View.ld_unit_zero (S := S128) zeros1,
    View.ld_unit_zero (S := S64) zeros1,
    View.ld_unit_zero (S := S10) zeros1]
  exact (tile_eq _ _ _ _ _ _ _ _ _ _ _ _ _ _ _ _ _ _ _ _ _ _).symm

end Cert.KernelIdeal.KF

end
-- ==== Proof.KFrame.lean ====
/-
  The kernel program's run.

  The pipeline hands the body, at each of the 256 grid points, the current blocks of its 21 input windows and takes
  back the output window's block.  Three of the input windows read one array (the point's rows, the 8 rows before,
  the 8 rows after), so that array's ownership is split into three shares at the launch.  The proof data says what
  each window's staging buffer holds after the body at each point: an input's its block, the output's the tile
  function of the input blocks.  From it the launch theorem for windows that share arrays gives: every weakly fair
  execution terminates without a fault, and each window's array ends at the contents the write-backs leave.
-/
import proofs.«114131_j67370857005464_1_alg».proof.Proof.KBody

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the main function is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: arrays as launched; after the body each input's buffer at its block, the output's at the tile
    function of the input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => Tile.tile (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨_ + 22, h⟩ => absurd h (Nat.not_lt.2 (Nat.le_add_left _ _))
  owed _ := 0

theorem A_eq (c : Dev nD) (w : Fin cfg0.W) : (dats m 0 c).A w = V m c (Pipeline.arrRef spec0 w) := by
  dsimp only [dats]

/-- What the body leaves in the output window's buffer at point `t`. -/
theorem after0_21 (c : Dev nD) (t : Fin cfg0.N) : (dats m 0 c).after 21 t
    = Tile.tile (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  dsimp only [dats]

/-- What the body leaves in each input window's buffer: the block it found. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]

/-- Each input's current staging buffer holds its block at every point, fetched there or not: where the point does
    not fetch, the block index has not moved since the last fetch, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)

/-- What the body is called with at point `t`: the invariant, what is owed, and each window's current staging buffer
    whole at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- What the body returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' buffers hold their blocks, so the body's triple applies at the blocks; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: one array behind three windows -/

/-- A buffer held whole at the full share is held at three shares that compose to it. -/
theorem pointsTo_three (ℓ : Loc nD τ sig) (f : Buf (Elt F) ℓ) :
    (ℓ ↦{fullShare} f : sProp 𝕄) ⊢ iprop((ℓ ↦{fullShare.left} f) ∗ (ℓ ↦{fullShare.right.left} f) ∗ ℓ ↦{fullShare.right.right} f) :=
  ((pointsTo_share (PosShare.mem_left_op_right fullShare)).1).trans
    (sep_mono .rfl (pointsTo_share (PosShare.mem_left_op_right fullShare.right)).1)

/-- One window per distinct array: every window but the second and third, whose array is the first's. -/
abbrev reps : Finset (Fin 22) := ((Finset.univ : Finset (Fin 22)).erase 1).erase 2

/-- The windows' arrays are the arrays of the representatives, -/
theorem arr_image : (Finset.univ.image (Pipeline.arrRef spec0) : Finset (Ref sig .tc)) = reps.image (Pipeline.arrRef spec0) := by decide

/-- and distinct representatives have distinct arrays. -/
theorem arr_injOn : Set.InjOn (Pipeline.arrRef spec0) (reps : Set (Fin 22)) := by decide

/-- The shares the core holds the arrays at: the shared array's three, the full share of every other. -/
theorem share0_0 (c : Dev nD) : (dats m 0 c).share 0 = fullShare.left := rfl
theorem share0_1 (c : Dev nD) : (dats m 0 c).share 1 = fullShare.right.left := rfl
theorem share0_2 (c : Dev nD) : (dats m 0 c).share 2 = fullShare.right.right := rfl
theorem share_rest (c : Dev nD) (w : Fin 22) (h0 : w ≠ 0) (h1 : w ≠ 1) (h2 : w ≠ 2) : (dats m 0 c).share w = fullShare := by
  fin_cases w
  · exact absurd rfl h0
  · exact absurd rfl h1
  · exact absurd rfl h2
  all_goals rfl

/-- The distinct buffers behind the arrays, each whole at the full share at the launch contents, are the proof data's
    arrays at entry: the shared array's points-to splits into the three windows' shares, every other array is its
    one window's. -/
theorem hsplit (c : Dev nD) : (Pipeline.arrBufs spec0 c (V m c) : sProp 𝕄) ⊢ (dats m 0 c).arrays ((dats m 0 c).arrAt · 0) := by
  unfold Pipeline.arrBufs Dat.arrays
  rw [arr_image, bigSep_image_of_injOn arr_injOn,
    bigSep_univ_split (1 : Fin 22), bigSep_erase (show (2 : Fin 22) ∈ Finset.univ.erase 1 by decide),
    bigSep_erase (show (0 : Fin 22) ∈ reps by decide),
    bigSep_erase (show (0 : Fin 22) ∈ reps by decide)]
  -- every array but the shared one is its one window's, whole, at the full share, at the launch contents
  have hrest : (bigSep (reps.erase 0) fun w => ((c.tc : Thread nD τ).loc (Pipeline.arrRef spec0 w)) ↦{fullShare} V m c (Pipeline.arrRef spec0 w) : sProp 𝕄)
      = bigSep (reps.erase 0) fun w : Fin cfg0.W => (cfg0.win w).arr.view.loc (c.tc : Thread nD τ) ↦[(cfg0.win w).arr.view.set]{(dats m 0 c).share w} (dats m 0 c).arrAt w 0 :=
    bigSep_congr fun w hw => by
      have hw0 : w ≠ 0 := (Finset.mem_erase.mp hw).1
      have hw2 : w ≠ 2 := (Finset.mem_erase.mp (Finset.mem_erase.mp hw).2).1
      have hw1 : w ≠ 1 := (Finset.mem_erase.mp (Finset.mem_erase.mp (Finset.mem_erase.mp hw).2).2).1
      rw [(arr_whole0 w).set_eq_univ, share_rest m c w hw0 hw1 hw2]
      rfl
  rw [hrest, (arr_whole0 0).set_eq_univ, share0_0, share0_1, share0_2]
  -- the shared array's points-to is the three windows' shares of it
  show iprop(_ ∗ _) ⊢ iprop(_ ∗ _ ∗ _ ∗ _)
  refine (sep_mono_left (pointsTo_three _ _)).trans ?_
  iintro ⟨⟨Hl, Hrl, Hrr⟩, Hr⟩
  isplitl [Hrl]; · iexact Hrl
  isplitl [Hrr]; · iexact Hrr
  isplitl [Hl]; · iexact Hl
  iexact Hr

/-! ## The run -/

set_option backward.isDefEq.respectTransparency.types false in
/-- THE RUN: every weakly fair execution of the kernel program terminates without a fault, and each window's array
    ends at what the proof data's write-backs leave. -/
theorem run_main : θ_run defs (onTc (τ := τ) (main (F := F))) ⟨m, fun _ => 0, ρ⟩ (fun r => ∀ c : Dev nD, ∀ w : Fin 22,
      r.2.mem (((spec0 w).arr.view.loc (c.tc : Thread nD τ))) = (dats m 0 c).arrAt w cfg0.N) :=
  Pipeline.θ_run_region_pf (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := Pipeline.hmain_region cfgs 0 defs₀ Variants.none m main fun c => (main_chain c).trans rfl)
    (hsplit := hsplit m)
    (hpf := fun _ k => k.elim0)
    (X := fun c => iprop(∃ r, prngReg c r)) (Y := fun c => iprop(∃ r, prngReg c r)) (Z := fun _ => iprop(emp))
    (hX := fun c => by
      iintro ⟨-, -, -, -, Hp, -⟩; imodintro
      isplitl [Hp]; · iexists _; iexact Hp
      iempintro)
    (hin := fun c => by
      show _ ⊢ (Pipeline.ΦA spec0 c : sProp 𝕄)
      unfold Pipeline.ΦA; iintro ⟨Hp, -, Hr⟩
      isplitl [Hr] <;> iassumption)
    (hout := fun c => by
      show (Pipeline.ΦA spec0 c : sProp 𝕄) ⊢ _
      rw [Pipeline.ownSems0_none]; unfold Pipeline.ΦA
      iintro ⟨Hr, Hp⟩
      isplitl [Hp]; · iexact Hp
      isplitr; · iempintro
      iexact Hr)
    (QY := fun _ _ => True)
    (hY := fun c s' => by
      iintro ⟨-, -, HSI⟩; imodintro
      isplitr; · ipureintro; trivial
      iexact HSI)
    (hQ := fun s h c w => (h c).1 w)

end Cert.KernelIdeal.KF

end
-- ==== Proof.KArgs.lean ====
/-
  The kernel program leaves its argument arrays unchanged.

  Every argument array is read through an input window (the input array through three of them), and an input
  window's array ends as it started: the write-backs concern the one output window only.
-/
import proofs.«114131_j67370857005464_1_alg».proof.Proof.KFrame

set_option maxRecDepth 16384

noncomputable section

namespace Cert.KernelIdeal.KF

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME, at any float instance: every weakly fair execution terminates without a fault and the nineteen
    argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      (h c 0).trans (((dats m 0 c).arrAt_in 0 rfl _).trans (A_eq m c 0)),
      (h c 3).trans (((dats m 0 c).arrAt_in 3 rfl _).trans (A_eq m c 3)),
      (h c 4).trans (((dats m 0 c).arrAt_in 4 rfl _).trans (A_eq m c 4)),
      (h c 5).trans (((dats m 0 c).arrAt_in 5 rfl _).trans (A_eq m c 5)),
      (h c 6).trans (((dats m 0 c).arrAt_in 6 rfl _).trans (A_eq m c 6)),
      (h c 7).trans (((dats m 0 c).arrAt_in 7 rfl _).trans (A_eq m c 7)),
      (h c 8).trans (((dats m 0 c).arrAt_in 8 rfl _).trans (A_eq m c 8)),
      (h c 9).trans (((dats m 0 c).arrAt_in 9 rfl _).trans (A_eq m c 9)),
      (h c 10).trans (((dats m 0 c).arrAt_in 10 rfl _).trans (A_eq m c 10)),
      (h c 11).trans (((dats m 0 c).arrAt_in 11 rfl _).trans (A_eq m c 11)),
      (h c 12).trans (((dats m 0 c).arrAt_in 12 rfl _).trans (A_eq m c 12)),
      (h c 13).trans (((dats m 0 c).arrAt_in 13 rfl _).trans (A_eq m c 13)),
      (h c 14).trans (((dats m 0 c).arrAt_in 14 rfl _).trans (A_eq m c 14)),
      (h c 15).trans (((dats m 0 c).arrAt_in 15 rfl _).trans (A_eq m c 15)),
      (h c 16).trans (((dats m 0 c).arrAt_in 16 rfl _).trans (A_eq m c 16)),
      (h c 17).trans (((dats m 0 c).arrAt_in 17 rfl _).trans (A_eq m c 17)),
      (h c 18).trans (((dats m 0 c).arrAt_in 18 rfl _).trans (A_eq m c 18)),
      (h c 19).trans (((dats m 0 c).arrAt_in 19 rfl _).trans (A_eq m c 19)),
      (h c 20).trans (((dats m 0 c).arrAt_in 20 rfl _).trans (A_eq m c 20))⟩)
    (run_main m ρ)

end Cert.KernelIdeal.KF

end
-- ==== Proof.TileBits.lean ====
/-
  The kernel's work at one grid point, as one pure function of what it loads.

  A grid point handles 512 rows.  It loads its 512 rows of the input and the 8 rows before and the 8 rows after
  (528 rows in all: extended row e stands for array row 512·t + e − 8), applies both recurrent layers and the first
  feature transform to all 528 rows (these are row-local), then the first graph convolution on the 514 rows
  512·t − 1 … 512·t + 512 (each needs its two neighbours), the second feature transform on those, and the second
  convolution and the final linear layer on its own 512 rows.  A neighbour that does not exist (before row 0, after
  row 131071) enters with the factor 0.
-/
import proofs.«114131_j67370857005464_1_alg».proof.Proof.Gen.Kernel.Skeleton

noncomputable section

namespace Cert.Kernel.Tile

open Cert.Kernel Cert.Kernel.Gen Idealize.ShloMosaic Idealize.SL.Sem

variable {F : FTy → Type} [FloatOps F]

/-- The 528 extended input rows: the 8 rows before, the point's 512 rows, the 8 rows after. -/
def ext (xp : Vec F S8x128 .f32) (xm : Vec F S512x128 .f32) (xn : Vec F S8x128 .f32) : FVec F S528x128 .f32 :=
  k0_pay2 xp xm xn

/-- The first recurrent layer on the extended rows: forward cell beside backward cell. -/
def h1 (xp : Vec F S8x128 .f32) (xm : Vec F S512x128 .f32) (xn : Vec F S8x128 .f32) (wf1 : Vec F S384x128 .f32) (uf1 hf1 : Vec F S384 .f32) (wb1 : Vec F S384x128 .f32) (ub1 hb1 : Vec F S384 .f32) : FVec F S528x256 .f32 :=
  k0_pay5 (k0_pay3 xp xm xn wf1 uf1 hf1) (k0_pay4 xp xm xn wb1 ub1) hb1

/-- The second recurrent layer and the first feature transform on the extended rows, from the first layer's forward
    output, the backward cell's gates and hidden bias. -/
def xw1 (v34 : FVec F S528x128 .f32) (v42 : FVec F S528x384 .f32) (hb1 : Vec F S384 .f32) (wf2 : Vec F S384x256 .f32) (uf2 hf2 : Vec F S384 .f32) (wb2 : Vec F S384x256 .f32) (ub2 hb2 : Vec F S384 .f32) (wg1 : Vec F S256x128 .f32) : FVec F S528x128 .f32 :=
  k0_pay9 (k0_pay5 v34 v42 hb1) (k0_pay7 v34 v42 hb1 wf2 uf2 hf2) (k0_pay8 v34 v42 hb1 wf2 uf2 hf2) (Scalar.ofBits .f32 0x3F800000#32) wb2 ub2 hb2 wg1

/-- The first graph convolution and the second feature transform on the 514 rows 512·t − 1 … 512·t + 512, at grid
    coordinate `a0`. -/
def xw2 (a0 : BitVec 32) (v133 : FVec F S528x128 .f32) (bg1 : Vec F S128 .f32) (wg2 : Vec F S128x64 .f32) : FVec F S514x64 .f32 :=
  k0_pay19 v133 (k0_pay10 a0) (k0_pay11 a0) k0_pay12 bg1 wg2

/-- The second graph convolution and the final linear layer on the point's own 512 rows. -/
def out (a0 : BitVec 32) (v133 : FVec F S528x128 .f32) (bg1 : Vec F S128 .f32) (wg2 : Vec F S128x64 .f32) (bg2 : Vec F S64 .f32) (wfc : Vec F S64x10 .f32) (bfc : Vec F S10 .f32) : FVec F S512x10 .f32 :=
  k0_pay1 (k0_pay20 (F := F) (k0_pay10 a0) (k0_pay11 a0) k0_pay12) (k0_pay21 v133 (k0_pay10 a0) (k0_pay11 a0) k0_pay12 bg1 wg2)
    (k0_pay22 v133 (k0_pay10 a0) (k0_pay11 a0) k0_pay12 bg1 wg2) (k0_pay23 v133 (k0_pay10 a0) (k0_pay11 a0) k0_pay12 bg1 wg2) bg2 wfc bfc

/-- Everything a grid point computes and stores, from the 21 blocks it loads (in the order of the kernel's operands:
    the point's rows, the rows before, the rows after, then the weights and biases) at grid coordinate `a0`. -/
def tile (a0 : BitVec 32) (xm : Vec F S512x128 .f32) (xp xn : Vec F S8x128 .f32) (wf1 : Vec F S384x128 .f32) (uf1 hf1 : Vec F S384 .f32) (wb1 : Vec F S384x128 .f32) (ub1 hb1 : Vec F S384 .f32) (wf2 : Vec F S384x256 .f32) (uf2 hf2 : Vec F S384 .f32) (wb2 : Vec F S384x256 .f32) (ub2 hb2 : Vec F S384 .f32) (wg1 : Vec F S256x128 .f32) (bg1 : Vec F S128 .f32) (wg2 : Vec F S128x64 .f32) (bg2 : Vec F S64 .f32) (wfc : Vec F S64x10 .f32) (bfc : Vec F S10 .f32) : FVec F S512x10 .f32 :=
  out a0 (xw1 (k0_pay3 xp xm xn wf1 uf1 hf1) (k0_pay4 xp xm xn wb1 ub1) hb1 wf2 uf2 hf2 wb2 ub2 hb2 wg1) bg1 wg2 bg2 wfc bfc

end Cert.Kernel.Tile

end
-- ==== Proof.KBodyBits.lean ====
/-
  The kernel body as a separation-logic triple.

  Called on whole staging buffers — the 21 input buffers at contents x₁ … x₂₁, the output buffer at anything — the
  body runs without a fault to its end, leaves every input buffer as it was, and leaves the output buffer at the
  tile function of the inputs (the body's one store covers the whole output buffer).
-/
import proofs.«114131_j67370857005464_1_alg».proof.Proof.TileBits
import proofs.«114131_j67370857005464_1_alg».proof.Proof.Gen.Kernel.Launch
import proofs.«114131_j67370857005464_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offsets of a whole rank-2 access are all zero. -/
private theorem zeros2 : (![0, 0] : Fin 2 → Nat) = fun _ => 0 := funext fun a => by fin_cases a <;> rfl

/-- The offset of a whole rank-1 access is zero. -/
private theorem zeros1 : (![0] : Fin 1 → Nat) = fun _ => 0 := funext fun a => by fin_cases a; rfl

/-- One store through the rectangle of the whole 512×10 buffer leaves its payload there, whatever the buffer held:
    the one piece covers every index, and the canonical contents of a single whole piece are its payload. -/
private theorem read_store_whole {κ : Kind} {sp : Space} (v : View sig κ sp S512x10 .f32) (f : v.ty.Contents (Elt F))
    (w : Vec F S512x10 .f32) :
    v.read (Elt F) (v.writes (Elt F) f
      [⟨Rect.unit (s := S512x10) ![0, 0] S512x10.size inb_S512x10_S512x10_0_0, w⟩]) = w := by
  have hcov : ∀ y : S512x10.Idx, ∃ p ∈ ([⟨Rect.unit (s := S512x10) ![0, 0] S512x10.size inb_S512x10_S512x10_0_0, w⟩] :
      List (View.Piece (Elt F) S512x10 .f32)), y ∈ p.1.set :=
    fun y => ⟨_, List.mem_singleton_self _, View.mem_set_unit_zero (S := S512x10) zeros2 inb_S512x10_S512x10_0_0 y⟩
  rw [View.read_writes_eq_canon v f _ hcov]
  exact View.canon_unit_zero (S := S512x10) zeros2 inb_S512x10_S512x10_0_0 w

/-- The tile function with its stages opened: one tree of the printed payloads over the 21 loaded blocks. -/
private theorem tile_eq (a0 : BitVec 32) (x1 : Vec F S512x128 .f32) (x2 x3 : Vec F S8x128 .f32) (x4 : Vec F S384x128 .f32) (x5 x6 : Vec F S384 .f32) (x7 : Vec F S384x128 .f32) (x8 x9 : Vec F S384 .f32) (x10 : Vec F S384x256 .f32) (x11 x12 : Vec F S384 .f32) (x13 : Vec F S384x256 .f32) (x14 x15 : Vec F S384 .f32) (x16 : Vec F S256x128 .f32) (x17 : Vec F S128 .f32) (x18 : Vec F S128x64 .f32) (x19 : Vec F S64 .f32) (x20 : Vec F S64x10 .f32) (x21 : Vec F S10 .f32) :
    Tile.tile a0 x1 x2 x3 x4 x5 x6 x7 x8 x9 x10 x11 x12 x13 x14 x15 x16 x17 x18 x19 x20 x21 =
      k0_pay1 (k0_pay20 (F := F) (k0_pay10 a0) (k0_pay11 a0) k0_pay12)
        (k0_pay21 (k0_pay9 (k0_pay5 (k0_pay3 x2 x1 x3 x4 x5 x6) (k0_pay4 x2 x1 x3 x7 x8) x9)
            (k0_pay7 (k0_pay3 x2 x1 x3 x4 x5 x6) (k0_pay4 x2 x1 x3 x7 x8) x9 x10 x11 x12)
            (k0_pay8 (k0_pay3 x2 x1 x3 x4 x5 x6) (k0_pay4 x2 x1 x3 x7 x8) x9 x10 x11 x12)
            (Scalar.ofBits .f32 0x3F800000#32) x13 x14 x15 x16) (k0_pay10 a0) (k0_pay11 a0) k0_pay12 x17 x18)
        (k0_pay22 (k0_pay9 (k0_pay5 (k0_pay3 x2 x1 x3 x4 x5 x6) (k0_pay4 x2 x1 x3 x7 x8) x9)
            (k0_pay7 (k0_pay3 x2 x1 x3 x4 x5 x6) (k0_pay4 x2 x1 x3 x7 x8) x9 x10 x11 x12)
            (k0_pay8 (k0_pay3 x2 x1 x3 x4 x5 x6) (k0_pay4 x2 x1 x3 x7 x8) x9 x10 x11 x12)
            (Scalar.ofBits .f32 0x3F800000#32) x13 x14 x15 x16) (k0_pay10 a0) (k0_pay11 a0) k0_pay12 x17 x18)
        (k0_pay23 (k0_pay9 (k0_pay5 (k0_pay3 x2 x1 x3 x4 x5 x6) (k0_pay4 x2 x1 x3 x7 x8) x9)
            (k0_pay7 (k0_pay3 x2 x1 x3 x4 x5 x6) (k0_pay4 x2 x1 x3 x7 x8) x9 x10 x11 x12)
            (k0_pay8 (k0_pay3 x2 x1 x3 x4 x5 x6) (k0_pay4 x2 x1 x3 x7 x8) x9 x10 x11 x12)
            (Scalar.ofBits .f32 0x3F800000#32) x13 x14 x15 x16) (k0_pay10 a0) (k0_pay11 a0) k0_pay12 x17 x18)
        x19 x20 x21 := rfl

set_option maxHeartbeats 1000000 in
/-- The body's triple: inputs kept, the output buffer at the tile function of the inputs. -/
theorem sound_kernel (c : Dev nD) (E : Set ℕ) (i : grid0.Coords) (arg1 : Memref sig .tc .vmem S512x128 .f32) (harg1 : arg1.IsWhole) (arg2 : Memref sig .tc .vmem S8x128 .f32) (harg2 : arg2.IsWhole) (arg3 : Memref sig .tc .vmem S8x128 .f32) (harg3 : arg3.IsWhole) (arg4 : Memref sig .tc .vmem S384x128 .f32) (harg4 : arg4.IsWhole) (arg5 : Memref sig .tc .vmem S384 .f32) (harg5 : arg5.IsWhole) (arg6 : Memref sig .tc .vmem S384 .f32) (harg6 : arg6.IsWhole) (arg7 : Memref sig .tc .vmem S384x128 .f32) (harg7 : arg7.IsWhole) (arg8 : Memref sig .tc .vmem S384 .f32) (harg8 : arg8.IsWhole) (arg9 : Memref sig .tc .vmem S384 .f32) (harg9 : arg9.IsWhole) (arg10 : Memref sig .tc .vmem S384x256 .f32) (harg10 : arg10.IsWhole) (arg11 : Memref sig .tc .vmem S384 .f32) (harg11 : arg11.IsWhole) (arg12 : Memref sig .tc .vmem S384 .f32) (harg12 : arg12.IsWhole) (arg13 : Memref sig .tc .vmem S384x256 .f32) (harg13 : arg13.IsWhole) (arg14 : Memref sig .tc .vmem S384 .f32) (harg14 : arg14.IsWhole) (arg15 : Memref sig .tc .vmem S384 .f32) (harg15 : arg15.IsWhole) (arg16 : Memref sig .tc .vmem S256x128 .f32) (harg16 : arg16.IsWhole) (arg17 : Memref sig .tc .vmem S128 .f32) (harg17 : arg17.IsWhole) (arg18 : Memref sig .tc .vmem S128x64 .f32) (harg18 : arg18.IsWhole) (arg19 : Memref sig .tc .vmem S64 .f32) (harg19 : arg19.IsWhole) (arg20 : Memref sig .tc .vmem S64x10 .f32) (harg20 : arg20.IsWhole) (arg21 : Memref sig .tc .vmem S10 .f32) (harg21 : arg21.IsWhole) (arg22 : Memref sig .tc .vmem S512x10 .f32) (harg22 : arg22.IsWhole)
    (x1 : Vec F S512x128 .f32) (x2 : Vec F S8x128 .f32) (x3 : Vec F S8x128 .f32) (x4 : Vec F S384x128 .f32) (x5 : Vec F S384 .f32) (x6 : Vec F S384 .f32) (x7 : Vec F S384x128 .f32) (x8 : Vec F S384 .f32) (x9 : Vec F S384 .f32) (x10 : Vec F S384x256 .f32) (x11 : Vec F S384 .f32) (x12 : Vec F S384 .f32) (x13 : Vec F S384x256 .f32) (x14 : Vec F S384 .f32) (x15 : Vec F S384 .f32) (x16 : Vec F S256x128 .f32) (x17 : Vec F S128 .f32) (x18 : Vec F S128x64 .f32) (x19 : Vec F S64 .f32) (x20 : Vec F S64x10 .f32) (x21 : Vec F S10 .f32) (K : PUnit → sProp 𝕄) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ (∃ d, owns (c : Thread nD τ) arg22 fullShare d)
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare (Tile.tile (BitVec.ofNat 32 (i 0).val) x1 x2 x3 x4 x5 x6 x7 x8 x9 x10 x11 x12 x13 x14 x15 x16 x17 x18 x19 x20 x21)) -∗ K ⟨⟩))
      ⊢ wp frame (wpE (defs₀ (F := F)) Variants.none c none) E (cc0__kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22) K := by
  -- the body is its four parts' loads followed by three more loads, a load of the output buffer and one store
  simp only [cc0__kernel_eq_skeleton]; unfold cc0__kernel_skel
  simp only [k0_part1_eq_skeleton, k0_part2_eq_skeleton, k0_part3_eq_skeleton, k0_part4_eq_skeleton]
  unfold k0_part1_skel k0_part2_skel k0_part3_skel k0_part4_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%d22, %f22, -, H22⟩, Hk⟩
  subst hf1 hf2 hf3 hf4 hf5 hf6 hf7 hf8 hf9 hf10 hf11 hf12 hf13 hf14 hf15 hf16 hf17 hf18 hf19 hf20 hf21
  sl_exec
  sl_step
  -- every input buffer is as it was
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  iexists _; isplitr
  swap; · iexact H22
  ipureintro
  -- the one store covers the whole output buffer, so the buffer reads as the stored payload;
  refine Eq.trans (read_store_whole _ _ _) ?_
  -- each load is of a whole buffer, so it reads that buffer's contents; over those the payload is the tile function
  sl_unfold_run_names
  dsimp only
  simp only [View.readAt_eq_ld,
    View.ld_unit_zero (S := S8x128) zeros2,
    View.ld_unit_zero (S := S512x128) zeros2,
    View.ld_unit_zero (S := S384x128) zeros2,
    View.ld_unit_zero (S := S384x256) zeros2,
    View.ld_unit_zero (S := S256x128) zeros2,
    View.ld_unit_zero (S := S128x64) zeros2,
    View.ld_unit_zero (S := S64x10) zeros2,
    View.ld_unit_zero (S := S384) zeros1,
    View.ld_unit_zero (S := S128) zeros1,
    View.ld_unit_zero (S := S64) zeros1,
    View.ld_unit_zero (S := S10) zeros1]
  exact (tile_eq _ _ _ _ _ _ _ _ _ _ _ _ _ _ _ _ _ _ _ _ _ _).symm

end Cert.Kernel.KF

end
-- ==== Proof.KFrameBits.lean ====
/-
  The kernel program's run.

  The pipeline hands the body, at each of the 256 grid points, the current blocks of its 21 input windows and takes
  back the output window's block.  Three of the input windows read one array (the point's rows, the 8 rows before,
  the 8 rows after), so that array's ownership is split into three shares at the launch.  The proof data says what
  each window's staging buffer holds after the body at each point: an input's its block, the output's the tile
  function of the input blocks.  From it the launch theorem for windows that share arrays gives: every weakly fair
  execution terminates without a fault, and each window's array ends at the contents the write-backs leave.
-/
import proofs.«114131_j67370857005464_1_alg».proof.Proof.KBodyBits

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers when the region is entered: as launched (the main function is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The proof data: arrays as launched; after the body each input's buffer at its block, the output's at the tile
    function of the input blocks; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => Tile.tile (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t)
    | ⟨_ + 22, h⟩ => absurd h (Nat.not_lt.2 (Nat.le_add_left _ _))
  Φ _ := Pipeline.ΦA spec0 c
  q w := match w with
    | ⟨0, _⟩ => fullShare.left
    | ⟨1, _⟩ => fullShare.right.left
    | ⟨2, _⟩ => fullShare.right.right
    | ⟨3, _⟩ => fullShare
    | ⟨4, _⟩ => fullShare
    | ⟨5, _⟩ => fullShare
    | ⟨6, _⟩ => fullShare
    | ⟨7, _⟩ => fullShare
    | ⟨8, _⟩ => fullShare
    | ⟨9, _⟩ => fullShare
    | ⟨10, _⟩ => fullShare
    | ⟨11, _⟩ => fullShare
    | ⟨12, _⟩ => fullShare
    | ⟨13, _⟩ => fullShare
    | ⟨14, _⟩ => fullShare
    | ⟨15, _⟩ => fullShare
    | ⟨16, _⟩ => fullShare
    | ⟨17, _⟩ => fullShare
    | ⟨18, _⟩ => fullShare
    | ⟨19, _⟩ => fullShare
    | ⟨20, _⟩ => fullShare
    | ⟨21, _⟩ => fullShare
    | ⟨_ + 22, h⟩ => absurd h (Nat.not_lt.2 (Nat.le_add_left _ _))
  owed _ := 0

theorem A_eq (c : Dev nD) (w : Fin cfg0.W) : (dats m 0 c).A w = V m c (Pipeline.arrRef spec0 w) := by
  dsimp only [dats]

/-- What the body leaves in the output window's buffer at point `t`. -/
theorem after0_21 (c : Dev nD) (t : Fin cfg0.N) : (dats m 0 c).after 21 t
    = Tile.tile (BitVec.ofNat 32 ((grid0.coords t) 0).val) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) := by
  dsimp only [dats]

/-- What the body leaves in each input window's buffer: the block it found. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]

/-- Each input's current staging buffer holds its block at every point, fetched there or not: where the point does
    not fetch, the block index has not moved since the last fetch, and the body left the block in place. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)
theorem before0_7 (c : Dev nD) (t : Fin cfg0.N) (d) : (dats m 0 c).before 7 t d = iblk m c 7 t :=
  ((dats m 0 c).before_in_eq_fetched 7 rfl (fun _ => rfl) (fun _ _ _ => rfl) (fun t => by rw [after0_7]; unfold Dat.blockOf iblk; rw [A_eq]; try rfl) t d).trans
    (by unfold Dat.fetched Dat.blockOf iblk; rw [A_eq]; try rfl)
theorem before0_8 (c : Dev nD) (t : Fin cfg0.N) (d) : (dats m 0 c).before 8 t d = iblk m c 8 t :=
  ((dats m 0 c).before_in_eq_fetched 8 rfl (fun _ => rfl) (fun _ _ _ => rfl) (fun t => by rw [after0_8]; unfold Dat.blockOf iblk; rw [A_eq]; try rfl) t d).trans
    (by unfold Dat.fetched Dat.blockOf iblk; rw [A_eq]; try rfl)
theorem before0_9 (c : Dev nD) (t : Fin cfg0.N) (d) : (dats m 0 c).before 9 t d = iblk m c 9 t :=
  ((dats m 0 c).before_in_eq_fetched 9 rfl (fun _ => rfl) (fun _ _ _ => rfl) (fun t => by rw [after0_9]; unfold Dat.blockOf iblk; rw [A_eq]; try rfl) t d).trans
    (by unfold Dat.fetched Dat.blockOf iblk; rw [A_eq]; try rfl)
theorem before0_10 (c : Dev nD) (t : Fin cfg0.N) (d) : (dats m 0 c).before 10 t d = iblk m c 10 t :=
  ((dats m 0 c).before_in_eq_fetched 10 rfl (fun _ => rfl) (fun _ _ _ => rfl) (fun t => by rw [after0_10]; unfold Dat.blockOf iblk; rw [A_eq]; try rfl) t d).trans
    (by unfold Dat.fetched Dat.blockOf iblk; rw [A_eq]; try rfl)
theorem before0_11 (c : Dev nD) (t : Fin cfg0.N) (d) : (dats m 0 c).before 11 t d = iblk m c 11 t :=
  ((dats m 0 c).before_in_eq_fetched 11 rfl (fun _ => rfl) (fun _ _ _ => rfl) (fun t => by rw [after0_11]; unfold Dat.blockOf iblk; rw [A_eq]; try rfl) t d).trans
    (by unfold Dat.fetched Dat.blockOf iblk; rw [A_eq]; try rfl)
theorem before0_12 (c : Dev nD) (t : Fin cfg0.N) (d) : (dats m 0 c).before 12 t d = iblk m c 12 t :=
  ((dats m 0 c).before_in_eq_fetched 12 rfl (fun _ => rfl) (fun _ _ _ => rfl) (fun t => by rw [after0_12]; unfold Dat.blockOf iblk; rw [A_eq]; try rfl) t d).trans
    (by unfold Dat.fetched Dat.blockOf iblk; rw [A_eq]; try rfl)
theorem before0_13 (c : Dev nD) (t : Fin cfg0.N) (d) : (dats m 0 c).before 13 t d = iblk m c 13 t :=
  ((dats m 0 c).before_in_eq_fetched 13 rfl (fun _ => rfl) (fun _ _ _ => rfl) (fun t => by rw [after0_13]; unfold Dat.blockOf iblk; rw [A_eq]; try rfl) t d).trans
    (by unfold Dat.fetched Dat.blockOf iblk; rw [A_eq]; try rfl)
theorem before0_14 (c : Dev nD) (t : Fin cfg0.N) (d) : (dats m 0 c).before 14 t d = iblk m c 14 t :=
  ((dats m 0 c).before_in_eq_fetched 14 rfl (fun _ => rfl) (fun _ _ _ => rfl) (fun t => by rw [after0_14]; unfold Dat.blockOf iblk; rw [A_eq]; try rfl) t d).trans
    (by unfold Dat.fetched Dat.blockOf iblk; rw [A_eq]; try rfl)
theorem before0_15 (c : Dev nD) (t : Fin cfg0.N) (d) : (dats m 0 c).before 15 t d = iblk m c 15 t :=
  ((dats m 0 c).before_in_eq_fetched 15 rfl (fun _ => rfl) (fun _ _ _ => rfl) (fun t => by rw [after0_15]; unfold Dat.blockOf iblk; rw [A_eq]; try rfl) t d).trans
    (by unfold Dat.fetched Dat.blockOf iblk; rw [A_eq]; try rfl)
theorem before0_16 (c : Dev nD) (t : Fin cfg0.N) (d) : (dats m 0 c).before 16 t d = iblk m c 16 t :=
  ((dats m 0 c).before_in_eq_fetched 16 rfl (fun _ => rfl) (fun _ _ _ => rfl) (fun t => by rw [after0_16]; unfold Dat.blockOf iblk; rw [A_eq]; try rfl) t d).trans
    (by unfold Dat.fetched Dat.blockOf iblk; rw [A_eq]; try rfl)
theorem before0_17 (c : Dev nD) (t : Fin cfg0.N) (d) : (dats m 0 c).before 17 t d = iblk m c 17 t :=
  ((dats m 0 c).before_in_eq_fetched 17 rfl (fun _ => rfl) (fun _ _ _ => rfl) (fun t => by rw [after0_17]; unfold Dat.blockOf iblk; rw [A_eq]; try rfl) t d).trans
    (by unfold Dat.fetched Dat.blockOf iblk; rw [A_eq]; try rfl)
theorem before0_18 (c : Dev nD) (t : Fin cfg0.N) (d) : (dats m 0 c).before 18 t d = iblk m c 18 t :=
  ((dats m 0 c).before_in_eq_fetched 18 rfl (fun _ => rfl) (fun _ _ _ => rfl) (fun t => by rw [after0_18]; unfold Dat.blockOf iblk; rw [A_eq]; try rfl) t d).trans
    (by unfold Dat.fetched Dat.blockOf iblk; rw [A_eq]; try rfl)
theorem before0_19 (c : Dev nD) (t : Fin cfg0.N) (d) : (dats m 0 c).before 19 t d = iblk m c 19 t :=
  ((dats m 0 c).before_in_eq_fetched 19 rfl (fun _ => rfl) (fun _ _ _ => rfl) (fun t => by rw [after0_19]; unfold Dat.blockOf iblk; rw [A_eq]; try rfl) t d).trans
    (by unfold Dat.fetched Dat.blockOf iblk; rw [A_eq]; try rfl)
theorem before0_20 (c : Dev nD) (t : Fin cfg0.N) (d) : (dats m 0 c).before 20 t d = iblk m c 20 t :=
  ((dats m 0 c).before_in_eq_fetched 20 rfl (fun _ => rfl) (fun _ _ _ => rfl) (fun t => by rw [after0_20]; unfold Dat.blockOf iblk; rw [A_eq]; try rfl) t d).trans
    (by unfold Dat.fetched Dat.blockOf iblk; rw [A_eq]; try rfl)

/-- What the body is called with at point `t`: the invariant, what is owed, and each window's current staging buffer
    whole at what the pipeline left in it. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d))
    ∗ (∃ d, owns (c : Thread nD τ) (st0_17 t) fullShare ((dats m 0 c).before 17 t d))
    ∗ (∃ d, owns (c : Thread nD τ) (st0_18 t) fullShare ((dats m 0 c).before 18 t d))
    ∗ (∃ d, owns (c : Thread nD τ) (st0_19 t) fullShare ((dats m 0 c).before 19 t d))
    ∗ (∃ d, owns (c : Thread nD τ) (st0_20 t) fullShare ((dats m 0 c).before 20 t d))
    ∗ (∃ d, owns (c : Thread nD τ) (st0_21 t) fullShare ((dats m 0 c).before 21 t d)))

/-- What the body returns: the same, each buffer at what the proof data says the body leaves. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t)
    ∗ owns (c : Thread nD τ) (st0_17 t) fullShare ((dats m 0 c).after 17 t)
    ∗ owns (c : Thread nD τ) (st0_18 t) fullShare ((dats m 0 c).after 18 t)
    ∗ owns (c : Thread nD τ) (st0_19 t) fullShare ((dats m 0 c).after 19 t)
    ∗ owns (c : Thread nD τ) (st0_20 t) fullShare ((dats m 0 c).after 20 t)
    ∗ owns (c : Thread nD τ) (st0_21 t) fullShare ((dats m 0 c).after 21 t))

/-- The body at any point: the inputs' buffers hold their blocks, so the body's triple applies at the blocks; the
    invariant and what is owed pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩⟩
  iapply (sound_kernel c Set.univ (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexists _; iexact H21
  iintro ⟨H0, H1, H2, H3, H4, H5, H6, H7, H8, H9, H10, H11, H12, H13, H14, H15, H16, H17, H18, H19, H20, H21⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  iexact H21

/-- The body obligation, at every point. -/
theorem body_obligation (c : Dev nD) : BodyObligation (dats (F := F) m 0 c) (defs₀ (F := F)) Variants.none () Set.univ := fun t => by
  rw [bigSep_W0, bigSep_W0]
  exact sound_body m c t

/-! ## The arrays at entry: one array behind three windows -/

/-- A buffer held whole at the full share is held at three shares that compose to it. -/
theorem pointsTo_three (ℓ : Loc nD τ sig) (f : Buf (Elt F) ℓ) :
    (ℓ ↦{fullShare} f : sProp 𝕄) ⊢ iprop((ℓ ↦{fullShare.left} f) ∗ (ℓ ↦{fullShare.right.left} f) ∗ ℓ ↦{fullShare.right.right} f) :=
  ((pointsTo_share (PosShare.mem_left_op_right fullShare)).1).trans
    (sep_mono .rfl (pointsTo_share (PosShare.mem_left_op_right fullShare.right)).1)

/-- One window per distinct array: every window but the second and third, whose array is the first's. -/
abbrev reps : Finset (Fin 22) := ((Finset.univ : Finset (Fin 22)).erase 1).erase 2

/-- The windows' arrays are the arrays of the representatives, -/
theorem arr_image : (Finset.univ.image (Pipeline.arrRef spec0) : Finset (Ref sig .tc)) = reps.image (Pipeline.arrRef spec0) := by decide

/-- and distinct representatives have distinct arrays. -/
theorem arr_injOn : Set.InjOn (Pipeline.arrRef spec0) (reps : Set (Fin 22)) := by decide

/-- The shares the core holds the arrays at: the shared array's three, the full share of every other. -/
theorem share0_0 (c : Dev nD) : (dats m 0 c).share 0 = fullShare.left := rfl
theorem share0_1 (c : Dev nD) : (dats m 0 c).share 1 = fullShare.right.left := rfl
theorem share0_2 (c : Dev nD) : (dats m 0 c).share 2 = fullShare.right.right := rfl
theorem share_rest (c : Dev nD) (w : Fin 22) (h0 : w ≠ 0) (h1 : w ≠ 1) (h2 : w ≠ 2) : (dats m 0 c).share w = fullShare := by
  fin_cases w
  · exact absurd rfl h0
  · exact absurd rfl h1
  · exact absurd rfl h2
  all_goals rfl

/-- The distinct buffers behind the arrays, each whole at the full share at the launch contents, are the proof data's
    arrays at entry: the shared array's points-to splits into the three windows' shares, every other array is its
    one window's. -/
theorem hsplit (c : Dev nD) : (Pipeline.arrBufs spec0 c (V m c) : sProp 𝕄) ⊢ (dats m 0 c).arrays ((dats m 0 c).arrAt · 0) := by
  unfold Pipeline.arrBufs Dat.arrays
  rw [arr_image, bigSep_image_of_injOn arr_injOn,
    bigSep_univ_split (1 : Fin 22), bigSep_erase (show (2 : Fin 22) ∈ Finset.univ.erase 1 by decide),
    bigSep_erase (show (0 : Fin 22) ∈ reps by decide),
    bigSep_erase (show (0 : Fin 22) ∈ reps by decide)]
  -- every array but the shared one is its one window's, whole, at the full share, at the launch contents
  have hrest : (bigSep (reps.erase 0) fun w => ((c.tc : Thread nD τ).loc (Pipeline.arrRef spec0 w)) ↦{fullShare} V m c (Pipeline.arrRef spec0 w) : sProp 𝕄)
      = bigSep (reps.erase 0) fun w : Fin cfg0.W => (cfg0.win w).arr.view.loc (c.tc : Thread nD τ) ↦[(cfg0.win w).arr.view.set]{(dats m 0 c).share w} (dats m 0 c).arrAt w 0 :=
    bigSep_congr fun w hw => by
      have hw0 : w ≠ 0 := (Finset.mem_erase.mp hw).1
      have hw2 : w ≠ 2 := (Finset.mem_erase.mp (Finset.mem_erase.mp hw).2).1
      have hw1 : w ≠ 1 := (Finset.mem_erase.mp (Finset.mem_erase.mp (Finset.mem_erase.mp hw).2).2).1
      rw [(arr_whole0 w).set_eq_univ, share_rest m c w hw0 hw1 hw2]
      rfl
  rw [hrest, (arr_whole0 0).set_eq_univ, share0_0, share0_1, share0_2]
  -- the shared array's points-to is the three windows' shares of it
  show iprop(_ ∗ _) ⊢ iprop(_ ∗ _ ∗ _ ∗ _)
  refine (sep_mono_left (pointsTo_three _ _)).trans ?_
  iintro ⟨⟨Hl, Hrl, Hrr⟩, Hr⟩
  isplitl [Hrl]; · iexact Hrl
  isplitl [Hrr]; · iexact Hrr
  isplitl [Hl]; · iexact Hl
  iexact Hr

/-! ## The run -/

set_option backward.isDefEq.respectTransparency.types false in
/-- THE RUN: every weakly fair execution of the kernel program terminates without a fault, and each window's array
    ends at what the proof data's write-backs leave. -/
theorem run_main : θ_run defs (onTc (τ := τ) (main (F := F))) ⟨m, fun _ => 0, ρ⟩ (fun r => ∀ c : Dev nD, ∀ w : Fin 22,
      r.2.mem (((spec0 w).arr.view.loc (c.tc : Thread nD τ))) = (dats m 0 c).arrAt w cfg0.N) :=
  Pipeline.θ_run_region_pf (fun q => (cfgs q).toPCfg (Val := Elt F)) (fun q => (cfgs q).toPCfg_adm) (dats m) () cellOf_inj (0 : Fin 1) winFacts₀0
    (Pipeline.OwnSemFacts.none spec0) (Pipeline.PreFacts.none _) emb₁ defs₀ Variants.none m ρ main
    (fun c => (body_obligation m c).loose) block_pos0 arr_whole0 stage_whole0 (fun _ _ => rfl)
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := Pipeline.hmain_region cfgs 0 defs₀ Variants.none m main fun c => (main_chain c).trans rfl)
    (hsplit := hsplit m)
    (hpf := fun _ k => k.elim0)
    (X := fun c => iprop(∃ r, prngReg c r)) (Y := fun c => iprop(∃ r, prngReg c r)) (Z := fun _ => iprop(emp))
    (hX := fun c => by
      iintro ⟨-, -, -, -, Hp, -⟩; imodintro
      isplitl [Hp]; · iexists _; iexact Hp
      iempintro)
    (hin := fun c => by
      show _ ⊢ (Pipeline.ΦA spec0 c : sProp 𝕄)
      unfold Pipeline.ΦA; iintro ⟨Hp, -, Hr⟩
      isplitl [Hr] <;> iassumption)
    (hout := fun c => by
      show (Pipeline.ΦA spec0 c : sProp 𝕄) ⊢ _
      rw [Pipeline.ownSems0_none]; unfold Pipeline.ΦA
      iintro ⟨Hr, Hp⟩
      isplitl [Hp]; · iexact Hp
      isplitr; · iempintro
      iexact Hr)
    (QY := fun _ _ => True)
    (hY := fun c s' => by
      iintro ⟨-, -, HSI⟩; imodintro
      isplitr; · ipureintro; trivial
      iexact HSI)
    (hQ := fun s h c w => (h c).1 w)

end Cert.Kernel.KF

end
-- ==== Proof.KArgsBits.lean ====
/-
  The kernel program leaves its argument arrays unchanged.

  Every argument array is read through an input window (the input array through three of them), and an input
  window's array ends as it started: the write-backs concern the one output window only.
-/
import proofs.«114131_j67370857005464_1_alg».proof.Proof.KFrameBits

set_option maxRecDepth 16384

noncomputable section

namespace Cert.Kernel.KF

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- THE FRAME, at any float instance: every weakly fair execution terminates without a fault and the nineteen
    argument arrays end as they were launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => ⟨
      (h c 0).trans (((dats m 0 c).arrAt_in 0 rfl _).trans (A_eq m c 0)),
      (h c 3).trans (((dats m 0 c).arrAt_in 3 rfl _).trans (A_eq m c 3)),
      (h c 4).trans (((dats m 0 c).arrAt_in 4 rfl _).trans (A_eq m c 4)),
      (h c 5).trans (((dats m 0 c).arrAt_in 5 rfl _).trans (A_eq m c 5)),
      (h c 6).trans (((dats m 0 c).arrAt_in 6 rfl _).trans (A_eq m c 6)),
      (h c 7).trans (((dats m 0 c).arrAt_in 7 rfl _).trans (A_eq m c 7)),
      (h c 8).trans (((dats m 0 c).arrAt_in 8 rfl _).trans (A_eq m c 8)),
      (h c 9).trans (((dats m 0 c).arrAt_in 9 rfl _).trans (A_eq m c 9)),
      (h c 10).trans (((dats m 0 c).arrAt_in 10 rfl _).trans (A_eq m c 10)),
      (h c 11).trans (((dats m 0 c).arrAt_in 11 rfl _).trans (A_eq m c 11)),
      (h c 12).trans (((dats m 0 c).arrAt_in 12 rfl _).trans (A_eq m c 12)),
      (h c 13).trans (((dats m 0 c).arrAt_in 13 rfl _).trans (A_eq m c 13)),
      (h c 14).trans (((dats m 0 c).arrAt_in 14 rfl _).trans (A_eq m c 14)),
      (h c 15).trans (((dats m 0 c).arrAt_in 15 rfl _).trans (A_eq m c 15)),
      (h c 16).trans (((dats m 0 c).arrAt_in 16 rfl _).trans (A_eq m c 16)),
      (h c 17).trans (((dats m 0 c).arrAt_in 17 rfl _).trans (A_eq m c 17)),
      (h c 18).trans (((dats m 0 c).arrAt_in 18 rfl _).trans (A_eq m c 18)),
      (h c 19).trans (((dats m 0 c).arrAt_in 19 rfl _).trans (A_eq m c 19)),
      (h c 20).trans (((dats m 0 c).arrAt_in 20 rfl _).trans (A_eq m c 20))⟩)
    (run_main m ρ)

end Cert.Kernel.KF

end
-- ==== Proof.RefFrame.lean ====
/-
  The reference program's frame: every weakly fair execution of the reference terminates without a fault and
  leaves its argument arrays unchanged.  The reference is a straight line of host operations, so its run is the
  composition of those operations; the frame is that run with what it says about the result dropped.
-/
import proofs.«114131_j67370857005464_1_alg».proof.Defs
import proofs.«114131_j67370857005464_1_alg».proof.Proof.Gen.ReferenceIdeal.Run
import proofs.«114131_j67370857005464_1_alg».proof.Proof.Gen.Pre_finite_inputs

noncomputable section

open Idealize.ShloMosaic Idealize.ShloMosaic.TcCoe Idealize.SL.Sem

namespace Cert.Proof.RefFrame

theorem frame_reference : Cert.frame_ReferenceIdeal := fun m ρ _ =>
  (θ_run Cert.ReferenceIdeal.defs _ _).mono (fun _ h c => (h c).2) (Cert.ReferenceIdeal.Value.run (F := Ideal) m ρ)

end Cert.Proof.RefFrame

end
-- ==== Proof.RefTerms.lean ====
/-
  The reference computation, stage by stage, as whole-array functions of its argument arrays.

  A bidirectional gated recurrent layer over sequences of length one, from the zero hidden state, is row-local:
  row r of its output depends on row r of its input only.  With gi = x · Wᵀ + b_ih (three gate blocks of 128
  columns: reset, update, candidate) and the hidden bias b_hh cut the same way,
      r = σ(gi_r + b_hh,r),  z = σ(gi_z + b_hh,z),  n = tanh(gi_n + r · b_hh,n),  h = (1 − z) · n,
  where σ(v) = 1 / (1 + e^(−v)).  The layer's output is the forward cell's h beside the backward cell's h.

  A graph convolution on the chain 0 — 1 — … — 131071 with self-loops: every node's degree is the number of edges
  that end in it (3 inside, 2 at the two ends), each edge (s, t) carries the weight deg(s)^(−1/2) · deg(t)^(−1/2),
  and the output row t is the sum over the edges ending in t of weight · (X W)[s], plus the bias.  The edges are
  listed as (i, i+1) for i < 131071, then (i+1, i) for i < 131071, then the self-loops (i, i).
-/
import proofs.«114131_j67370857005464_1_alg».proof.Proof.Gen.ReferenceIdeal

noncomputable section

namespace Cert.ReferenceIdeal.RefT

open Cert.ReferenceIdeal Cert.ReferenceIdeal.Gen Idealize.ShloMosaic Idealize.SL.Sem

variable {F : FTy → Type} [FloatOps F]

/-- The input-to-gates product of the first layer: x · Wᵀ + b_ih, W of shape 384 × 128. -/
def gates1 (X : Vec F S131072x128 .f32) (w : Vec F S384x128 .f32) (b : Vec F S384 .f32) : FVec F S131072x384 .f32 :=
  addf (Host.dotGeneral dot_S131072x128_S128x384_S131072x384_1_0_0_1_n_n none X (transpose S128x384 [1, 0] w transposes_S384x128_S128x384_1_0)) (broadcastInDim S131072x384 ![0, 1] bcast_S1x384_S131072x384_0_1 (broadcastInDim S1x384 ![1] bcast_S384_S1x384_1 b))

/-- The input-to-gates product of the second layer: h · Wᵀ + b_ih, W of shape 384 × 256. -/
def gates2 (H : Vec F S131072x256 .f32) (w : Vec F S384x256 .f32) (b : Vec F S384 .f32) : FVec F S131072x384 .f32 :=
  addf (Host.dotGeneral dot_S131072x256_S256x384_S131072x384_1_0_0_1_n_n none H (transpose S256x384 [1, 0] w transposes_S384x256_S256x384_1_0)) (broadcastInDim S131072x384 ![0, 1] bcast_S1x384_S131072x384_0_1 (broadcastInDim S1x384 ![1] bcast_S384_S1x384_1 b))

/-- One gated recurrent cell from the zero hidden state: (1 − z) · n from the gates' product and the hidden bias. -/
def cell (gi : Vec F S131072x384 .f32) (bhh : Vec F S384 .f32) : FVec F S131072x128 .f32 :=
  mulf (subf (broadcastInDim S131072x128 ![] bcast_S_S131072x128 (constant S_ .f32 0x3F800000#32)) (Host.divf (broadcastInDim S131072x128 ![] bcast_S_S131072x128 (constant S_ .f32 0x3F800000#32)) (addf (broadcastInDim S131072x128 ![] bcast_S_S131072x128 (constant S_ .f32 0x3F800000#32)) (Host.exp (Host.negf (addf (extractStridedSlice S131072x128 ![0, 128] gi slices_S131072x384_S131072x128_0_128) (broadcastInDim S131072x128 ![0, 1] bcast_S1x128_S131072x128_0_1 (broadcastInDim S1x128 ![1] bcast_S128_S1x128_1 (extractStridedSlice S128 ![128] bhh slices_S384_S128_128))))))))) (Host.tanh (addf (extractStridedSlice S131072x128 ![0, 256] gi slices_S131072x384_S131072x128_0_256) (mulf (Host.divf (broadcastInDim S131072x128 ![] bcast_S_S131072x128 (constant S_ .f32 0x3F800000#32)) (addf (broadcastInDim S131072x128 ![] bcast_S_S131072x128 (constant S_ .f32 0x3F800000#32)) (Host.exp (Host.negf (addf (extractStridedSlice S131072x128 ![0, 0] gi slices_S131072x384_S131072x128_0_0) (broadcastInDim S131072x128 ![0, 1] bcast_S1x128_S131072x128_0_1 (broadcastInDim S1x128 ![1] bcast_S128_S1x128_1 (extractStridedSlice S128 ![0] bhh slices_S384_S128_0)))))))) (broadcastInDim S131072x128 ![0, 1] bcast_S1x128_S131072x128_0_1 (broadcastInDim S1x128 ![1] bcast_S128_S1x128_1 (extractStridedSlice S128 ![256] bhh slices_S384_S128_256))))))

/-- The forward cell's output beside the backward cell's, 256 columns. -/
def pair (a b : Vec F S131072x128 .f32) : FVec F S131072x256 .f32 :=
  concatenate S131072x256 1 [⟨S131072x128, a⟩, ⟨S131072x128, b⟩] concatenates_S131072x128_S131072x128_S131072x256_d1

/-- The sources of the chain's edges: i, then i + 1, then the self-loops. -/
def srcIdx : IVec S393214 32 :=
  concatenate S393214 0 [⟨S131071, (iotaInDim S131071 32 0)⟩, ⟨S131071, (addi (broadcastInDim S131071 ![] bcast_S_S131071 (constantI S_ 32 1#32)) (iotaInDim S131071 32 0))⟩, ⟨S131072, (iotaInDim S131072 32 0)⟩] concatenates_S131071_S131071_S131072_S393214_d0

/-- The targets of the chain's edges: i + 1, then i, then the self-loops. -/
def tgtIdx : IVec S393214 32 :=
  concatenate S393214 0 [⟨S131071, (addi (broadcastInDim S131071 ![] bcast_S_S131071 (constantI S_ 32 1#32)) (iotaInDim S131071 32 0))⟩, ⟨S131071, (iotaInDim S131071 32 0)⟩, ⟨S131072, (iotaInDim S131072 32 0)⟩] concatenates_S131071_S131071_S131072_S393214_d0

/-- deg^(−1/2): the degree is the number of edges ending in the node, a sum of ones. -/
def dinv : FVec F S131072 .f32 :=
  Host.rsqrt (Host.scatterAdd scatter_S131072_S393214x1_S393214_n_0_0_1 (broadcastInDim S131072 ![] bcast_S_S131072 (constant S_ .f32 0x00000000#32)) (broadcastInDim S393214x1 ![0] bcast_S393214_S393214x1_0 tgtIdx) (broadcastInDim S393214 ![] bcast_S_S393214 (constant S_ .f32 0x3F800000#32)))

/-- Each edge's weight: deg(source)^(−1/2) · deg(target)^(−1/2). -/
def edgeNorm : FVec F S393214 .f32 :=
  mulf (Host.gather gather_S131072_S393214x1_S393214_n_0_n_n_0_1_1 (dinv (F := F)) (broadcastInDim S393214x1 ![0] bcast_S393214_S393214x1_0 (select (cmpi .slt srcIdx (broadcastInDim S393214 ![] bcast_S_S393214 (constantI S_ 32 0#32))) (addi srcIdx (broadcastInDim S393214 ![] bcast_S_S393214 (constantI S_ 32 131072#32))) srcIdx))) (Host.gather gather_S131072_S393214x1_S393214_n_0_n_n_0_1_1 (dinv (F := F)) (broadcastInDim S393214x1 ![0] bcast_S393214_S393214x1_0 (select (cmpi .slt tgtIdx (broadcastInDim S393214 ![] bcast_S_S393214 (constantI S_ 32 0#32))) (addi tgtIdx (broadcastInDim S393214 ![] bcast_S_S393214 (constantI S_ 32 131072#32))) tgtIdx)))

/-- The graph convolution of a 128-column array of transformed features: weighted sum over incoming edges, plus bias. -/
def gcn128 (XW : Vec F S131072x128 .f32) (b : Vec F S128 .f32) : FVec F S131072x128 .f32 :=
  addf (Host.scatterAdd scatter_S131072x128_S393214x1_S393214x128_1_0_0_1 (broadcastInDim S131072x128 ![] bcast_S_S131072x128 (constant S_ .f32 0x00000000#32)) (broadcastInDim S393214x1 ![0] bcast_S393214_S393214x1_0 tgtIdx) (mulf (broadcastInDim S393214x128 ![0, 1] bcast_S393214x1_S393214x128_0_1 (broadcastInDim S393214x1 ![0] bcast_S393214_S393214x1_0 (edgeNorm (F := F)))) (Host.gather gather_S131072x128_S393214x1_S393214x128_1_0_n_n_0_1_1128 XW (broadcastInDim S393214x1 ![0] bcast_S393214_S393214x1_0 (select (cmpi .slt srcIdx (broadcastInDim S393214 ![] bcast_S_S393214 (constantI S_ 32 0#32))) (addi srcIdx (broadcastInDim S393214 ![] bcast_S_S393214 (constantI S_ 32 131072#32))) srcIdx))))) (broadcastInDim S131072x128 ![0, 1] bcast_S1x128_S131072x128_0_1 (broadcastInDim S1x128 ![1] bcast_S128_S1x128_1 b))

/-- The graph convolution of a 64-column array of transformed features. -/
def gcn64 (XW : Vec F S131072x64 .f32) (b : Vec F S64 .f32) : FVec F S131072x64 .f32 :=
  addf (Host.scatterAdd scatter_S131072x64_S393214x1_S393214x64_1_0_0_1 (broadcastInDim S131072x64 ![] bcast_S_S131072x64 (constant S_ .f32 0x00000000#32)) (broadcastInDim S393214x1 ![0] bcast_S393214_S393214x1_0 tgtIdx) (mulf (broadcastInDim S393214x64 ![0, 1] bcast_S393214x1_S393214x64_0_1 (broadcastInDim S393214x1 ![0] bcast_S393214_S393214x1_0 (edgeNorm (F := F)))) (Host.gather gather_S131072x64_S393214x1_S393214x64_1_0_n_n_0_1_164 XW (broadcastInDim S393214x1 ![0] bcast_S393214_S393214x1_0 (select (cmpi .slt srcIdx (broadcastInDim S393214 ![] bcast_S_S393214 (constantI S_ 32 0#32))) (addi srcIdx (broadcastInDim S393214 ![] bcast_S_S393214 (constantI S_ 32 131072#32))) srcIdx))))) (broadcastInDim S131072x64 ![0, 1] bcast_S1x64_S131072x64_0_1 (broadcastInDim S1x64 ![1] bcast_S64_S1x64_1 b))

/-- The first convolution's feature transform: h₂ · W_g1. -/
def xw1 (H2 : Vec F S131072x256 .f32) (wg1 : Vec F S256x128 .f32) : FVec F S131072x128 .f32 :=
  Host.dotGeneral dot_S131072x256_S256x128_S131072x128_1_0_0_1_n_n none H2 wg1

/-- The second convolution's feature transform: g₁ · W_g2. -/
def xw2 (G1 : Vec F S131072x128 .f32) (wg2 : Vec F S128x64 .f32) : FVec F S131072x64 .f32 :=
  Host.dotGeneral dot_S131072x128_S128x64_S131072x64_1_0_0_1_n_n none G1 wg2

/-- The final linear layer: g₂ · W_fc + b_fc. -/
def fc (G2 : Vec F S131072x64 .f32) (wfc : Vec F S64x10 .f32) (bfc : Vec F S10 .f32) : FVec F S131072x10 .f32 :=
  addf (Host.dotGeneral dot_S131072x64_S64x10_S131072x10_1_0_0_1_n_n none G2 wfc) (broadcastInDim S131072x10 ![0, 1] bcast_S1x10_S131072x10_0_1 (broadcastInDim S1x10 ![1] bcast_S10_S1x10_1 bfc))

/-- The first recurrent layer's output. -/
def layer1 (X : Vec F S131072x128 .f32) (wf : Vec F S384x128 .f32) (uf hf : Vec F S384 .f32) (wb : Vec F S384x128 .f32) (ub hb : Vec F S384 .f32) : FVec F S131072x256 .f32 :=
  pair (cell (gates1 X wf uf) hf) (cell (gates1 X wb ub) hb)

/-- The second recurrent layer's output. -/
def layer2 (H : Vec F S131072x256 .f32) (wf : Vec F S384x256 .f32) (uf hf : Vec F S384 .f32) (wb : Vec F S384x256 .f32) (ub hb : Vec F S384 .f32) : FVec F S131072x256 .f32 :=
  pair (cell (gates2 H wf uf) hf) (cell (gates2 H wb ub) hb)

/-- The whole reference: two recurrent layers, two graph convolutions, the final linear layer. -/
def whole (X : Vec F S131072x128 .f32)
    (wf1 : Vec F S384x128 .f32) (uf1 hf1 : Vec F S384 .f32) (wb1 : Vec F S384x128 .f32) (ub1 hb1 : Vec F S384 .f32)
    (wf2 : Vec F S384x256 .f32) (uf2 hf2 : Vec F S384 .f32) (wb2 : Vec F S384x256 .f32) (ub2 hb2 : Vec F S384 .f32)
    (wg1 : Vec F S256x128 .f32) (bg1 : Vec F S128 .f32) (wg2 : Vec F S128x64 .f32) (bg2 : Vec F S64 .f32)
    (wfc : Vec F S64x10 .f32) (bfc : Vec F S10 .f32) : FVec F S131072x10 .f32 :=
  fc (gcn64 (xw2 (gcn128 (xw1 (layer2 (layer1 X wf1 uf1 hf1 wb1 ub1 hb1) wf2 uf2 hf2 wb2 ub2 hb2) wg1) bg1) wg2) bg2) wfc bfc

end Cert.ReferenceIdeal.RefT

end
-- ==== Proof.StageA.lean ====
/-
  The first recurrent layer is row-local, in the kernel's tile and in the reference alike: if extended row e of the
  tile's input holds array row r of the input, then extended row e of the tile's first-layer output holds row r of
  the reference's first-layer output.  Both sides compute, per row, the same gates x · Wᵀ + b (a sum over the 128
  input columns), the same logistic and tanh of them, the forward cell's 128 columns beside the backward cell's.
-/
import proofs.«114131_j67370857005464_1_alg».proof.Proof.Tile
import proofs.«114131_j67370857005464_1_alg».proof.Proof.RefTerms
import Idealize.ShloMosaic.Lib.ValueIdx
import Idealize.ShloMosaic.Lib.ValueLayout
import Idealize.ShloMosaic.Lib.Pipeline.Value
import Idealize.ShloMosaic.PureOps.Ideal.Laws

noncomputable section

namespace Cert.Proof.StageA

open Idealize.ShloMosaic Idealize.ShloMosaic.ValueIdx Cert.KernelIdeal Cert.KernelIdeal.Gen

/-! ## Scalars -/

/-- The word 0x3F800000 is the number one. -/
theorem ofBits_one : Ideal.ofBits .f32 0x3F800000#32 = 1 := IdealRules.sign_bit.ideal_onePat .f32

/-- One gated recurrent cell from the zero hidden state, on one unit's three gate sums and three hidden biases:
    with r = σ(g_r + b_r) and z = σ(g_z + b_z), the output is (1 − z) · tanh(g_n + r · b_n). -/
def cellAt (gr gz gn br bz bn : EReal) : EReal :=
  (1 - Ideal.logistic (gz + bz)) * Ideal.tanh (gn + Ideal.logistic (gr + br) * bn)

/-- Column j of the reset block, of the update block and of the candidate block among the 384 gate columns. -/
def c0 (j : Fin 128) : Fin 384 := ⟨j.val, by omega⟩
def c1 (j : Fin 128) : Fin 384 := ⟨128 + j.val, by omega⟩
def c2 (j : Fin 128) : Fin 384 := ⟨256 + j.val, by omega⟩

/-! ## Pointwise operations at an index (definitional) -/

section Pointwise
variable {s : Shape} {φ : FTy}
theorem logistic_apply (x : FVec Ideal s φ) (i : s.Idx) : logistic x i = Ideal.logistic (x i) := rfl
theorem tanh_apply (x : FVec Ideal s φ) (i : s.Idx) : tanh x i = Ideal.tanh (x i) := rfl
theorem hostExp_apply (x : FVec Ideal s φ) (i : s.Idx) : Host.exp x i = Ideal.exp (x i) := rfl
theorem hostNegf_apply (x : FVec Ideal s φ) (i : s.Idx) : Host.negf x i = -(x i) := rfl
theorem hostDivf_apply (x y : FVec Ideal s φ) (i : s.Idx) : Host.divf x y i = Ideal.div (x i) (y i) := rfl
theorem hostTanh_apply (x : FVec Ideal s φ) (i : s.Idx) : Host.tanh x i = Ideal.tanh (x i) := rfl
end Pointwise

/-! ## The kernel's cell -/

/-- A hidden bias's block from offset o, laid along a row and repeated down the 528 rows, reads at (e, j) the bias at o + j. -/
theorem kbias_apply (b : FVec Ideal S384 .f32) (o : Nat) (h1 : S384.Slices ![o] S128) (h2 : S128.ShapeCasts S1x128)
    (h3 : S1x128.Broadcasts S528x128) (e : Fin 528) (j : Fin 128) (k : Fin 384) (hk : k.val = o + j.val) :
    broadcastTo S528x128 (shapeCast S1x128 (extractStridedSlice S128 ![o] b h1) h2) h3 (ix2 e j) = b (ix1 k) :=
  (broadcastTo_1b_ab_apply _ h3 e j).trans ((shapeCast_a_1a_apply _ h2 0 j).trans
    (extractStridedSlice_apply _ b h1 (ix1 j) (ix1 k) (fun a => by match a with | ⟨0, _⟩ => exact hk)))

/-- The kernel's gate arithmetic on a 528-row array of gate sums and a hidden bias. -/
def kcell (g : FVec Ideal S528x384 .f32) (b : FVec Ideal S384 .f32) : FVec Ideal S528x128 .f32 :=
  mulf
    (subf (broadcast S528x128 (Scalar.ofBits .f32 0x3F800000#32))
      (logistic (addf (extractStridedSlice S528x128 ![0, 128] g slices_S528x384_o0_128_S528x128)
        (broadcastTo S528x128 (shapeCast S1x128 (extractStridedSlice S128 ![128] b slices_S384_o128_S128) shapeCasts_S128_S1x128) broadcasts_S1x128_S528x128))))
    (tanh (addf (extractStridedSlice S528x128 ![0, 256] g slices_S528x384_o0_256_S528x128)
      (mulf
        (logistic (addf (extractStridedSlice S528x128 ![0, 0] g slices_S528x384_o0_0_S528x128)
          (broadcastTo S528x128 (shapeCast S1x128 (extractStridedSlice S128 ![0] b slices_S384_o0_S128) shapeCasts_S128_S1x128) broadcasts_S1x128_S528x128)))
        (broadcastTo S528x128 (shapeCast S1x128 (extractStridedSlice S128 ![256] b slices_S384_o256_S128) shapeCasts_S128_S1x128) broadcasts_S1x128_S528x128))))

/-- The kernel's cell at row e, unit j, from that row's gate sums. -/
theorem kcell_apply (g : FVec Ideal S528x384 .f32) (b : FVec Ideal S384 .f32) (e : Fin 528) (j : Fin 128) :
    kcell g b (ix2 e j)
      = cellAt (g (ix2 e (c0 j))) (g (ix2 e (c1 j))) (g (ix2 e (c2 j))) (b (ix1 (c0 j))) (b (ix1 (c1 j))) (b (ix1 (c2 j))) := by
  have s0 := slice2_axis1_apply 0 g slices_S528x384_o0_0_S528x128 e j (c0 j) (Nat.zero_add _).symm
  have s1 := slice2_axis1_apply 128 g slices_S528x384_o0_128_S528x128 e j (c1 j) rfl
  have s2 := slice2_axis1_apply 256 g slices_S528x384_o0_256_S528x128 e j (c2 j) rfl
  have b0 := kbias_apply b 0 slices_S384_o0_S128 shapeCasts_S128_S1x128 broadcasts_S1x128_S528x128 e j (c0 j) (Nat.zero_add _).symm
  have b1 := kbias_apply b 128 slices_S384_o128_S128 shapeCasts_S128_S1x128 broadcasts_S1x128_S528x128 e j (c1 j) rfl
  have b2 := kbias_apply b 256 slices_S384_o256_S128 shapeCasts_S128_S1x128 broadcasts_S1x128_S528x128 e j (c2 j) rfl
  unfold kcell cellAt
  simp only [mulf_apply, subf_apply, addf_apply, logistic_apply, tanh_apply, broadcast_apply, s0, s1, s2, b0, b1, b2]
  rw [show (Scalar.ofBits .f32 0x3F800000#32 : Ideal .f32) = 1 from ofBits_one]

/-! ## The reference's cell -/

/-- A hidden bias's block from offset o, laid along a row and repeated down the 131072 rows, reads at (r, j) the bias at o + j. -/
theorem rbias_apply (b : FVec Ideal Cert.ReferenceIdeal.S384 .f32) (o : Nat) (h1 : Cert.ReferenceIdeal.S384.Slices ![o] Cert.ReferenceIdeal.S128)
    (h2 : Cert.ReferenceIdeal.S128.BroadcastsInDim Cert.ReferenceIdeal.S1x128 (![1] : Fin 1 → Fin Cert.ReferenceIdeal.S1x128.rank))
    (h3 : Cert.ReferenceIdeal.S1x128.BroadcastsInDim Cert.ReferenceIdeal.S131072x128 (![0, 1] : Fin 2 → Fin Cert.ReferenceIdeal.S131072x128.rank))
    (r : Fin 131072) (j : Fin 128) (k : Fin 384) (hk : k.val = o + j.val) :
    broadcastInDim Cert.ReferenceIdeal.S131072x128 ![0, 1] h3
        (broadcastInDim Cert.ReferenceIdeal.S1x128 ![1] h2 (extractStridedSlice Cert.ReferenceIdeal.S128 ![o] b h1)) (ix2 r j)
      = b (ix1 k) :=
  (broadcastInDim_apply _ h3 _ (ix2 r j) (ix2 (0 : Fin 1) j) (fun a => by
      match a with
      | ⟨0, _⟩ => rfl
      | ⟨1, _⟩ => rfl)).trans
    ((broadcastInDim_apply _ h2 _ (ix2 (0 : Fin 1) j) (ix1 j) (fun a => by
      match a with
      | ⟨0, _⟩ => rfl)).trans
    (extractStridedSlice_apply _ b h1 (ix1 j) (ix1 k) (fun a => by match a with | ⟨0, _⟩ => exact hk)))

/-- The constant one, repeated over the 131072 × 128 array. -/
theorem rone_apply (h : Cert.ReferenceIdeal.S_.BroadcastsInDim Cert.ReferenceIdeal.S131072x128 (![] : Fin 0 → Fin Cert.ReferenceIdeal.S131072x128.rank))
    (i : Cert.ReferenceIdeal.S131072x128.Idx) :
    broadcastInDim Cert.ReferenceIdeal.S131072x128 ![] h (constant (F := Ideal) Cert.ReferenceIdeal.S_ .f32 0x3F800000#32) i = 1 :=
  (broadcastInDim_apply _ h _ i ix0 (fun a => a.elim0)).trans ofBits_one

/-- The reference's cell at row r, unit j, from that row's gate sums. -/
theorem rcell_apply (gi : FVec Ideal Cert.ReferenceIdeal.S131072x384 .f32) (b : FVec Ideal Cert.ReferenceIdeal.S384 .f32) (r : Fin 131072) (j : Fin 128) :
    Cert.ReferenceIdeal.RefT.cell (F := Ideal) gi b (ix2 r j)
      = cellAt (gi (ix2 r (c0 j))) (gi (ix2 r (c1 j))) (gi (ix2 r (c2 j))) (b (ix1 (c0 j))) (b (ix1 (c1 j))) (b (ix1 (c2 j))) := by
  have s0 := slice2_axis1_apply 0 gi Cert.ReferenceIdeal.Gen.slices_S131072x384_S131072x128_0_0 r j (c0 j) (Nat.zero_add _).symm
  have s1 := slice2_axis1_apply 128 gi Cert.ReferenceIdeal.Gen.slices_S131072x384_S131072x128_0_128 r j (c1 j) rfl
  have s2 := slice2_axis1_apply 256 gi Cert.ReferenceIdeal.Gen.slices_S131072x384_S131072x128_0_256 r j (c2 j) rfl
  have b0 := rbias_apply b 0 Cert.ReferenceIdeal.Gen.slices_S384_S128_0 Cert.ReferenceIdeal.Gen.bcast_S128_S1x128_1 Cert.ReferenceIdeal.Gen.bcast_S1x128_S131072x128_0_1 r j (c0 j) (Nat.zero_add _).symm
  have b1 := rbias_apply b 128 Cert.ReferenceIdeal.Gen.slices_S384_S128_128 Cert.ReferenceIdeal.Gen.bcast_S128_S1x128_1 Cert.ReferenceIdeal.Gen.bcast_S1x128_S131072x128_0_1 r j (c1 j) rfl
  have b2 := rbias_apply b 256 Cert.ReferenceIdeal.Gen.slices_S384_S128_256 Cert.ReferenceIdeal.Gen.bcast_S128_S1x128_1 Cert.ReferenceIdeal.Gen.bcast_S1x128_S131072x128_0_1 r j (c2 j) rfl
  have one := rone_apply Cert.ReferenceIdeal.Gen.bcast_S_S131072x128 (ix2 r j)
  unfold Cert.ReferenceIdeal.RefT.cell cellAt Ideal.logistic
  simp only [mulf_apply, subf_apply, addf_apply, hostDivf_apply, hostExp_apply, hostNegf_apply, hostTanh_apply, s0, s1, s2, b0, b1, b2, one]

/-- ONE CELL, ROW BY ROW: if row e of the kernel-side gate sums is row r of the reference-side gate sums, the two cells'
    outputs agree there. -/
theorem cell_row (g : FVec Ideal S528x384 .f32) (gi : FVec Ideal Cert.ReferenceIdeal.S131072x384 .f32) (b : FVec Ideal S384 .f32)
    (e : Fin 528) (r : Fin 131072) (hg : ∀ u : Fin 384, g (ix2 e u) = gi (ix2 r u)) (j : Fin 128) :
    kcell g b (ix2 e j) = Cert.ReferenceIdeal.RefT.cell (F := Ideal) gi b (ix2 r j) := by
  rw [kcell_apply, rcell_apply, hg, hg, hg]

/-! ## The gate sums: a row of the input against a row of the weights -/

/-- The kernel's product contracts the input's columns against the weights' columns: its dimension numbers, named. -/
abbrev KD : DotDims S528x128 S384x128 S528x384 := dot_S528x128_S384x128_S528x384_1_1_0_0_n_n

/-- The left operand is read at the output's row … -/
theorem klhs_0 (i : S528x384.Idx) (q : KD.contr.Idx) : (KD.lhsIdx i q 0).val = (i 0).val := by
  unfold DotDims.lhsIdx
  rw [dif_neg (show ¬(0 : Fin S528x128.rank) ∈ KD.lhsBatch by decide),
    dif_pos (show (0 : Fin S528x128.rank) ∈ KD.lhsNonContracting by decide)]
  rfl
/-- … and the contracted column; -/
theorem klhs_1 (i : S528x384.Idx) (q : KD.contr.Idx) : (KD.lhsIdx i q 1).val = (q ⟨0, by decide⟩).val :=
  KD.lhsIdx_val_of_single rfl i q
/-- the right operand at the output's column, as its row, … -/
theorem krhs_0 (i : S528x384.Idx) (q : KD.contr.Idx) : (KD.rhsIdx i q 0).val = (i 1).val := by
  unfold DotDims.rhsIdx
  rw [dif_neg (show ¬(0 : Fin S384x128.rank) ∈ KD.rhsBatch by decide),
    dif_pos (show (0 : Fin S384x128.rank) ∈ KD.rhsNonContracting by decide)]
  rfl
/-- … and the contracted column. -/
theorem krhs_1 (i : S528x384.Idx) (q : KD.contr.Idx) : (KD.rhsIdx i q 1).val = (q ⟨0, by decide⟩).val :=
  KD.rhsIdx_val_of_single rfl i q

/-- The kernel's product into the zero array at (e, u): the sum over the 128 columns of x[e, k] · w[u, k]. -/
theorem kmatmul_apply (x : FVec Ideal S528x128 .bf16) (w : FVec Ideal S384x128 .bf16) (e : Fin 528) (u : Fin 384) :
    matmul KD none x w (constant S528x384 .f32 0x00000000#32) (ix2 e u) = ∑ k : Fin 128, x (ix2 e k) * w (ix2 u k) := by
  simp only [matmul]
  rw [Ideal.matmul_constant_zero_apply, ← Equiv.sum_comp (contrEquiv1 KD 128 rfl rfl).symm]
  refine Finset.sum_congr rfl fun k _ => ?_
  have hk := contrEquiv1_symm_val KD 128 rfl rfl k
  have el : KD.lhsIdx (ix2 e u) ((contrEquiv1 KD 128 rfl rfl).symm k) = ix2 e k := funext fun a => Fin.ext (by
    match a with
    | ⟨0, _⟩ => exact klhs_0 _ _
    | ⟨1, _⟩ => exact (klhs_1 _ _).trans hk)
  have er : KD.rhsIdx (ix2 e u) ((contrEquiv1 KD 128 rfl rfl).symm k) = ix2 u k := funext fun a => Fin.ext (by
    match a with
    | ⟨0, _⟩ => exact krhs_0 _ _
    | ⟨1, _⟩ => exact (krhs_1 _ _).trans hk)
  rw [el, er]

/-- A gate bias laid along a row and repeated down the 528 rows reads at (e, u) the bias at u. -/
theorem kgbias_apply (b : FVec Ideal S384 .f32) (h2 : S384.ShapeCasts S1x384) (h3 : S1x384.Broadcasts S528x384) (e : Fin 528) (u : Fin 384) :
    broadcastTo S528x384 (shapeCast S1x384 b h2) h3 (ix2 e u) = b (ix1 u) :=
  (broadcastTo_1b_ab_apply _ h3 e u).trans (shapeCast_a_1a_apply _ h2 0 u)

/-- The kernel's gate sums are the product of the extended rows with the weights, plus the gate bias. -/
theorem k0_pay4_eq (xp : Vec Ideal S8x128 .f32) (xm : Vec Ideal S512x128 .f32) (xn : Vec Ideal S8x128 .f32) (w : Vec Ideal S384x128 .f32) (b : Vec Ideal S384 .f32) :
    k0_pay4 xp xm xn w b
      = addf (matmul KD none (truncf .bf16 (Tile.ext xp xm xn) bitsLt_bf16_f32) (truncf .bf16 w bitsLt_bf16_f32) (constant S528x384 .f32 0x00000000#32))
          (broadcastTo S528x384 (shapeCast S1x384 b shapeCasts_S384_S1x384) broadcasts_S1x384_S528x384) := rfl

/-- The kernel's gate sums at extended row e, gate column u: ∑ₖ ext[e, k] · w[u, k] + b[u]. -/
theorem kgates_apply (xp : Vec Ideal S8x128 .f32) (xm : Vec Ideal S512x128 .f32) (xn : Vec Ideal S8x128 .f32) (w : Vec Ideal S384x128 .f32) (b : Vec Ideal S384 .f32)
    (e : Fin 528) (u : Fin 384) :
    k0_pay4 xp xm xn w b (ix2 e u) = (∑ k : Fin 128, Tile.ext xp xm xn (ix2 e k) * w (ix2 u k)) + b (ix1 u) := by
  rw [k0_pay4_eq, addf_apply, kmatmul_apply, kgbias_apply]
  rfl

/-- The reference's product contracts the input's columns against the transposed weights' rows: its dimension numbers, named. -/
abbrev RD : DotDims Cert.ReferenceIdeal.S131072x128 Cert.ReferenceIdeal.S128x384 Cert.ReferenceIdeal.S131072x384 :=
  Cert.ReferenceIdeal.dot_S131072x128_S128x384_S131072x384_1_0_0_1_n_n

/-- The left operand is read at the output's row … -/
theorem rlhs_0 (i : Cert.ReferenceIdeal.S131072x384.Idx) (q : RD.contr.Idx) : (RD.lhsIdx i q 0).val = (i 0).val := by
  unfold DotDims.lhsIdx
  rw [dif_neg (show ¬(0 : Fin Cert.ReferenceIdeal.S131072x128.rank) ∈ RD.lhsBatch by decide),
    dif_pos (show (0 : Fin Cert.ReferenceIdeal.S131072x128.rank) ∈ RD.lhsNonContracting by decide)]
  rfl
/-- … and the contracted column; -/
theorem rlhs_1 (i : Cert.ReferenceIdeal.S131072x384.Idx) (q : RD.contr.Idx) : (RD.lhsIdx i q 1).val = (q ⟨0, by decide⟩).val :=
  RD.lhsIdx_val_of_single rfl i q
/-- the right operand at the contracted row … -/
theorem rrhs_0 (i : Cert.ReferenceIdeal.S131072x384.Idx) (q : RD.contr.Idx) : (RD.rhsIdx i q 0).val = (q ⟨0, by decide⟩).val :=
  RD.rhsIdx_val_of_single rfl i q
/-- … and the output's column. -/
theorem rrhs_1 (i : Cert.ReferenceIdeal.S131072x384.Idx) (q : RD.contr.Idx) : (RD.rhsIdx i q 1).val = (i 1).val := by
  unfold DotDims.rhsIdx
  rw [dif_neg (show ¬(1 : Fin Cert.ReferenceIdeal.S128x384.rank) ∈ RD.rhsBatch by decide),
    dif_pos (show (1 : Fin Cert.ReferenceIdeal.S128x384.rank) ∈ RD.rhsNonContracting by decide)]
  rfl

/-- The reference's product at (r, u): the sum over the 128 columns of x[r, k] · wᵀ[k, u]. -/
theorem rdot_apply (x : FVec Ideal Cert.ReferenceIdeal.S131072x128 .f32) (wt : FVec Ideal Cert.ReferenceIdeal.S128x384 .f32) (r : Fin 131072) (u : Fin 384) :
    Host.dotGeneral RD none x wt (ix2 r u) = ∑ k : Fin 128, x (ix2 r k) * wt (ix2 k u) := by
  simp only [Host.dotGeneral]
  rw [Ideal.dotGeneral_apply, ← Equiv.sum_comp (contrEquiv1 RD 128 rfl rfl).symm]
  refine Finset.sum_congr rfl fun k _ => ?_
  have hk := contrEquiv1_symm_val RD 128 rfl rfl k
  have el : RD.lhsIdx (ix2 r u) ((contrEquiv1 RD 128 rfl rfl).symm k) = ix2 r k := funext fun a => Fin.ext (by
    match a with
    | ⟨0, _⟩ => exact rlhs_0 _ _
    | ⟨1, _⟩ => exact (rlhs_1 _ _).trans hk)
  have er : RD.rhsIdx (ix2 r u) ((contrEquiv1 RD 128 rfl rfl).symm k) = ix2 k u := funext fun a => Fin.ext (by
    match a with
    | ⟨0, _⟩ => exact (rrhs_0 _ _).trans hk
    | ⟨1, _⟩ => exact rrhs_1 _ _)
  rw [el, er]

/-- A gate bias laid along a row and repeated down the 131072 rows reads at (r, u) the bias at u. -/
theorem rgbias_apply (b : FVec Ideal Cert.ReferenceIdeal.S384 .f32)
    (h2 : Cert.ReferenceIdeal.S384.BroadcastsInDim Cert.ReferenceIdeal.S1x384 (![1] : Fin 1 → Fin Cert.ReferenceIdeal.S1x384.rank))
    (h3 : Cert.ReferenceIdeal.S1x384.BroadcastsInDim Cert.ReferenceIdeal.S131072x384 (![0, 1] : Fin 2 → Fin Cert.ReferenceIdeal.S131072x384.rank))
    (r : Fin 131072) (u : Fin 384) :
    broadcastInDim Cert.ReferenceIdeal.S131072x384 ![0, 1] h3 (broadcastInDim Cert.ReferenceIdeal.S1x384 ![1] h2 b) (ix2 r u) = b (ix1 u) :=
  (broadcastInDim_apply _ h3 _ (ix2 r u) (ix2 (0 : Fin 1) u) (fun a => by
      match a with
      | ⟨0, _⟩ => rfl
      | ⟨1, _⟩ => rfl)).trans
    (broadcastInDim_apply _ h2 _ (ix2 (0 : Fin 1) u) (ix1 u) (fun a => by
      match a with
      | ⟨0, _⟩ => rfl))

/-- The reference's gate sums at row r, gate column u: ∑ₖ X[r, k] · w[u, k] + b[u]. -/
theorem rgates_apply (X : FVec Ideal Cert.ReferenceIdeal.S131072x128 .f32) (w : FVec Ideal Cert.ReferenceIdeal.S384x128 .f32) (b : FVec Ideal Cert.ReferenceIdeal.S384 .f32)
    (r : Fin 131072) (u : Fin 384) :
    Cert.ReferenceIdeal.RefT.gates1 (F := Ideal) X w b (ix2 r u) = (∑ k : Fin 128, X (ix2 r k) * w (ix2 u k)) + b (ix1 u) := by
  unfold Cert.ReferenceIdeal.RefT.gates1
  rw [addf_apply, rdot_apply, rgbias_apply]
  congr 1
  exact Finset.sum_congr rfl fun k _ => by rw [transpose_ix2_apply]

/-- THE GATE SUMS, ROW BY ROW: where extended row e of the tile's input is row r of the array, the kernel's gate sums on
    row e are the reference's on row r. -/
theorem gates_row (xp : Vec Ideal S8x128 .f32) (xm : Vec Ideal S512x128 .f32) (xn : Vec Ideal S8x128 .f32) (X : Vec Ideal S131072x128 .f32)
    (w : Vec Ideal S384x128 .f32) (b : Vec Ideal S384 .f32) (e : Fin 528) (r : Fin 131072)
    (hx : ∀ k : Fin 128, Tile.ext xp xm xn (ix2 e k) = X (ix2 r k)) (u : Fin 384) :
    k0_pay4 xp xm xn w b (ix2 e u) = Cert.ReferenceIdeal.RefT.gates1 (F := Ideal) X w b (ix2 r u) := by
  rw [kgates_apply, rgates_apply]
  congr 1
  exact Finset.sum_congr rfl fun k _ => by rw [hx k]

/-! ## The layer: the forward cell's 128 columns beside the backward cell's -/

/-- The forward cell's output is the kernel's cell on the forward gate sums. -/
theorem k0_pay3_eq (xp : Vec Ideal S8x128 .f32) (xm : Vec Ideal S512x128 .f32) (xn : Vec Ideal S8x128 .f32) (w : Vec Ideal S384x128 .f32) (b h : Vec Ideal S384 .f32) :
    k0_pay3 xp xm xn w b h = kcell (k0_pay4 xp xm xn w b) h := rfl

/-- The layer's output is the forward output beside the kernel's cell on the backward gate sums. -/
theorem k0_pay5_eq (v34 : FVec Ideal S528x128 .f32) (v42 : FVec Ideal S528x384 .f32) (h : Vec Ideal S384 .f32) :
    k0_pay5 v34 v42 h
      = concatenate S528x256 1 [⟨S528x128, v34⟩, ⟨S528x128, kcell v42 h⟩] concatenates_S528x128_S528x128_S528x256_d1 := rfl

/-- Two 528 × 128 arrays side by side read, at a column below 128, the first … -/
theorem kpair_left (a b : FVec Ideal S528x128 .f32) (h : Shape.Concatenates [S528x128, S528x128] S528x256 1) (e : Fin 528) (j : Fin 256) (hj : j.val < 128) :
    concatenate S528x256 1 [⟨S528x128, a⟩, ⟨S528x128, b⟩] h (ix2 e j) = a (ix2 e ⟨j.val, hj⟩) :=
  concatenate_pair_apply_left 1 a b h (ix2 e j) rfl (ix2 e ⟨j.val, hj⟩) (fun c => by
    match c with
    | ⟨0, _⟩ => rfl
    | ⟨1, _⟩ => rfl)
/-- … and, at a column from 128 on, the second at that column less 128. -/
theorem kpair_right (a b : FVec Ideal S528x128 .f32) (h : Shape.Concatenates [S528x128, S528x128] S528x256 1) (e : Fin 528) (j : Fin 256) (hj : 128 ≤ j.val) :
    concatenate S528x256 1 [⟨S528x128, a⟩, ⟨S528x128, b⟩] h (ix2 e j) = b (ix2 e ⟨j.val - 128, by omega⟩) :=
  concatenate_pair_apply_right 1 a b h (ix2 e j) rfl rfl (ix2 e ⟨j.val - 128, by omega⟩) (fun c hc => by
    match c with
    | ⟨0, _⟩ => rfl
    | ⟨1, _⟩ => exact absurd rfl hc) (by show (j.val - 128) + 128 = j.val; omega)

/-- The same for two 131072 × 128 arrays. -/
theorem rpair_left (a b : FVec Ideal Cert.ReferenceIdeal.S131072x128 .f32) (r : Fin 131072) (j : Fin 256) (hj : j.val < 128) :
    Cert.ReferenceIdeal.RefT.pair (F := Ideal) a b (ix2 r j) = a (ix2 r ⟨j.val, hj⟩) :=
  concatenate_pair_apply_left 1 a b _ (ix2 r j) rfl (ix2 r ⟨j.val, hj⟩) (fun c => by
    match c with
    | ⟨0, _⟩ => rfl
    | ⟨1, _⟩ => rfl)
theorem rpair_right (a b : FVec Ideal Cert.ReferenceIdeal.S131072x128 .f32) (r : Fin 131072) (j : Fin 256) (hj : 128 ≤ j.val) :
    Cert.ReferenceIdeal.RefT.pair (F := Ideal) a b (ix2 r j) = b (ix2 r ⟨j.val - 128, by omega⟩) :=
  concatenate_pair_apply_right 1 a b _ (ix2 r j) rfl rfl (ix2 r ⟨j.val - 128, by omega⟩) (fun c hc => by
    match c with
    | ⟨0, _⟩ => rfl
    | ⟨1, _⟩ => exact absurd rfl hc) (by show (j.val - 128) + 128 = j.val; omega)

/-- Row e of the tile's first recurrent layer is row r of the reference's, when row e of the tile's input is row r
    of the reference's. -/
theorem layer1_row (xp : Vec Ideal S8x128 .f32) (xm : Vec Ideal S512x128 .f32) (xn : Vec Ideal S8x128 .f32)
    (X : Vec Ideal S131072x128 .f32) (wf1 : Vec Ideal S384x128 .f32) (uf1 hf1 : Vec Ideal S384 .f32) (wb1 : Vec Ideal S384x128 .f32) (ub1 hb1 : Vec Ideal S384 .f32)
    (e : Fin 528) (r : Fin 131072)
    (hx : ∀ k : Fin 128, Tile.ext xp xm xn (ix2 e k) = X (ix2 r k)) (j : Fin 256) :
    Tile.h1 xp xm xn wf1 uf1 hf1 wb1 ub1 hb1 (ix2 e j) = Cert.ReferenceIdeal.RefT.layer1 X wf1 uf1 hf1 wb1 ub1 hb1 (ix2 r j) := by
  unfold Tile.h1 Cert.ReferenceIdeal.RefT.layer1
  rw [k0_pay5_eq]
  by_cases hj : j.val < 128
  · rw [kpair_left _ _ _ e j hj, rpair_left _ _ r j hj, k0_pay3_eq]
    exact cell_row _ _ hf1 e r (gates_row xp xm xn X wf1 uf1 e r hx) _
  · have hj' : 128 ≤ j.val := Nat.le_of_not_lt hj
    rw [kpair_right _ _ _ e j hj', rpair_right _ _ r j hj']
    exact cell_row _ _ hb1 e r (gates_row xp xm xn X wb1 ub1 e r hx) _

end Cert.Proof.StageA

end
-- ==== Proof.StageB.lean ====
/-
  The second recurrent layer and the first feature transform are row-local too: if extended row e of the tile's
  first-layer output holds row r of an array H₁, then row e of the tile's transformed features holds row r of
  (second layer of H₁) · W_g1.  Per row: gates h · Wᵀ + b over the 256 columns, the cell, the pair, then a sum over
  the 256 columns against W_g1.
-/
import proofs.«114131_j67370857005464_1_alg».proof.Proof.Tile
import proofs.«114131_j67370857005464_1_alg».proof.Proof.RefTerms
import Idealize.ShloMosaic.Lib.ValueIdx
import Idealize.ShloMosaic.Lib.ValueLayout
import Idealize.ShloMosaic.Lib.Pipeline.Value
import Idealize.ShloMosaic.PureOps.Ideal.Laws

noncomputable section

namespace Cert.Proof.StageB

open Idealize.ShloMosaic Idealize.ShloMosaic.ValueIdx Cert.KernelIdeal Cert.KernelIdeal.Gen

/-! ## Layout operations at an index -/

section Layout
variable {α : Type}

/-- A vector cut from position `o` reads, at `c`, the source at `o + c`. -/
private theorem slice1_eq {n m : Nat} (o : Nat) (b : (⟨1, ![n]⟩ : Shape).Idx → α)
    (h : (⟨1, ![n]⟩ : Shape).Slices ![o] ⟨1, ![m]⟩) (c : Fin m) :
    extractStridedSlice ⟨1, ![m]⟩ ![o] b h (ix1 c)
      = b (ix1 ⟨o + c.val, Nat.lt_of_lt_of_le (Nat.add_lt_add_left c.isLt o) (h.2 0)⟩) :=
  extractStridedSlice_apply _ _ _ _ _ (fun ax => by
    match ax with
    | ⟨0, _⟩ => rfl)

/-- A vector laid out as one row and repeated down `a` rows reads, at `(p, c)`, the vector at `c`. -/
private theorem rowOf_apply {a b : Nat} (v : (⟨1, ![b]⟩ : Shape).Idx → α)
    (hs : (⟨1, ![b]⟩ : Shape).ShapeCasts ⟨2, ![1, b]⟩) (hb : (⟨2, ![1, b]⟩ : Shape).Broadcasts ⟨2, ![a, b]⟩)
    (p : Fin a) (c : Fin b) :
    broadcastTo ⟨2, ![a, b]⟩ (shapeCast ⟨2, ![1, b]⟩ v hs) hb (ix2 p c) = v (ix1 c) :=
  (broadcastTo_1b_ab_apply _ hb p c).trans (shapeCast_a_1a_apply v hs 0 c)

/-- The same through two `broadcast_in_dim`s: `[b] → [1, b]` on axis 1, then `[1, b] → [a, b]`. -/
private theorem rowOfInDim_apply {a b : Nat} (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (p : Fin a) (c : Fin b) :
    broadcastInDim ⟨2, ![a, b]⟩ ![0, 1] h2 (broadcastInDim ⟨2, ![1, b]⟩ ![1] h1 v) (ix2 p c) = v (ix1 c) := by
  refine (broadcastInDim_apply _ h2 _ (ix2 p c) (ix2 (0 : Fin 1) c) fun ax => ?_).trans
    (broadcastInDim_apply _ h1 v (ix2 (0 : Fin 1) c) (ix1 c) fun ax => ?_)
  · match ax with
    | ⟨0, _⟩ => rfl
    | ⟨1, _⟩ =>
      show c.val = if b = 1 then 0 else c.val
      split
      · have := c.isLt; omega
      · rfl
  · match ax with
    | ⟨0, _⟩ =>
      show c.val = if b = 1 then 0 else c.val
      split
      · have := c.isLt; omega
      · rfl

end Layout

/-! ## The four contractions at an index

Each of the tile's two products and of the reference's two products contracts one axis of extent 256; read at an
output index it is the sum over that axis's coordinate `k` of the two operands' product. The tile's gate product
contracts the weights' axis 1 (the weights are used untransposed), the reference's contracts axis 0 of the transposed
weights: both read the weight at `(unit, k)`. -/

section Contractions

private theorem lhs_kg_0 (i : S528x384.Idx) (q : dot_S528x256_S384x256_S528x384_1_1_0_0_n_n.contr.Idx) :
    (dot_S528x256_S384x256_S528x384_1_1_0_0_n_n.lhsIdx i q 0).val = (i 0).val := by
  unfold DotDims.lhsIdx
  rw [dif_neg (show ¬(0 : Fin S528x256.rank) ∈ dot_S528x256_S384x256_S528x384_1_1_0_0_n_n.lhsBatch by decide), dif_pos (show (0 : Fin S528x256.rank) ∈ dot_S528x256_S384x256_S528x384_1_1_0_0_n_n.lhsNonContracting by decide)]
  rfl
private theorem lhs_kg_1 (i : S528x384.Idx) (q : dot_S528x256_S384x256_S528x384_1_1_0_0_n_n.contr.Idx) :
    (dot_S528x256_S384x256_S528x384_1_1_0_0_n_n.lhsIdx i q 1).val = (q ⟨0, by decide⟩).val :=
  dot_S528x256_S384x256_S528x384_1_1_0_0_n_n.lhsIdx_val_of_single rfl i q
private theorem rhs_kg_0 (i : S528x384.Idx) (q : dot_S528x256_S384x256_S528x384_1_1_0_0_n_n.contr.Idx) :
    (dot_S528x256_S384x256_S528x384_1_1_0_0_n_n.rhsIdx i q 0).val = (i 1).val := by
  unfold DotDims.rhsIdx
  rw [dif_neg (show ¬(0 : Fin S384x256.rank) ∈ dot_S528x256_S384x256_S528x384_1_1_0_0_n_n.rhsBatch by decide), dif_pos (show (0 : Fin S384x256.rank) ∈ dot_S528x256_S384x256_S528x384_1_1_0_0_n_n.rhsNonContracting by decide)]
  rfl
private theorem rhs_kg_1 (i : S528x384.Idx) (q : dot_S528x256_S384x256_S528x384_1_1_0_0_n_n.contr.Idx) :
    (dot_S528x256_S384x256_S528x384_1_1_0_0_n_n.rhsIdx i q 1).val = (q ⟨0, by decide⟩).val :=
  dot_S528x256_S384x256_S528x384_1_1_0_0_n_n.rhsIdx_val_of_single rfl i q

private theorem lhs_kx_0 (i : S528x128.Idx) (q : dot_S528x256_S256x128_S528x128_1_0_0_1_n_n.contr.Idx) :
    (dot_S528x256_S256x128_S528x128_1_0_0_1_n_n.lhsIdx i q 0).val = (i 0).val := by
  unfold DotDims.lhsIdx
  rw [dif_neg (show ¬(0 : Fin S528x256.rank) ∈ dot_S528x256_S256x128_S528x128_1_0_0_1_n_n.lhsBatch by decide), dif_pos (show (0 : Fin S528x256.rank) ∈ dot_S528x256_S256x128_S528x128_1_0_0_1_n_n.lhsNonContracting by decide)]
  rfl
private theorem lhs_kx_1 (i : S528x128.Idx) (q : dot_S528x256_S256x128_S528x128_1_0_0_1_n_n.contr.Idx) :
    (dot_S528x256_S256x128_S528x128_1_0_0_1_n_n.lhsIdx i q 1).val = (q ⟨0, by decide⟩).val :=
  dot_S528x256_S256x128_S528x128_1_0_0_1_n_n.lhsIdx_val_of_single rfl i q
private theorem rhs_kx_0 (i : S528x128.Idx) (q : dot_S528x256_S256x128_S528x128_1_0_0_1_n_n.contr.Idx) :
    (dot_S528x256_S256x128_S528x128_1_0_0_1_n_n.rhsIdx i q 0).val = (q ⟨0, by decide⟩).val :=
  dot_S528x256_S256x128_S528x128_1_0_0_1_n_n.rhsIdx_val_of_single rfl i q
private theorem rhs_kx_1 (i : S528x128.Idx) (q : dot_S528x256_S256x128_S528x128_1_0_0_1_n_n.contr.Idx) :
    (dot_S528x256_S256x128_S528x128_1_0_0_1_n_n.rhsIdx i q 1).val = (i 1).val := by
  unfold DotDims.rhsIdx
  rw [dif_neg (show ¬(1 : Fin S256x128.rank) ∈ dot_S528x256_S256x128_S528x128_1_0_0_1_n_n.rhsBatch by decide), dif_pos (show (1 : Fin S256x128.rank) ∈ dot_S528x256_S256x128_S528x128_1_0_0_1_n_n.rhsNonContracting by decide)]
  rfl

private theorem lhs_rg_0 (i : Cert.ReferenceIdeal.S131072x384.Idx) (q : Cert.ReferenceIdeal.dot_S131072x256_S256x384_S131072x384_1_0_0_1_n_n.contr.Idx) :
    (Cert.ReferenceIdeal.dot_S131072x256_S256x384_S131072x384_1_0_0_1_n_n.lhsIdx i q 0).val = (i 0).val := by
  unfold DotDims.lhsIdx
  rw [dif_neg (show ¬(0 : Fin Cert.ReferenceIdeal.S131072x256.rank) ∈ Cert.ReferenceIdeal.dot_S131072x256_S256x384_S131072x384_1_0_0_1_n_n.lhsBatch by decide), dif_pos (show (0 : Fin Cert.ReferenceIdeal.S131072x256.rank) ∈ Cert.ReferenceIdeal.dot_S131072x256_S256x384_S131072x384_1_0_0_1_n_n.lhsNonContracting by decide)]
  rfl
private theorem lhs_rg_1 (i : Cert.ReferenceIdeal.S131072x384.Idx) (q : Cert.ReferenceIdeal.dot_S131072x256_S256x384_S131072x384_1_0_0_1_n_n.contr.Idx) :
    (Cert.ReferenceIdeal.dot_S131072x256_S256x384_S131072x384_1_0_0_1_n_n.lhsIdx i q 1).val = (q ⟨0, by decide⟩).val :=
  Cert.ReferenceIdeal.dot_S131072x256_S256x384_S131072x384_1_0_0_1_n_n.lhsIdx_val_of_single rfl i q
private theorem rhs_rg_0 (i : Cert.ReferenceIdeal.S131072x384.Idx) (q : Cert.ReferenceIdeal.dot_S131072x256_S256x384_S131072x384_1_0_0_1_n_n.contr.Idx) :
    (Cert.ReferenceIdeal.dot_S131072x256_S256x384_S131072x384_1_0_0_1_n_n.rhsIdx i q 0).val = (q ⟨0, by decide⟩).val :=
  Cert.ReferenceIdeal.dot_S131072x256_S256x384_S131072x384_1_0_0_1_n_n.rhsIdx_val_of_single rfl i q
private theorem rhs_rg_1 (i : Cert.ReferenceIdeal.S131072x384.Idx) (q : Cert.ReferenceIdeal.dot_S131072x256_S256x384_S131072x384_1_0_0_1_n_n.contr.Idx) :
    (Cert.ReferenceIdeal.dot_S131072x256_S256x384_S131072x384_1_0_0_1_n_n.rhsIdx i q 1).val = (i 1).val := by
  unfold DotDims.rhsIdx
  rw [dif_neg (show ¬(1 : Fin Cert.ReferenceIdeal.S256x384.rank) ∈ Cert.ReferenceIdeal.dot_S131072x256_S256x384_S131072x384_1_0_0_1_n_n.rhsBatch by decide), dif_pos (show (1 : Fin Cert.ReferenceIdeal.S256x384.rank) ∈ Cert.ReferenceIdeal.dot_S131072x256_S256x384_S131072x384_1_0_0_1_n_n.rhsNonContracting by decide)]
  rfl

private theorem lhs_rx_0 (i : Cert.ReferenceIdeal.S131072x128.Idx) (q : Cert.ReferenceIdeal.dot_S131072x256_S256x128_S131072x128_1_0_0_1_n_n.contr.Idx) :
    (Cert.ReferenceIdeal.dot_S131072x256_S256x128_S131072x128_1_0_0_1_n_n.lhsIdx i q 0).val = (i 0).val := by
  unfold DotDims.lhsIdx
  rw [dif_neg (show ¬(0 : Fin Cert.ReferenceIdeal.S131072x256.rank) ∈ Cert.ReferenceIdeal.dot_S131072x256_S256x128_S131072x128_1_0_0_1_n_n.lhsBatch by decide), dif_pos (show (0 : Fin Cert.ReferenceIdeal.S131072x256.rank) ∈ Cert.ReferenceIdeal.dot_S131072x256_S256x128_S131072x128_1_0_0_1_n_n.lhsNonContracting by decide)]
  rfl
private theorem lhs_rx_1 (i : Cert.ReferenceIdeal.S131072x128.Idx) (q : Cert.ReferenceIdeal.dot_S131072x256_S256x128_S131072x128_1_0_0_1_n_n.contr.Idx) :
    (Cert.ReferenceIdeal.dot_S131072x256_S256x128_S131072x128_1_0_0_1_n_n.lhsIdx i q 1).val = (q ⟨0, by decide⟩).val :=
  Cert.ReferenceIdeal.dot_S131072x256_S256x128_S131072x128_1_0_0_1_n_n.lhsIdx_val_of_single rfl i q
private theorem rhs_rx_0 (i : Cert.ReferenceIdeal.S131072x128.Idx) (q : Cert.ReferenceIdeal.dot_S131072x256_S256x128_S131072x128_1_0_0_1_n_n.contr.Idx) :
    (Cert.ReferenceIdeal.dot_S131072x256_S256x128_S131072x128_1_0_0_1_n_n.rhsIdx i q 0).val = (q ⟨0, by decide⟩).val :=
  Cert.ReferenceIdeal.dot_S131072x256_S256x128_S131072x128_1_0_0_1_n_n.rhsIdx_val_of_single rfl i q
private theorem rhs_rx_1 (i : Cert.ReferenceIdeal.S131072x128.Idx) (q : Cert.ReferenceIdeal.dot_S131072x256_S256x128_S131072x128_1_0_0_1_n_n.contr.Idx) :
    (Cert.ReferenceIdeal.dot_S131072x256_S256x128_S131072x128_1_0_0_1_n_n.rhsIdx i q 1).val = (i 1).val := by
  unfold DotDims.rhsIdx
  rw [dif_neg (show ¬(1 : Fin Cert.ReferenceIdeal.S256x128.rank) ∈ Cert.ReferenceIdeal.dot_S131072x256_S256x128_S131072x128_1_0_0_1_n_n.rhsBatch by decide), dif_pos (show (1 : Fin Cert.ReferenceIdeal.S256x128.rank) ∈ Cert.ReferenceIdeal.dot_S131072x256_S256x128_S131072x128_1_0_0_1_n_n.rhsNonContracting by decide)]
  rfl

/-- The tile's gate product at `(e, u)`: `∑ k, h[e, k] · w[u, k]`. -/
private theorem kgate_dot_apply {φ₁ φ₂ : FTy} (h : FVec Ideal S528x256 φ₁) (w : FVec Ideal S384x256 φ₂) (e : Fin 528) (u : Fin 384) :
    matmul dot_S528x256_S384x256_S528x384_1_1_0_0_n_n none h w (constant S528x384 .f32 0x00000000#32) (ix2 e u)
      = ∑ k : Fin 256, h (ix2 e k) * w (ix2 u k) := by
  simp only [matmul]
  rw [Ideal.matmul_constant_zero_apply]
  rw [← Equiv.sum_comp (contrEquiv1 dot_S528x256_S384x256_S528x384_1_1_0_0_n_n 256 rfl rfl).symm]
  refine Finset.sum_congr rfl fun k _ => ?_
  have hk := contrEquiv1_symm_val dot_S528x256_S384x256_S528x384_1_1_0_0_n_n 256 rfl rfl k
  have el : dot_S528x256_S384x256_S528x384_1_1_0_0_n_n.lhsIdx (ix2 e u) ((contrEquiv1 dot_S528x256_S384x256_S528x384_1_1_0_0_n_n 256 rfl rfl).symm k) = ix2 e k := funext fun a => Fin.ext (by
    match a with
    | ⟨0, _⟩ => exact lhs_kg_0 _ _
    | ⟨1, _⟩ => exact (lhs_kg_1 _ _).trans hk)
  have er : dot_S528x256_S384x256_S528x384_1_1_0_0_n_n.rhsIdx (ix2 e u) ((contrEquiv1 dot_S528x256_S384x256_S528x384_1_1_0_0_n_n 256 rfl rfl).symm k) = ix2 u k := funext fun a => Fin.ext (by
    match a with
    | ⟨0, _⟩ => exact rhs_kg_0 _ _
    | ⟨1, _⟩ => exact (rhs_kg_1 _ _).trans hk)
  rw [el, er]

/-- The tile's feature product at `(e, j)`: `∑ k, p[e, k] · w[k, j]`. -/
private theorem kxw_dot_apply {φ₁ φ₂ : FTy} (p : FVec Ideal S528x256 φ₁) (w : FVec Ideal S256x128 φ₂) (e : Fin 528) (j : Fin 128) :
    matmul dot_S528x256_S256x128_S528x128_1_0_0_1_n_n none p w (constant S528x128 .f32 0x00000000#32) (ix2 e j)
      = ∑ k : Fin 256, p (ix2 e k) * w (ix2 k j) := by
  simp only [matmul]
  rw [Ideal.matmul_constant_zero_apply]
  rw [← Equiv.sum_comp (contrEquiv1 dot_S528x256_S256x128_S528x128_1_0_0_1_n_n 256 rfl rfl).symm]
  refine Finset.sum_congr rfl fun k _ => ?_
  have hk := contrEquiv1_symm_val dot_S528x256_S256x128_S528x128_1_0_0_1_n_n 256 rfl rfl k
  have el : dot_S528x256_S256x128_S528x128_1_0_0_1_n_n.lhsIdx (ix2 e j) ((contrEquiv1 dot_S528x256_S256x128_S528x128_1_0_0_1_n_n 256 rfl rfl).symm k) = ix2 e k := funext fun a => Fin.ext (by
    match a with
    | ⟨0, _⟩ => exact lhs_kx_0 _ _
    | ⟨1, _⟩ => exact (lhs_kx_1 _ _).trans hk)
  have er : dot_S528x256_S256x128_S528x128_1_0_0_1_n_n.rhsIdx (ix2 e j) ((contrEquiv1 dot_S528x256_S256x128_S528x128_1_0_0_1_n_n 256 rfl rfl).symm k) = ix2 k j := funext fun a => Fin.ext (by
    match a with
    | ⟨0, _⟩ => exact (rhs_kx_0 _ _).trans hk
    | ⟨1, _⟩ => exact rhs_kx_1 _ _)
  rw [el, er]

/-- The reference's gate product at `(r, u)`: `∑ k, H[r, k] · wᵀ[k, u]`. -/
private theorem rgate_dot_apply (H : FVec Ideal Cert.ReferenceIdeal.S131072x256 .f32) (wt : FVec Ideal Cert.ReferenceIdeal.S256x384 .f32) (r : Fin 131072) (u : Fin 384) :
    Host.dotGeneral Cert.ReferenceIdeal.dot_S131072x256_S256x384_S131072x384_1_0_0_1_n_n none H wt (ix2 r u)
      = ∑ k : Fin 256, H (ix2 r k) * wt (ix2 k u) := by
  simp only [Host.dotGeneral]
  rw [Ideal.dotGeneral_apply]
  rw [← Equiv.sum_comp (contrEquiv1 Cert.ReferenceIdeal.dot_S131072x256_S256x384_S131072x384_1_0_0_1_n_n 256 rfl rfl).symm]
  refine Finset.sum_congr rfl fun k _ => ?_
  have hk := contrEquiv1_symm_val Cert.ReferenceIdeal.dot_S131072x256_S256x384_S131072x384_1_0_0_1_n_n 256 rfl rfl k
  have el : Cert.ReferenceIdeal.dot_S131072x256_S256x384_S131072x384_1_0_0_1_n_n.lhsIdx (ix2 r u) ((contrEquiv1 Cert.ReferenceIdeal.dot_S131072x256_S256x384_S131072x384_1_0_0_1_n_n 256 rfl rfl).symm k) = ix2 r k := funext fun a => Fin.ext (by
    match a with
    | ⟨0, _⟩ => exact lhs_rg_0 _ _
    | ⟨1, _⟩ => exact (lhs_rg_1 _ _).trans hk)
  have er : Cert.ReferenceIdeal.dot_S131072x256_S256x384_S131072x384_1_0_0_1_n_n.rhsIdx (ix2 r u) ((contrEquiv1 Cert.ReferenceIdeal.dot_S131072x256_S256x384_S131072x384_1_0_0_1_n_n 256 rfl rfl).symm k) = ix2 k u := funext fun a => Fin.ext (by
    match a with
    | ⟨0, _⟩ => exact (rhs_rg_0 _ _).trans hk
    | ⟨1, _⟩ => exact rhs_rg_1 _ _)
  rw [el, er]

/-- The reference's feature product at `(r, j)`: `∑ k, H[r, k] · w[k, j]`. -/
private theorem rxw_dot_apply (H : FVec Ideal Cert.ReferenceIdeal.S131072x256 .f32) (w : FVec Ideal Cert.ReferenceIdeal.S256x128 .f32) (r : Fin 131072) (j : Fin 128) :
    Host.dotGeneral Cert.ReferenceIdeal.dot_S131072x256_S256x128_S131072x128_1_0_0_1_n_n none H w (ix2 r j)
      = ∑ k : Fin 256, H (ix2 r k) * w (ix2 k j) := by
  simp only [Host.dotGeneral]
  rw [Ideal.dotGeneral_apply]
  rw [← Equiv.sum_comp (contrEquiv1 Cert.ReferenceIdeal.dot_S131072x256_S256x128_S131072x128_1_0_0_1_n_n 256 rfl rfl).symm]
  refine Finset.sum_congr rfl fun k _ => ?_
  have hk := contrEquiv1_symm_val Cert.ReferenceIdeal.dot_S131072x256_S256x128_S131072x128_1_0_0_1_n_n 256 rfl rfl k
  have el : Cert.ReferenceIdeal.dot_S131072x256_S256x128_S131072x128_1_0_0_1_n_n.lhsIdx (ix2 r j) ((contrEquiv1 Cert.ReferenceIdeal.dot_S131072x256_S256x128_S131072x128_1_0_0_1_n_n 256 rfl rfl).symm k) = ix2 r k := funext fun a => Fin.ext (by
    match a with
    | ⟨0, _⟩ => exact lhs_rx_0 _ _
    | ⟨1, _⟩ => exact (lhs_rx_1 _ _).trans hk)
  have er : Cert.ReferenceIdeal.dot_S131072x256_S256x128_S131072x128_1_0_0_1_n_n.rhsIdx (ix2 r j) ((contrEquiv1 Cert.ReferenceIdeal.dot_S131072x256_S256x128_S131072x128_1_0_0_1_n_n 256 rfl rfl).symm k) = ix2 k j := funext fun a => Fin.ext (by
    match a with
    | ⟨0, _⟩ => exact (rhs_rx_0 _ _).trans hk
    | ⟨1, _⟩ => exact rhs_rx_1 _ _)
  rw [el, er]

end Contractions

/-! ## Pointwise operations at an index (definitional at the ideal values) -/

section Pointwise
variable {s : Shape}

private theorem logistic_apply (x : FVec Ideal s .f32) (i : s.Idx) : logistic x i = Ideal.logistic (x i) := rfl
private theorem tanh_apply (x : FVec Ideal s .f32) (i : s.Idx) : tanh x i = Ideal.tanh (x i) := rfl
private theorem hostDivf_apply (a b : FVec Ideal s .f32) (i : s.Idx) : Host.divf a b i = Ideal.div (a i) (b i) := rfl
private theorem hostExp_apply (x : FVec Ideal s .f32) (i : s.Idx) : Host.exp x i = Ideal.exp (x i) := rfl
private theorem hostNegf_apply (x : FVec Ideal s .f32) (i : s.Idx) : Host.negf x i = -(x i) := rfl
private theorem hostTanh_apply (x : FVec Ideal s .f32) (i : s.Idx) : Host.tanh x i = Ideal.tanh (x i) := rfl

/-- The word `0x3F800000` denotes the extended real 1. -/
private theorem one_f32 : Ideal.ofBits .f32 0x3F800000#32 = 1 := IdealRules.sign_bit.ideal_onePat .f32

/-- The reference's splat of 1.0 reads 1 everywhere. -/
private theorem ones_apply (h : Cert.ReferenceIdeal.S_.BroadcastsInDim Cert.ReferenceIdeal.S131072x128 ![])
    (i : Cert.ReferenceIdeal.S131072x128.Idx) :
    broadcastInDim Cert.ReferenceIdeal.S131072x128 ![] h (constant (F := Ideal) Cert.ReferenceIdeal.S_ .f32 0x3F800000#32) i = 1 :=
  one_f32

end Pointwise

/-! ## One gated cell at one unit -/

/-- From the three gate values (reset, update, candidate) and the hidden bias at the same three positions:
    `(1 − σ(g_z + b_z)) · tanh(g_n + σ(g_r + b_r) · b_n)`. -/
private def cell1 (gr gz gn br bz bn : EReal) : EReal :=
  (1 - Ideal.logistic (gz + bz)) * Ideal.tanh (gn + Ideal.logistic (gr + br) * bn)

/-- Column `o + c` of the 384 gate columns. -/
private def gcol (o : Nat) (ho : o + 128 ≤ 384) (c : Fin 128) : Fin 384 := ⟨o + c.val, by have := c.isLt; omega⟩

/-! ## The tile's stages as functions of the first layer's output -/

/-- The tile's gates: `h · wᵀ + b`. -/
private def kgates (h : FVec Ideal S528x256 .f32) (w : Vec Ideal S384x256 .f32) (b : Vec Ideal S384 .f32) : FVec Ideal S528x384 .f32 :=
  addf (matmul dot_S528x256_S384x256_S528x384_1_1_0_0_n_n none (truncf .bf16 h bitsLt_bf16_f32) (truncf .bf16 w bitsLt_bf16_f32) (constant S528x384 .f32 0x00000000#32))
    (broadcastTo S528x384 (shapeCast S1x384 b shapeCasts_S384_S1x384) broadcasts_S1x384_S528x384)

/-- The tile's hidden-bias block `o … o + 127` repeated down the rows. -/
private def kbias (o : Nat) (hb : Vec Ideal S384 .f32) (hs : S384.Slices ![o] S128) : FVec Ideal S528x128 .f32 :=
  broadcastTo S528x128 (shapeCast S1x128 (extractStridedSlice S128 ![o] hb hs) shapeCasts_S128_S1x128) broadcasts_S1x128_S528x128

private def kreset (g : FVec Ideal S528x384 .f32) (hb : Vec Ideal S384 .f32) : FVec Ideal S528x128 .f32 :=
  logistic (addf (extractStridedSlice S528x128 ![0, 0] g slices_S528x384_o0_0_S528x128) (kbias 0 hb slices_S384_o0_S128))
private def kupdate (g : FVec Ideal S528x384 .f32) (hb : Vec Ideal S384 .f32) : FVec Ideal S528x128 .f32 :=
  logistic (addf (extractStridedSlice S528x128 ![0, 128] g slices_S528x384_o0_128_S528x128) (kbias 128 hb slices_S384_o128_S128))
private def kcand (g : FVec Ideal S528x384 .f32) (hb : Vec Ideal S384 .f32) : FVec Ideal S528x128 .f32 :=
  tanh (addf (extractStridedSlice S528x128 ![0, 256] g slices_S528x384_o0_256_S528x128) (mulf (kreset g hb) (kbias 256 hb slices_S384_o256_S128)))
/-- The tile's cell: `(1 − z) · n`. -/
private def kcell (g : FVec Ideal S528x384 .f32) (hb : Vec Ideal S384 .f32) : FVec Ideal S528x128 .f32 :=
  mulf (subf (broadcast S528x128 (Scalar.ofBits (F := Ideal) .f32 0x3F800000#32)) (kupdate g hb)) (kcand g hb)

/-- The tile's second layer and feature transform, as a function of the first layer's output. -/
private def kxw (h : FVec Ideal S528x256 .f32) (wf : Vec Ideal S384x256 .f32) (uf hf : Vec Ideal S384 .f32)
    (wb : Vec Ideal S384x256 .f32) (ub hb : Vec Ideal S384 .f32) (wg : Vec Ideal S256x128 .f32) : FVec Ideal S528x128 .f32 :=
  matmul dot_S528x256_S256x128_S528x128_1_0_0_1_n_n none
    (truncf .bf16 (concatenate S528x256 1 [⟨S528x128, kcell (kgates h wf uf) hf⟩, ⟨S528x128, kcell (kgates h wb ub) hb⟩]
      concatenates_S528x128_S528x128_S528x256_d1) bitsLt_bf16_f32)
    (truncf .bf16 wg bitsLt_bf16_f32) (constant S528x128 .f32 0x00000000#32)

/-- The tile's transformed features are that function of the tile's first-layer output: the update gate and the
    candidate computed ahead recompute the same first-layer output and the same gates. -/
private theorem xw1_eq_kxw (v34 : FVec Ideal S528x128 .f32) (v42 : FVec Ideal S528x384 .f32) (hb1 : Vec Ideal S384 .f32)
    (wf2 : Vec Ideal S384x256 .f32) (uf2 hf2 : Vec Ideal S384 .f32) (wb2 : Vec Ideal S384x256 .f32) (ub2 hb2 : Vec Ideal S384 .f32) (wg1 : Vec Ideal S256x128 .f32) :
    Tile.xw1 v34 v42 hb1 wf2 uf2 hf2 wb2 ub2 hb2 wg1 = kxw (k0_pay5 v34 v42 hb1) wf2 uf2 hf2 wb2 ub2 hb2 wg1 := rfl

/-! ## The tile's stages at an index -/

private theorem kgates_apply (h : FVec Ideal S528x256 .f32) (w : Vec Ideal S384x256 .f32) (b : Vec Ideal S384 .f32)
    (e : Fin 528) (u : Fin 384) :
    kgates h w b (ix2 e u) = (∑ k : Fin 256, h (ix2 e k) * w (ix2 u k)) + b (ix1 u) :=
  calc kgates h w b (ix2 e u)
      = (∑ k : Fin 256, (truncf .bf16 h bitsLt_bf16_f32) (ix2 e k) * (truncf .bf16 w bitsLt_bf16_f32) (ix2 u k)) + b (ix1 u) := by
        unfold kgates
        rw [addf_apply, kgate_dot_apply, rowOf_apply]
    _ = _ := rfl

private theorem kbias_apply (o : Nat) (ho : o + 128 ≤ 384) (hb : Vec Ideal S384 .f32) (hs : S384.Slices ![o] S128)
    (e : Fin 528) (c : Fin 128) : kbias o hb hs (ix2 e c) = hb (ix1 (gcol o ho c)) :=
  (rowOf_apply _ shapeCasts_S128_S1x128 broadcasts_S1x128_S528x128 e c).trans (slice1_eq o hb hs c)

private theorem kslice_apply (o : Nat) (ho : o + 128 ≤ 384) (g : FVec Ideal S528x384 .f32) (hs : S528x384.Slices ![0, o] S528x128)
    (e : Fin 528) (c : Fin 128) : extractStridedSlice S528x128 ![0, o] g hs (ix2 e c) = g (ix2 e (gcol o ho c)) :=
  slice2_axis1_eq o g hs e c

/-- The tile's cell at `(e, c)` is the one-unit cell of the gates at `(e, c)`, `(e, 128 + c)`, `(e, 256 + c)` and the
    hidden bias at `c`, `128 + c`, `256 + c`. -/
private theorem kcell_apply (g : FVec Ideal S528x384 .f32) (hb : Vec Ideal S384 .f32) (e : Fin 528) (c : Fin 128) :
    kcell g hb (ix2 e c)
      = cell1 (g (ix2 e (gcol 0 (by omega) c))) (g (ix2 e (gcol 128 (by omega) c))) (g (ix2 e (gcol 256 (by omega) c)))
          (hb (ix1 (gcol 0 (by omega) c))) (hb (ix1 (gcol 128 (by omega) c))) (hb (ix1 (gcol 256 (by omega) c))) := by
  have h1 : Scalar.ofBits (F := Ideal) .f32 0x3F800000#32 = (1 : EReal) := one_f32
  unfold kcell kcand kupdate kreset cell1
  simp only [mulf_apply, subf_apply, addf_apply, broadcast_apply, logistic_apply, tanh_apply,
    kbias_apply 0 (by omega), kbias_apply 128 (by omega), kbias_apply 256 (by omega),
    kslice_apply 0 (by omega), kslice_apply 128 (by omega), kslice_apply 256 (by omega), h1]

/-! ## The reference's stages at an index -/

private theorem rgates_apply (H : Vec Ideal Cert.ReferenceIdeal.S131072x256 .f32) (w : Vec Ideal Cert.ReferenceIdeal.S384x256 .f32)
    (b : Vec Ideal Cert.ReferenceIdeal.S384 .f32) (r : Fin 131072) (u : Fin 384) :
    Cert.ReferenceIdeal.RefT.gates2 H w b (ix2 r u) = (∑ k : Fin 256, H (ix2 r k) * w (ix2 u k)) + b (ix1 u) := by
  unfold Cert.ReferenceIdeal.RefT.gates2
  rw [addf_apply, rgate_dot_apply, rowOfInDim_apply]
  exact congrArg (· + b (ix1 u)) (Finset.sum_congr rfl fun k _ =>
    congrArg (H (ix2 r k) * ·) (transpose_ix2_apply w _ k u))

private theorem rbias_apply (o : Nat) (ho : o + 128 ≤ 384) (hb : Vec Ideal Cert.ReferenceIdeal.S384 .f32)
    (hs : Cert.ReferenceIdeal.S384.Slices ![o] Cert.ReferenceIdeal.S128)
    (h1 : Cert.ReferenceIdeal.S128.BroadcastsInDim Cert.ReferenceIdeal.S1x128 (![1] : Fin 1 → Fin 2))
    (h2 : Cert.ReferenceIdeal.S1x128.BroadcastsInDim Cert.ReferenceIdeal.S131072x128 (![0, 1] : Fin 2 → Fin 2))
    (r : Fin 131072) (c : Fin 128) :
    broadcastInDim Cert.ReferenceIdeal.S131072x128 ![0, 1] h2 (broadcastInDim Cert.ReferenceIdeal.S1x128 ![1] h1
      (extractStridedSlice Cert.ReferenceIdeal.S128 ![o] hb hs)) (ix2 r c) = hb (ix1 (gcol o ho c)) :=
  (rowOfInDim_apply _ h1 h2 r c).trans (slice1_eq o hb hs c)

private theorem rslice_apply (o : Nat) (ho : o + 128 ≤ 384) (g : FVec Ideal Cert.ReferenceIdeal.S131072x384 .f32)
    (hs : Cert.ReferenceIdeal.S131072x384.Slices ![0, o] Cert.ReferenceIdeal.S131072x128) (r : Fin 131072) (c : Fin 128) :
    extractStridedSlice Cert.ReferenceIdeal.S131072x128 ![0, o] g hs (ix2 r c) = g (ix2 r (gcol o ho c)) :=
  slice2_axis1_eq o g hs r c

/-- The reference's cell at `(r, c)` is the same one-unit cell of its gates and hidden bias: its quotient
    `1 / (1 + e^(−v))` is the logistic function by definition. -/
private theorem rcell_apply (gi : Vec Ideal Cert.ReferenceIdeal.S131072x384 .f32) (hb : Vec Ideal Cert.ReferenceIdeal.S384 .f32)
    (r : Fin 131072) (c : Fin 128) :
    Cert.ReferenceIdeal.RefT.cell gi hb (ix2 r c)
      = cell1 (gi (ix2 r (gcol 0 (by omega) c))) (gi (ix2 r (gcol 128 (by omega) c))) (gi (ix2 r (gcol 256 (by omega) c)))
          (hb (ix1 (gcol 0 (by omega) c))) (hb (ix1 (gcol 128 (by omega) c))) (hb (ix1 (gcol 256 (by omega) c))) := by
  unfold Cert.ReferenceIdeal.RefT.cell cell1 Ideal.logistic
  simp only [mulf_apply, subf_apply, addf_apply, hostDivf_apply, hostExp_apply, hostNegf_apply, hostTanh_apply,
    rbias_apply 0 (by omega), rbias_apply 128 (by omega), rbias_apply 256 (by omega),
    rslice_apply 0 (by omega), rslice_apply 128 (by omega), rslice_apply 256 (by omega)]
  rw [ones_apply]

/-! ## Two blocks of 128 columns side by side -/

section Pair
variable {α : Type}

/-- Left of column 128 the pair reads its first block. -/
private theorem pair_left {n : Nat} (a b : (⟨2, ![n, 128]⟩ : Shape).Idx → α)
    (hc : Shape.Concatenates [(⟨2, ![n, 128]⟩ : Shape), ⟨2, ![n, 128]⟩] ⟨2, ![n, 256]⟩ 1)
    (e : Fin n) (col : Fin 256) (hlt : col.val < 128) :
    concatenate ⟨2, ![n, 256]⟩ 1 [⟨⟨2, ![n, 128]⟩, a⟩, ⟨⟨2, ![n, 128]⟩, b⟩] hc (ix2 e col) = a (ix2 e ⟨col.val, hlt⟩) :=
  concatenate_pair_apply_left 1 a b hc (ix2 e col) rfl (ix2 e ⟨col.val, hlt⟩) fun bx => match bx with
    | ⟨0, _⟩ => rfl
    | ⟨1, _⟩ => rfl

/-- From column 128 on it reads its second block, 128 columns back. -/
private theorem pair_right {n : Nat} (a b : (⟨2, ![n, 128]⟩ : Shape).Idx → α)
    (hc : Shape.Concatenates [(⟨2, ![n, 128]⟩ : Shape), ⟨2, ![n, 128]⟩] ⟨2, ![n, 256]⟩ 1)
    (e : Fin n) (col : Fin 256) (hge : 128 ≤ col.val) :
    concatenate ⟨2, ![n, 256]⟩ 1 [⟨⟨2, ![n, 128]⟩, a⟩, ⟨⟨2, ![n, 128]⟩, b⟩] hc (ix2 e col)
      = b (ix2 e ⟨col.val - 128, by have := col.isLt; omega⟩) :=
  concatenate_pair_apply_right 1 a b hc (ix2 e col) rfl rfl (ix2 e ⟨col.val - 128, by have := col.isLt; omega⟩)
    (fun bx hb => match bx, hb with
      | ⟨0, _⟩, _ => rfl
      | ⟨1, _⟩, hb => absurd rfl hb)
    (by show col.val - 128 + 128 = col.val; omega)

end Pair

/-- Row e of the tile's second layer and first feature transform is row r of the reference's, when row e of the
    tile's first-layer output is row r of `H1`. -/
theorem xw1_row (v34 : FVec Ideal S528x128 .f32) (v42 : FVec Ideal S528x384 .f32) (hb1 : Vec Ideal S384 .f32)
    (H1 : Vec Ideal Cert.ReferenceIdeal.S131072x256 .f32) (wf2 : Vec Ideal S384x256 .f32) (uf2 hf2 : Vec Ideal S384 .f32) (wb2 : Vec Ideal S384x256 .f32) (ub2 hb2 : Vec Ideal S384 .f32) (wg1 : Vec Ideal S256x128 .f32)
    (e : Fin 528) (r : Fin 131072)
    (hh : ∀ j : Fin 256, k0_pay5 v34 v42 hb1 (ix2 e j) = H1 (ix2 r j)) (j : Fin 128) :
    Tile.xw1 v34 v42 hb1 wf2 uf2 hf2 wb2 ub2 hb2 wg1 (ix2 e j)
      = Cert.ReferenceIdeal.RefT.xw1 (Cert.ReferenceIdeal.RefT.layer2 H1 wf2 uf2 hf2 wb2 ub2 hb2) wg1 (ix2 r j) := by
  -- equal rows of the first layer give equal gates at that row …
  have hg : ∀ (w : Vec Ideal S384x256 .f32) (b : Vec Ideal S384 .f32) (u : Fin 384),
      kgates (k0_pay5 v34 v42 hb1) w b (ix2 e u) = Cert.ReferenceIdeal.RefT.gates2 H1 w b (ix2 r u) := fun w b u => by
    rw [kgates_apply, rgates_apply]
    exact congrArg (· + b (ix1 u)) (Finset.sum_congr rfl fun k _ => by rw [hh k])
  -- … hence equal cells at that row
  have hc : ∀ (w : Vec Ideal S384x256 .f32) (b hbias : Vec Ideal S384 .f32) (c : Fin 128),
      kcell (kgates (k0_pay5 v34 v42 hb1) w b) hbias (ix2 e c)
        = Cert.ReferenceIdeal.RefT.cell (Cert.ReferenceIdeal.RefT.gates2 H1 w b) hbias (ix2 r c) := fun w b hbias c => by
    rw [kcell_apply, rcell_apply, hg, hg, hg]
  rw [xw1_eq_kxw]
  unfold kxw Cert.ReferenceIdeal.RefT.xw1 Cert.ReferenceIdeal.RefT.layer2 Cert.ReferenceIdeal.RefT.pair
  rw [kxw_dot_apply, rxw_dot_apply]
  -- both are sums over the 256 columns of the pair against the same weights: compare the pair column by column
  refine Finset.sum_congr rfl fun k _ => ?_
  rw [truncf_apply, truncf_apply]
  congr 1
  by_cases hk : k.val < 128
  · rw [pair_left _ _ _ e k hk, pair_left _ _ _ r k hk]
    exact hc wf2 uf2 hf2 _
  · have hge : 128 ≤ k.val := Nat.le_of_not_lt hk
    rw [pair_right _ _ _ e k hge, pair_right _ _ _ r k hge]
    exact hc wb2 ub2 hb2 _

end Cert.Proof.StageB

end
-- ==== Proof.LibScatterFold.lean ====
/-
  A scatter whose body returns the update ("set"): the row-major left fold in which each update replaces the element at
  its result index. If at least one update lands on an element and every update that lands there carries the same value,
  the folded array holds that value there, whatever the order and whatever the start array.

  `foldl_proj_eq_of_hit` is the fold fact in the abstract (a state, a projection of it, steps that either set the
  projection to `v` or leave it alone); `scatter_set_apply` is it for `Host.scatter … (fun _ b => b)`;
  `rowScatter_resultIdx_eq_some_iff` reads the result index of a ROW scatter (operand [N, C], indices an [R, 1] column,
  updates [R, C]: update row `i` goes to the operand row its index word names, read signed, and is dropped when that is
  outside the operand) off the index column.
-/
import Idealize.ShloMosaic.PureOps.ShapeOps
import Idealize.ShloMosaic.Lib.ValueIdx

namespace Idealize.ShloMosaic.ScatterFold

open Idealize.ShloMosaic Idealize.ShloMosaic.ValueIdx

/-- A left fold whose steps either SET a projection of the state to `v` (the steps of `hit`) or LEAVE it (the others):
    if some step of the list hits, the projection of the result is `v`. The invariant, for every start state: the
    projection is already `v`, or a hit is still to come. -/
theorem foldl_proj_eq_of_hit {κ β α : Type} (step : β → κ → β) (π : β → α) (hit : κ → Prop) (v : α) (l : List κ)
    (hset : ∀ k ∈ l, hit k → ∀ r, π (step r k) = v)
    (hkeep : ∀ k ∈ l, ¬ hit k → ∀ r, π (step r k) = π r)
    (x : β) (hx : π x = v ∨ ∃ k ∈ l, hit k) : π (l.foldl step x) = v := by
  induction l generalizing x with
  | nil =>
    rcases hx with hx | ⟨k, hk, _⟩
    · exact hx
    · exact absurd hk List.not_mem_nil
  | cons k l ih =>
    rw [List.foldl_cons]
    refine ih (fun k' hk' => hset k' (List.mem_cons_of_mem _ hk')) (fun k' hk' => hkeep k' (List.mem_cons_of_mem _ hk')) _ ?_
    by_cases hk : hit k
    · exact Or.inl (hset k List.mem_cons_self hk x)
    · rcases hx with hx | ⟨k', hk', hh⟩
      · exact Or.inl ((hkeep k List.mem_cons_self hk x).trans hx)
      · rcases List.mem_cons.1 hk' with rfl | hk'
        · exact absurd hh hk
        · exact Or.inr ⟨k', hk', hh⟩

variable {s si u : Shape} {α : Type} {w : Nat}

/-- A "set" scatter read at `i'`: when some update's result index is `i'` and every update whose result index is `i'`
    carries `v`, the result at `i'` is `v` (the operand and the order of the updates play no part). -/
theorem scatter_set_apply (d : ScatterDims s si u) (x : s.Idx → α) (idx : IVec si w) (upd : u.Idx → α) (i' : s.Idx) (v : α)
    (hex : ∃ j : u.Idx, d.resultIdx? j idx = some i')
    (hall : ∀ j : u.Idx, d.resultIdx? j idx = some i' → upd j = v) :
    Host.scatter d (fun _ b => b) x idx upd i' = v := by
  unfold Host.scatter
  refine foldl_proj_eq_of_hit _ (fun r => r i') (fun n => d.resultIdx? (u.rowMajor.symm n) idx = some i') v _ ?_ ?_ x ?_
  · intro n _ hn r
    show (match d.resultIdx? (u.rowMajor.symm n) idx with
      | some i => fun i'' => if i'' = i then upd (u.rowMajor.symm n) else r i''
      | none => r) i' = v
    rw [hn]
    show (if i' = i' then upd (u.rowMajor.symm n) else r i') = v
    rw [if_pos rfl]
    exact hall _ hn
  · intro n _ hn r
    show (match d.resultIdx? (u.rowMajor.symm n) idx with
      | some i => fun i'' => if i'' = i then upd (u.rowMajor.symm n) else r i''
      | none => r) i' = r i'
    cases hr : d.resultIdx? (u.rowMajor.symm n) idx with
    | none => rfl
    | some i =>
      show (if i' = i then upd (u.rowMajor.symm n) else r i') = r i'
      rw [if_neg]
      intro h
      exact hn (by rw [hr, h])
  · obtain ⟨j, hj⟩ := hex
    refine Or.inr ⟨u.rowMajor j, List.mem_finRange _, ?_⟩
    show d.resultIdx? (u.rowMajor.symm (u.rowMajor j)) idx = some i'
    rw [Equiv.symm_apply_apply]
    exact hj

/-! ## The row scatter: one scalar index per update row, the window a whole row -/

section RowScatter

/-- The entries of a one-element list. -/
theorem getElem_of_eq_singleton {β : Type} {l : List β} {a : β} (h : l = [a]) (k : Nat) (hk : k < l.length) : l[k] = a := by
  subst h
  have hk0 : k = 0 := by simpa using hk
  subst hk0
  rfl

variable {N R C w : Nat} (d : ScatterDims ⟨2, ![N, C]⟩ ⟨2, ![R, 1]⟩ ⟨2, ![R, C]⟩)
  (huw : d.updateWindowDims = [1]) (hiw : d.insertedWindowDims = [0]) (hsd : d.scatterDimsToOperandDims = [0])
  (hiv : d.indexVectorDim = 1)

include hsd hiv huw in
theorem rowScatter_start_zero (idx : IVec ⟨2, ![R, 1]⟩ w) (j : (⟨2, ![R, C]⟩ : Shape).Idx) :
    d.start j idx 0 = (idx (ix2 (j 0) 0)).toInt := by
  have hm : (0 : Fin 2) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 2) d.scatterDimsToOperandDims = 0
    rw [hsd]; simp

include hsd in
theorem rowScatter_start_one (idx : IVec ⟨2, ![R, 1]⟩ w) (j : (⟨2, ![R, C]⟩ : Shape).Idx) :
    d.start j idx 1 = 0 := by
  have hm : (1 : Fin 2) ∉ d.scatterDimsToOperandDims := by rw [hsd]; simp
  unfold ScatterDims.start
  rw [dif_neg hm]

include hiw in
theorem rowScatter_window_zero (j : (⟨2, ![R, C]⟩ : Shape).Idx) : d.window j 0 = 0 := by
  have hsk : d.sKept = [1] := by
    show Shape.kept _ d.insertedWindowDims = [1]
    rw [hiw]; rfl
  have hm : (0 : Fin 2) ∉ d.sKept := by rw [hsk]; simp
  unfold ScatterDims.window
  rw [dif_neg hm]

include hiw huw in
theorem rowScatter_window_one (j : (⟨2, ![R, C]⟩ : Shape).Idx) : d.window j 1 = (j 1).val := by
  have hsk : d.sKept = [1] := by
    show Shape.kept _ d.insertedWindowDims = [1]
    rw [hiw]; rfl
  have hm : (1 : Fin 2) ∈ d.sKept := by rw [hsk]; exact List.mem_singleton.mpr rfl
  unfold ScatterDims.window
  rw [dif_pos hm, getElem_of_eq_singleton huw]

include huw hiw hsd hiv in
/-- The result index of update element `(i, c)` of a ROW scatter (one scalar index per update row, read off the
    index column; the window one whole row): it is `k` exactly when the row's index word, read signed, is `k`'s row
    and `c` is `k`'s column. -/
theorem rowScatter_resultIdx_eq_some_iff (idx : IVec ⟨2, ![R, 1]⟩ w) (i : Fin R) (c : Fin C) (k : (⟨2, ![N, C]⟩ : Shape).Idx) :
    d.resultIdx? (ix2 i c) idx = some k ↔ (idx (ix2 i 0)).toInt = ((k 0).val : Int) ∧ (k 1).val = c.val := by
  have h00 : d.start (ix2 i c) idx 0 = (idx (ix2 i 0)).toInt := rowScatter_start_zero d huw hsd hiv idx (ix2 i c)
  have h01 := rowScatter_start_one d hsd idx (ix2 i c)
  have h10 := rowScatter_window_zero d hiw (ix2 i c)
  have h11 : d.window (ix2 i c) 1 = c.val := rowScatter_window_one d huw hiw (ix2 i c)
  have e0 : d.start (ix2 i c) idx 0 + (d.window (ix2 i c) 0 : Int) = (idx (ix2 i 0)).toInt := by
    rw [h00, h10]; simp
  have e1 : d.start (ix2 i c) idx 1 + (d.window (ix2 i c) 1 : Int) = (c.val : Int) := by
    rw [h01, h11]; simp
  have hk0 := (k 0).isLt
  have hk1 := (k 1).isLt
  unfold ScatterDims.resultIdx?
  constructor
  · intro h
    split at h
    · next hin =>
      have hf := Option.some.inj h
      have f0 := congrArg (fun f => (f 0).val) hf
      have f1 := congrArg (fun f => (f 1).val) hf
      simp only at f0 f1
      have i0 := hin 0
      have i1 := hin 1
      rw [e0] at i0 f0
      rw [e1] at i1 f1
      constructor
      · omega
      · omega
    · exact absurd h (by simp)
  · rintro ⟨hr, hc⟩
    have hin : ∀ a, 0 ≤ d.start (ix2 i c) idx a + (d.window (ix2 i c) a : Int)
        ∧ d.start (ix2 i c) idx a + (d.window (ix2 i c) a : Int) < ((⟨2, ![N, C]⟩ : Shape).size a : Nat) := by
      intro a
      match a with
      | ⟨0, _⟩ =>
        show 0 ≤ d.start (ix2 i c) idx 0 + (d.window (ix2 i c) 0 : Int) ∧ d.start (ix2 i c) idx 0 + (d.window (ix2 i c) 0 : Int) < (N : Nat)
        rw [e0, hr]
        have : (k 0).val < N := hk0
        omega
      | ⟨1, _⟩ =>
        show 0 ≤ d.start (ix2 i c) idx 1 + (d.window (ix2 i c) 1 : Int) ∧ d.start (ix2 i c) idx 1 + (d.window (ix2 i c) 1 : Int) < (C : Nat)
        rw [e1]
        have : c.val < C := c.isLt
        omega
    rw [dif_pos hin]
    congr 1
    funext a
    apply Fin.ext
    match a with
    | ⟨0, _⟩ =>
      show (d.start (ix2 i c) idx 0 + (d.window (ix2 i c) 0 : Int)).toNat = (k 0).val
      rw [e0, hr]; simp
    | ⟨1, _⟩ =>
      show (d.start (ix2 i c) idx 1 + (d.window (ix2 i c) 1 : Int)).toNat = (k 1).val
      rw [e1, hc]; simp

end RowScatter

end Idealize.ShloMosaic.ScatterFold
-- ==== Proof.LibScatterSum.lean ====
/-
  The accumulating host scatter (a scatter whose body adds; exact at the ideal instance: each operand element plus the
  sum of the updates that land on it) read at an index as a sum over the update ROWS, for the two shapes a segment sum
  lowers to: the ROW scatter (operand [N, C], one index word per update row, the window a whole row) and the SCALAR
  scatter (operand [N], one index word per update element). An update whose index word, read signed, names no operand
  row lands nowhere, so it adds nothing: in both forms the sum keeps exactly the rows whose word is the row read.
-/
import Idealize.ShloMosaic.PureOps.Ideal
import Idealize.ShloMosaic.Lib.ValueIdx
import proofs.«114131_j67370857005464_1_alg».proof.Proof.LibScatterFold

open scoped BigOperators

namespace Idealize.ShloMosaic.ScatterSum

open Idealize.ShloMosaic Idealize.ShloMosaic.ValueIdx Idealize.ShloMosaic.ScatterFold

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ## The row scatter -/

/-- The accumulating ROW scatter at element `(k0, k1)`: the operand's element plus the sum, over the update rows whose
    index word read signed is `k0`, of the row's element in column `k1`. -/
theorem rowScatterAdd_apply {N R C w : Nat} (d : ScatterDims ⟨2, ![N, C]⟩ ⟨2, ![R, 1]⟩ ⟨2, ![R, C]⟩)
    (huw : d.updateWindowDims = [1]) (hiw : d.insertedWindowDims = [0]) (hsd : d.scatterDimsToOperandDims = [0])
    (hiv : d.indexVectorDim = 1)
    (x : (⟨2, ![N, C]⟩ : Shape).Idx → EReal) (idx : IVec ⟨2, ![R, 1]⟩ w) (upd : (⟨2, ![R, C]⟩ : Shape).Idx → EReal)
    (k0 : Fin N) (k1 : Fin C) :
    Ideal.hostScatterAdd d x idx upd (ix2 k0 k1)
      = x (ix2 k0 k1) + ∑ n : Fin R, if (idx (ix2 n 0)).toInt = (k0.val : Int) then upd (ix2 n k1) else 0 := by
  unfold Ideal.hostScatterAdd
  congr 1
  rw [Finset.sum_filter, sum_idx2]
  refine Finset.sum_congr rfl fun n _ => ?_
  have hiff : ∀ c : Fin C, (d.resultIdx? (ix2 n c) idx = some (ix2 k0 k1))
      ↔ ((idx (ix2 n 0)).toInt = (k0.val : Int) ∧ k1.val = c.val) :=
    fun c => rowScatter_resultIdx_eq_some_iff d huw hiw hsd hiv idx n c (ix2 k0 k1)
  by_cases hA : (idx (ix2 n 0)).toInt = (k0.val : Int)
  · rw [if_pos hA, Finset.sum_eq_single k1]
    · rw [if_pos ((hiff k1).2 ⟨hA, rfl⟩)]
    · intro c _ hc
      rw [if_neg]
      intro h
      exact hc (Fin.ext ((hiff c).1 h).2.symm)
    · intro h; exact absurd (Finset.mem_univ _) h
  · rw [if_neg hA]
    refine Finset.sum_eq_zero fun c _ => ?_
    rw [if_neg]
    intro h
    exact hA ((hiff c).1 h).1

/-! ## The scalar scatter: one index word per update element, no window -/

section VecScatter

variable {N R w : Nat} (d : ScatterDims ⟨1, ![N]⟩ ⟨2, ![R, 1]⟩ ⟨1, ![R]⟩)
  (huw : d.updateWindowDims = []) (hiw : d.insertedWindowDims = [0]) (hsd : d.scatterDimsToOperandDims = [0])
  (hiv : d.indexVectorDim = 1)

include hsd hiv huw in
theorem vecScatter_start_zero (idx : IVec ⟨2, ![R, 1]⟩ w) (j : (⟨1, ![R]⟩ : Shape).Idx) :
    d.start j idx 0 = (idx (ix2 (j 0) 0)).toInt := by
  have hm : (0 : Fin 1) ∈ d.scatterDimsToOperandDims := by rw [hsd]; exact List.mem_singleton.mpr rfl
  have hus : d.uScatter = [0] := by
    show Shape.kept _ d.updateWindowDims = [0]
    rw [huw]; rfl
  unfold ScatterDims.start
  rw [dif_pos hm]
  congr 2
  funext b
  match b with
  | ⟨0, _⟩ =>
    unfold ScatterDims.siIdx
    rw [dif_neg (by rw [hiv]; exact Nat.zero_ne_one)]
    unfold ScatterDims.siCoord
    apply Fin.ext
    simp only [Fin.val_cast]
    rw [getElem_of_eq_singleton hus]
  | ⟨1, _⟩ =>
    unfold ScatterDims.siIdx
    rw [dif_pos (by rw [hiv])]
    apply Fin.ext
    show List.idxOf (0 : Fin 1) d.scatterDimsToOperandDims = 0
    rw [hsd]; simp

include hiw in
theorem vecScatter_window_zero (j : (⟨1, ![R]⟩ : Shape).Idx) : d.window j 0 = 0 := by
  have hsk : d.sKept = [] := by
    show Shape.kept _ d.insertedWindowDims = []
    rw [hiw]; rfl
  have hm : (0 : Fin 1) ∉ d.sKept := by rw [hsk]; simp
  unfold ScatterDims.window
  rw [dif_neg hm]

include huw hiw hsd hiv in
/-- The result index of update element `i` of a SCALAR scatter: it is `k` exactly when the element's index word, read
    signed, is `k`'s coordinate. -/
theorem vecScatter_resultIdx_eq_some_iff (idx : IVec ⟨2, ![R, 1]⟩ w) (i : Fin R) (k : (⟨1, ![N]⟩ : Shape).Idx) :
    d.resultIdx? (ix1 i) idx = some k ↔ (idx (ix2 i 0)).toInt = ((k 0).val : Int) := by
  have h00 : d.start (ix1 i) idx 0 = (idx (ix2 i 0)).toInt := vecScatter_start_zero d huw hsd hiv idx (ix1 i)
  have h10 := vecScatter_window_zero d hiw (ix1 i)
  have e0 : d.start (ix1 i) idx 0 + (d.window (ix1 i) 0 : Int) = (idx (ix2 i 0)).toInt := by
    rw [h00, h10]; simp
  have hk0 := (k 0).isLt
  unfold ScatterDims.resultIdx?
  constructor
  · intro h
    split at h
    · next hin =>
      have hf := Option.some.inj h
      have f0 := congrArg (fun f => (f 0).val) hf
      simp only at f0
      have i0 := hin 0
      rw [e0] at i0 f0
      omega
    · exact absurd h (by simp)
  · intro hr
    have hin : ∀ a, 0 ≤ d.start (ix1 i) idx a + (d.window (ix1 i) a : Int)
        ∧ d.start (ix1 i) idx a + (d.window (ix1 i) a : Int) < ((⟨1, ![N]⟩ : Shape).size a : Nat) := by
      intro a
      match a with
      | ⟨0, _⟩ =>
        show 0 ≤ d.start (ix1 i) idx 0 + (d.window (ix1 i) 0 : Int)
          ∧ d.start (ix1 i) idx 0 + (d.window (ix1 i) 0 : Int) < (N : Nat)
        rw [e0, hr]
        have : (k 0).val < N := hk0
        omega
    rw [dif_pos hin]
    congr 1
    funext a
    apply Fin.ext
    match a with
    | ⟨0, _⟩ =>
      show (d.start (ix1 i) idx 0 + (d.window (ix1 i) 0 : Int)).toNat = (k 0).val
      rw [e0, hr]; simp

include huw hiw hsd hiv in
/-- The accumulating SCALAR scatter at element `k0`: the operand's element plus the sum of the update elements whose
    index word read signed is `k0`. -/
theorem vecScatterAdd_apply (x : (⟨1, ![N]⟩ : Shape).Idx → EReal) (idx : IVec ⟨2, ![R, 1]⟩ w)
    (upd : (⟨1, ![R]⟩ : Shape).Idx → EReal) (k0 : Fin N) :
    Ideal.hostScatterAdd d x idx upd (ix1 k0)
      = x (ix1 k0) + ∑ n : Fin R, if (idx (ix2 n 0)).toInt = (k0.val : Int) then upd (ix1 n) else 0 := by
  unfold Ideal.hostScatterAdd
  congr 1
  rw [Finset.sum_filter, sum_idx1]
  refine Finset.sum_congr rfl fun n _ => ?_
  have hiff : (d.resultIdx? (ix1 n) idx = some (ix1 k0)) ↔ (idx (ix2 n 0)).toInt = (k0.val : Int) :=
    vecScatter_resultIdx_eq_some_iff d huw hiw hsd hiv idx n (ix1 k0)
  by_cases hA : (idx (ix2 n 0)).toInt = (k0.val : Int)
  · rw [if_pos hA, if_pos (hiff.2 hA)]
  · rw [if_neg hA, if_neg (fun h => hA (hiff.1 h))]

end VecScatter

end Idealize.ShloMosaic.ScatterSum
-- ==== Proof.RefGcn.lean ====
/-
  The reference's graph convolution on the chain, read at one entry.

  The edges ending in node r are (r − 1, r) when r > 0, (r + 1, r) when r < 131071, and the self-loop; the degree of
  r is their number, 3 inside the chain and 2 at its two ends, a sum of ones.  So the scatter-add over all 393214
  edges, read at row r, is the three-term sum below: each neighbour's transformed features times
  deg(neighbour)^(−1/2) · deg(r)^(−1/2), the node's own times deg(r)^(−1), plus the bias.  Sums of extended reals
  commute and associate, so the order in which the scatter meets the edges does not matter.
-/
import proofs.«114131_j67370857005464_1_alg».proof.Proof.RefTerms
import Idealize.ShloMosaic.Lib.ValueIdx
import Idealize.ShloMosaic.Lib.ValueLayout
import Idealize.ShloMosaic.Lib.Pipeline.Value
import Idealize.ShloMosaic.PureOps.Ideal.Laws
import Idealize.ShloMosaic.Lib.DynamicIndex
import proofs.«114131_j67370857005464_1_alg».proof.Proof.LibScatterSum
import Mathlib.Algebra.BigOperators.Group.Finset.Basic
import Mathlib.Algebra.BigOperators.Group.Finset.Piecewise
import Mathlib.Data.Fintype.BigOperators
import Mathlib.Data.EReal.Basic

noncomputable section

namespace Cert.Proof.RefGcn

open Idealize.ShloMosaic Idealize.ShloMosaic.ValueIdx Cert.ReferenceIdeal

/-- deg(r)^(−1/2) on the chain of 131072 nodes with self-loops. -/
def dv (r : ℕ) : EReal := Ideal.rsqrt (if r = 0 ∨ r = 131071 then (2 : EReal) else 3)

/-- The chain's convolution of one column `a` (a function of the row), at row `r`, plus the bias entry `bj`:
    own term, left neighbour's, right neighbour's, bias, in this order and grouping. -/
def stencil (a : ℕ → EReal) (bj : EReal) (r : ℕ) : EReal :=
  ((dv r * dv r) * a r + (if 0 < r then (dv (r - 1) * dv r) * a (r - 1) else 0)
      + (if r < 131071 then (dv r * dv (r + 1)) * a (r + 1) else 0)) + bj

/-- Column `j` of a 128-column array as a function of the row (0 outside the array). -/
def col128 (A : Vec Ideal S131072x128 .f32) (j : Fin 128) (n : ℕ) : EReal := if h : n < 131072 then A (ix2 ⟨n, h⟩ j) else 0

/-- Column `j` of a 64-column array as a function of the row (0 outside the array). -/
def col64 (A : Vec Ideal S131072x64 .f32) (j : Fin 64) (n : ℕ) : EReal := if h : n < 131072 then A (ix2 ⟨n, h⟩ j) else 0

open scoped BigOperators

/-! ## The chain's edges by number -/

/-- The source node of edge number e. -/
private def srcN (e : ℕ) : ℕ := if e < 131071 then e else if e < 262142 then e - 131071 + 1 else e - 262142
/-- The target node of edge number e. -/
private def tgtN (e : ℕ) : ℕ := if e < 131071 then e + 1 else if e < 262142 then e - 131071 else e - 262142

private theorem srcN_lt {e : ℕ} (he : e < 393214) : srcN e < 131072 := by unfold srcN; split_ifs <;> omega
private theorem tgtN_lt {e : ℕ} (he : e < 393214) : tgtN e < 131072 := by unfold tgtN; split_ifs <;> omega

private theorem one_add_ofNat (k : ℕ) : IntOp.addi (1#32) (BitVec.ofNat 32 k) = BitVec.ofNat 32 (k + 1) := by
  show (BitVec.ofNat 32 1) + BitVec.ofNat 32 k = _
  rw [← BitVec.ofNat_add, Nat.add_comm]

private theorem srcIdx_apply (e : Fin 393214) : RefT.srcIdx (ix1 e) = BitVec.ofNat 32 (srcN e.val) := by
  have he := e.isLt
  unfold RefT.srcIdx srcN
  by_cases h1 : e.val < 131071
  · rw [if_pos h1]
    rw [concatenate_apply_piece (0 : Fin 1) _ _ (ix1 e) 0 (by decide) S131071 (iotaInDim S131071 32 0) rfl rfl 0 rfl
      (ix1 ⟨e.val, h1⟩) (fun b hb => absurd (Subsingleton.elim _ _) hb) (by show 0 + e.val = e.val; omega)]
    rfl
  · rw [if_neg h1]
    by_cases h2 : e.val < 262142
    · rw [if_pos h2]
      rw [concatenate_apply_piece (0 : Fin 1) _ _ (ix1 e) 1 (by decide) S131071 _ rfl rfl 131071 rfl
        (ix1 ⟨e.val - 131071, by omega⟩) (fun b hb => absurd (Subsingleton.elim _ _) hb) (by show 131071 + (e.val - 131071) = e.val; omega)]
      exact one_add_ofNat _
    · rw [if_neg h2]
      rw [concatenate_apply_piece (0 : Fin 1) _ _ (ix1 e) 2 (by decide) S131072 (iotaInDim S131072 32 0) rfl rfl 262142 rfl
        (ix1 ⟨e.val - 262142, by omega⟩) (fun b hb => absurd (Subsingleton.elim _ _) hb) (by show 262142 + (e.val - 262142) = e.val; omega)]
      rfl

private theorem tgtIdx_apply (e : Fin 393214) : RefT.tgtIdx (ix1 e) = BitVec.ofNat 32 (tgtN e.val) := by
  have he := e.isLt
  unfold RefT.tgtIdx tgtN
  by_cases h1 : e.val < 131071
  · rw [if_pos h1]
    rw [concatenate_apply_piece (0 : Fin 1) _ _ (ix1 e) 0 (by decide) S131071 _ rfl rfl 0 rfl
      (ix1 ⟨e.val, h1⟩) (fun b hb => absurd (Subsingleton.elim _ _) hb) (by show 0 + e.val = e.val; omega)]
    exact one_add_ofNat _
  · rw [if_neg h1]
    by_cases h2 : e.val < 262142
    · rw [if_pos h2]
      rw [concatenate_apply_piece (0 : Fin 1) _ _ (ix1 e) 1 (by decide) S131071 (iotaInDim S131071 32 0) rfl rfl 131071 rfl
        (ix1 ⟨e.val - 131071, by omega⟩) (fun b hb => absurd (Subsingleton.elim _ _) hb) (by show 131071 + (e.val - 131071) = e.val; omega)]
      rfl
    · rw [if_neg h2]
      rw [concatenate_apply_piece (0 : Fin 1) _ _ (ix1 e) 2 (by decide) S131072 (iotaInDim S131072 32 0) rfl rfl 262142 rfl
        (ix1 ⟨e.val - 262142, by omega⟩) (fun b hb => absurd (Subsingleton.elim _ _) hb) (by show 262142 + (e.val - 262142) = e.val; omega)]
      rfl

/-- An index list laid out as a one-column array, read at row e: the list's entry e. -/
private theorem asCol_apply (v : IVec S393214 32) (e : Fin 393214) :
    broadcastInDim S393214x1 ![0] Gen.bcast_S393214_S393214x1_0 v (ix2 e 0) = v (ix1 e) := by
  refine broadcastInDim_apply _ _ _ _ (ix1 e) ?_
  intro a
  obtain rfl : a = 0 := Subsingleton.elim _ _
  rw [if_neg (by decide)]
  rfl

/-- The wrap-around of a negative index leaves a word below 2^31 alone. -/
private theorem wrapNeg_apply (v : IVec S393214 32) (i : S393214.Idx) (n : ℕ) (hn : n < 2 ^ 31) (hv : v i = BitVec.ofNat 32 n) :
    select (cmpi .slt v (broadcastInDim S393214 ![] Gen.bcast_S_S393214 (constantI S_ 32 0#32)))
      (addi v (broadcastInDim S393214 ![] Gen.bcast_S_S393214 (constantI S_ 32 131072#32))) v i = BitVec.ofNat 32 n := by
  have h := select_slt_zero_of_nonneg v
    (addi v (broadcastInDim S393214 ![] Gen.bcast_S_S393214 (constantI S_ 32 131072#32))) v i
    (by rw [hv, toInt_ofNat_of_lt hn]; omega)
  exact h.trans hv

private theorem tgtCol_toInt (e : Fin 393214) :
    (broadcastInDim S393214x1 ![0] Gen.bcast_S393214_S393214x1_0 RefT.tgtIdx (ix2 e 0)).toInt = (tgtN e.val : ℤ) := by
  rw [asCol_apply, tgtIdx_apply, toInt_ofNat_of_lt (by have := tgtN_lt e.isLt; omega)]

private theorem srcNormCol_toInt (e : Fin 393214) :
    (broadcastInDim S393214x1 ![0] Gen.bcast_S393214_S393214x1_0
      (select (cmpi .slt RefT.srcIdx (broadcastInDim S393214 ![] Gen.bcast_S_S393214 (constantI S_ 32 0#32)))
        (addi RefT.srcIdx (broadcastInDim S393214 ![] Gen.bcast_S_S393214 (constantI S_ 32 131072#32))) RefT.srcIdx) (ix2 e 0)).toInt
      = (srcN e.val : ℤ) := by
  have hlt : srcN e.val < 2 ^ 31 := by have := srcN_lt e.isLt; omega
  rw [asCol_apply, wrapNeg_apply _ _ _ hlt (srcIdx_apply e), toInt_ofNat_of_lt hlt]

private theorem tgtNormCol_toInt (e : Fin 393214) :
    (broadcastInDim S393214x1 ![0] Gen.bcast_S393214_S393214x1_0
      (select (cmpi .slt RefT.tgtIdx (broadcastInDim S393214 ![] Gen.bcast_S_S393214 (constantI S_ 32 0#32)))
        (addi RefT.tgtIdx (broadcastInDim S393214 ![] Gen.bcast_S_S393214 (constantI S_ 32 131072#32))) RefT.tgtIdx) (ix2 e 0)).toInt
      = (tgtN e.val : ℤ) := by
  have hlt : tgtN e.val < 2 ^ 31 := by have := tgtN_lt e.isLt; omega
  rw [asCol_apply, wrapNeg_apply _ _ _ hlt (tgtIdx_apply e), toInt_ofNat_of_lt hlt]

/-! ## The two gathers: one index word per result row -/

section Take
variable {α : Type}

/-- Dimension numbers of a flat array [N] read at an [R, 1] column of indices, result [R]. -/
private abbrev vecTakeDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- That gather at entry e, when row e's index word read signed is the node n: the operand at n. -/
private theorem gather_vec_apply {N R w : Nat}
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (e : Fin R) (n : Fin N)
    (h : (idx (ix2 e 0)).toInt = (n.val : ℤ)) :
    Host.gather (vecTakeDims N R wf) x idx (ix1 e) = x (ix1 n) := by
  unfold Host.gather
  congr 1
  funext a
  obtain rfl : a = 0 := Subsingleton.elim _ _
  refine Fin.ext ?_
  show (vecTakeDims N R wf).start (ix1 e) idx 0 + (vecTakeDims N R wf).batchCoord (ix1 e) 0 + (vecTakeDims N R wf).offCoord (ix1 e) 0 = n.val
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTakeDims N R wf).startIndexMap from List.mem_singleton.mpr rfl)]
  have hsi : (vecTakeDims N R wf).siIdx (ix1 e) ⟨List.idxOf (0 : Fin 1) (vecTakeDims N R wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi, h]
  show min ((n.val : ℤ).toNat) (N - 1) = n.val
  have := n.isLt
  simp only [Int.toNat_natCast]
  omega

/-- Dimension numbers of the rows of an [N, C] array read at an [R, 1] column of indices, result [R, C]. -/
private abbrev rowTakeDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- That gather at (e, c), when row e's index word read signed is the node n: the operand at (n, c). -/
private theorem gather_row_apply {N C R w : Nat}
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (c : Fin C) (n : Fin N)
    (h : (idx (ix2 e 0)).toInt = (n.val : ℤ)) :
    Host.gather (rowTakeDims N C R wf) x idx (ix2 e c) = x (ix2 n c) := by
  unfold Host.gather
  congr 1
  funext a
  refine Fin.ext ?_
  show (rowTakeDims N C R wf).start (ix2 e c) idx a + (rowTakeDims N C R wf).batchCoord (ix2 e c) a + (rowTakeDims N C R wf).offCoord (ix2 e c) a = (ix2 n c a).val
  rw [GatherDims.batchCoord_eq_zero _ _ _ List.not_mem_nil]
  match a with
  | ⟨0, _⟩ =>
    rw [GatherDims.offCoord_eq_zero _ _ _ (fun h => ((GatherDims.mem_sKept _ _).mp h).1 (List.mem_singleton.mpr rfl))]
    simp only [Nat.add_zero]
    unfold GatherDims.start
    rw [dif_pos (show (⟨0, by decide⟩ : Fin 2) ∈ (rowTakeDims N C R wf).startIndexMap from List.mem_singleton.mpr rfl)]
    have hsi : (rowTakeDims N C R wf).siIdx (ix2 e c) ⟨List.idxOf (⟨0, by decide⟩ : Fin 2) (rowTakeDims N C R wf).startIndexMap,
        List.idxOf_lt_length_iff.2 (List.mem_singleton.mpr rfl)⟩ = ix2 e 0 := by
      funext b; refine Fin.ext ?_
      match b with
      | ⟨0, _⟩ => rfl
      | ⟨1, _⟩ => rfl
    rw [hsi, h]
    show min ((n.val : ℤ).toNat) (N - 1) = n.val
    have := n.isLt
    simp only [Int.toNat_natCast]
    omega
  | ⟨1, _⟩ =>
    unfold GatherDims.start
    rw [dif_neg (show (⟨1, by decide⟩ : Fin 2) ∉ (rowTakeDims N C R wf).startIndexMap by simp)]
    have hk : (⟨1, by decide⟩ : Fin 2) ∈ (rowTakeDims N C R wf).sKept := by
      rw [GatherDims.mem_sKept]; simp
    unfold GatherDims.offCoord
    rw [dif_pos hk]
    simp only [Nat.zero_add]
    rfl

end Take

/-! ## The edges ending in a node -/

open scoped BigOperators

/-- A sum over all 393214 edges of a term that vanishes unless the edge ends in r keeps at most three terms:
    edge r − 1 of the first list (from the left neighbour), edge r of the second list (from the right neighbour),
    and r's self-loop. -/
private theorem sum_range3 {M : Type*} [AddCommMonoid M] (f : ℕ → M) (a b c : ℕ) :
    ∑ e ∈ Finset.range (a + (b + c)), f e
      = ∑ x ∈ Finset.range a, f x + (∑ x ∈ Finset.range b, f (a + x) + ∑ x ∈ Finset.range c, f (a + (b + x))) := by
  rw [Finset.sum_range_add, Finset.sum_range_add]

private theorem sum_into {M : Type*} [AddCommMonoid M] (g : ℕ → M) (r : ℕ) (hr : r < 131072) :
    ∑ e ∈ Finset.range 393214, (if tgtN e = r then g e else 0)
      = (if 0 < r then g (r - 1) else 0) + ((if r < 131071 then g (131071 + r) else 0) + g (262142 + r)) := by
  have s : ∑ e ∈ Finset.range 393214, (if tgtN e = r then g e else 0)
      = ∑ x ∈ Finset.range 131071, (if tgtN x = r then g x else 0)
        + (∑ x ∈ Finset.range 131071, (if tgtN (131071 + x) = r then g (131071 + x) else 0)
          + ∑ x ∈ Finset.range 131072, (if tgtN (131071 + (131071 + x)) = r then g (131071 + (131071 + x)) else 0)) :=
    sum_range3 (fun e => if tgtN e = r then g e else 0) 131071 131071 131072
  have e1 : ∑ x ∈ Finset.range 131071, (if tgtN x = r then g x else 0) = (if 0 < r then g (r - 1) else 0) := by
    have h1 : ∀ e ∈ Finset.range 131071, (if tgtN e = r then g e else 0) = (if e = r - 1 then (if 0 < r then g e else 0) else 0) := by
      intro e he
      have he' := Finset.mem_range.1 he
      have ht : tgtN e = e + 1 := if_pos he'
      rw [ht]
      by_cases h0 : 0 < r
      · rw [if_pos h0]; exact if_congr (by omega) rfl rfl
      · rw [if_neg h0, if_neg (by omega)]; simp
    rw [Finset.sum_congr rfl h1, Finset.sum_ite_eq', if_pos (Finset.mem_range.2 (by omega))]
  have e2 : ∑ x ∈ Finset.range 131071, (if tgtN (131071 + x) = r then g (131071 + x) else 0)
      = (if r < 131071 then g (131071 + r) else 0) := by
    have h2 : ∀ x ∈ Finset.range 131071, (if tgtN (131071 + x) = r then g (131071 + x) else 0) = (if x = r then g (131071 + x) else 0) := by
      intro x hx
      have hx' := Finset.mem_range.1 hx
      have ht : tgtN (131071 + x) = x := by
        unfold tgtN; rw [if_neg (by omega), if_pos (by omega)]; omega
      rw [ht]
    rw [Finset.sum_congr rfl h2, Finset.sum_ite_eq']
    simp only [Finset.mem_range]
  have e3 : ∑ x ∈ Finset.range 131072, (if tgtN (131071 + (131071 + x)) = r then g (131071 + (131071 + x)) else 0)
      = g (262142 + r) := by
    have h2 : ∀ x ∈ Finset.range 131072, (if tgtN (131071 + (131071 + x)) = r then g (131071 + (131071 + x)) else 0)
        = (if x = r then g (131071 + (131071 + x)) else 0) := by
      intro x hx
      have hx' := Finset.mem_range.1 hx
      have ht : tgtN (131071 + (131071 + x)) = x := by
        unfold tgtN; rw [if_neg (by omega), if_neg (by omega)]; omega
      rw [ht]
    rw [Finset.sum_congr rfl h2, Finset.sum_ite_eq', if_pos (Finset.mem_range.2 hr),
      show 131071 + (131071 + r) = 262142 + r by omega]
  rw [s, e1, e2, e3]

private theorem srcN_left {r : ℕ} (h0 : 0 < r) (hr : r < 131072) : srcN (r - 1) = r - 1 := by
  unfold srcN; rw [if_pos (by omega)]
private theorem tgtN_left {r : ℕ} (h0 : 0 < r) (hr : r < 131072) : tgtN (r - 1) = r := by
  unfold tgtN; rw [if_pos (by omega)]; omega
private theorem srcN_right {r : ℕ} (hr : r < 131071) : srcN (131071 + r) = r + 1 := by
  unfold srcN; rw [if_neg (by omega), if_pos (by omega)]; omega
private theorem tgtN_right {r : ℕ} (hr : r < 131071) : tgtN (131071 + r) = r := by
  unfold tgtN; rw [if_neg (by omega), if_pos (by omega)]; omega
private theorem srcN_self {r : ℕ} (hr : r < 131072) : srcN (262142 + r) = r := by
  unfold srcN; rw [if_neg (by omega), if_neg (by omega)]; omega
private theorem tgtN_self {r : ℕ} (hr : r < 131072) : tgtN (262142 + r) = r := by
  unfold tgtN; rw [if_neg (by omega), if_neg (by omega)]; omega

/-- The number of edges ending in r, as a sum of ones in the extended reals: 2 at the two ends, 3 inside. -/
private theorem degree_sum (r : ℕ) (hr : r < 131072) :
    ∑ e ∈ Finset.range 393214, (if tgtN e = r then (1 : EReal) else 0) = if r = 0 ∨ r = 131071 then 2 else 3 := by
  rw [sum_into (fun _ => (1 : EReal)) r hr]
  have e2 : (1 : EReal) + 1 = 2 := one_add_one_eq_two
  have e3 : (1 : EReal) + (1 + 1) = 3 := by norm_num
  by_cases h0 : r = 0
  · subst h0
    rw [if_neg (by omega), if_pos (by omega), if_pos (Or.inl rfl), zero_add, e2]
  · by_cases h1 : r = 131071
    · subst h1
      rw [if_pos (by omega), if_neg (by omega), if_pos (Or.inr rfl), zero_add, e2]
    · rw [if_pos (by omega), if_pos (by omega), if_neg (by omega), e3]

/-! ## The reference's arrays at an entry -/

/-- The index list's constant 0, the wrap-around of a negative index, and a list as a one-column array. -/
private abbrev zeroW : IVec S393214 32 := broadcastInDim S393214 ![] Gen.bcast_S_S393214 (constantI S_ 32 0#32)
private abbrev wrapW : IVec S393214 32 := broadcastInDim S393214 ![] Gen.bcast_S_S393214 (constantI S_ 32 131072#32)
private abbrev wrapNeg (v : IVec S393214 32) : IVec S393214 32 := select (cmpi .slt v zeroW) (addi v wrapW) v
private abbrev asCol (v : IVec S393214 32) : IVec S393214x1 32 := broadcastInDim S393214x1 ![0] Gen.bcast_S393214_S393214x1_0 v

private theorem one_f32 : Ideal.ofBits .f32 0x3F800000#32 = 1 := by
  simp [Ideal.ofBits, Ideal.ieee, -EReal.coe_mul]; norm_num

/-- deg(n)^(−1/2) from a scatter of ones over the targets, for ANY arrays with these entries: the operand zero at n,
    the index column holding the targets, every update one. -/
private theorem deg_core (d : ScatterDims ⟨1, ![131072]⟩ ⟨2, ![393214, 1]⟩ ⟨1, ![393214]⟩)
    (huw : d.updateWindowDims = []) (hiw : d.insertedWindowDims = [0]) (hsd : d.scatterDimsToOperandDims = [0])
    (hiv : d.indexVectorDim = 1)
    (Z : FVec Ideal ⟨1, ![131072]⟩ .f32) (T : IVec ⟨2, ![393214, 1]⟩ 32) (O : FVec Ideal ⟨1, ![393214]⟩ .f32) (n : Fin 131072)
    (hZ : Z (ix1 n) = 0) (hT : ∀ e : Fin 393214, (T (ix2 e 0)).toInt = (tgtN e.val : ℤ))
    (hO : ∀ e : Fin 393214, O (ix1 e) = 1) :
    Host.rsqrt (Host.scatterAdd (F := Ideal) d Z T O) (ix1 n) = dv n.val := by
  show Ideal.rsqrt (Ideal.hostScatterAdd d Z T O (ix1 n)) = _
  rw [ScatterSum.vecScatterAdd_apply d huw hiw hsd hiv]
  have ht : ∀ e ∈ (Finset.univ : Finset (Fin 393214)),
      (if (T (ix2 e 0)).toInt = (n.val : ℤ) then O (ix1 e) else 0)
      = (fun k : ℕ => if tgtN k = n.val then (1 : EReal) else 0) e.val := by
    intro e _
    rw [hT e, hO e]
    exact if_congr Nat.cast_inj rfl rfl
  rw [hZ, zero_add, Finset.sum_congr rfl ht,
    Fin.sum_univ_eq_sum_range (fun k : ℕ => if tgtN k = n.val then (1 : EReal) else 0) 393214, degree_sum n.val n.isLt]
  rfl

/-- The reference's deg^(−1/2) at node n. -/
private theorem dinv_apply (n : Fin 131072) : RefT.dinv (F := Ideal) (ix1 n) = dv n.val := by
  unfold RefT.dinv
  exact deg_core _ rfl rfl rfl rfl _ _ _ n Ideal.ofBits_zero_f32 tgtCol_toInt (fun _ => one_f32)

/-- An edge's weight is deg(source)^(−1/2) · deg(target)^(−1/2). -/
private theorem edgeNorm_apply (e : Fin 393214) : RefT.edgeNorm (F := Ideal) (ix1 e) = dv (srcN e.val) * dv (tgtN e.val) := by
  have h1 : Host.gather gather_S131072_S393214x1_S393214_n_0_n_n_0_1_1 (RefT.dinv (F := Ideal)) (asCol (wrapNeg RefT.srcIdx)) (ix1 e)
      = dv (srcN e.val) :=
    (gather_vec_apply Gen.gather_S131072_S393214x1_S393214_n_0_n_n_0_1_1_wf _ _ e ⟨srcN e.val, srcN_lt e.isLt⟩ (srcNormCol_toInt e)).trans
      (dinv_apply _)
  have h2 : Host.gather gather_S131072_S393214x1_S393214_n_0_n_n_0_1_1 (RefT.dinv (F := Ideal)) (asCol (wrapNeg RefT.tgtIdx)) (ix1 e)
      = dv (tgtN e.val) :=
    (gather_vec_apply Gen.gather_S131072_S393214x1_S393214_n_0_n_n_0_1_1_wf _ _ e ⟨tgtN e.val, tgtN_lt e.isLt⟩ (tgtNormCol_toInt e)).trans
      (dinv_apply _)
  unfold RefT.edgeNorm
  rw [mulf_apply]
  exact congrArg₂ (· * ·) h1 h2

/-- Left, right, own is own, left, right. -/
private theorem reorder3 {M : Type*} [AddCommMonoid M] (l r o : M) : l + (r + o) = o + l + r := by
  rw [← add_assoc, add_comm (l + r) o, ← add_assoc]

/-- The scatter-add of the weighted neighbour rows over the chain's edges, read at (r, j): for ANY column count, with
    the operand zero there, the index column holding the targets, and update row e holding weight(e) · a(source e). -/
private theorem gcn_core {C : ℕ} (d : ScatterDims ⟨2, ![131072, C]⟩ ⟨2, ![393214, 1]⟩ ⟨2, ![393214, C]⟩)
    (huw : d.updateWindowDims = [1]) (hiw : d.insertedWindowDims = [0]) (hsd : d.scatterDimsToOperandDims = [0])
    (hiv : d.indexVectorDim = 1)
    (Z : FVec Ideal ⟨2, ![131072, C]⟩ .f32) (T : IVec ⟨2, ![393214, 1]⟩ 32) (U : FVec Ideal ⟨2, ![393214, C]⟩ .f32)
    (a : ℕ → EReal) (r : Fin 131072) (j : Fin C)
    (hZ : Z (ix2 r j) = 0) (hT : ∀ e : Fin 393214, (T (ix2 e 0)).toInt = (tgtN e.val : ℤ))
    (hU : ∀ e : Fin 393214, U (ix2 e j) = (dv (srcN e.val) * dv (tgtN e.val)) * a (srcN e.val)) :
    Host.scatterAdd (F := Ideal) d Z T U (ix2 r j)
      = (dv r.val * dv r.val) * a r.val + (if 0 < r.val then (dv (r.val - 1) * dv r.val) * a (r.val - 1) else 0)
        + (if r.val < 131071 then (dv r.val * dv (r.val + 1)) * a (r.val + 1) else 0) := by
  have hr := r.isLt
  show Ideal.hostScatterAdd d Z T U (ix2 r j) = _
  rw [ScatterSum.rowScatterAdd_apply d huw hiw hsd hiv]
  have ht : ∀ e ∈ (Finset.univ : Finset (Fin 393214)),
      (if (T (ix2 e 0)).toInt = (r.val : ℤ) then U (ix2 e j) else 0)
      = (fun k : ℕ => if tgtN k = r.val then (dv (srcN k) * dv (tgtN k)) * a (srcN k) else 0) e.val := by
    intro e _
    rw [hT e, hU e]
    exact if_congr Nat.cast_inj rfl rfl
  rw [hZ, zero_add, Finset.sum_congr rfl ht,
    Fin.sum_univ_eq_sum_range (fun k : ℕ => if tgtN k = r.val then (dv (srcN k) * dv (tgtN k)) * a (srcN k) else 0) 393214,
    sum_into (fun k : ℕ => (dv (srcN k) * dv (tgtN k)) * a (srcN k)) r.val hr]
  show (if 0 < r.val then (dv (srcN (r.val - 1)) * dv (tgtN (r.val - 1))) * a (srcN (r.val - 1)) else 0)
      + ((if r.val < 131071 then (dv (srcN (131071 + r.val)) * dv (tgtN (131071 + r.val))) * a (srcN (131071 + r.val)) else 0)
        + (dv (srcN (262142 + r.val)) * dv (tgtN (262142 + r.val))) * a (srcN (262142 + r.val))) = _
  rw [srcN_self hr, tgtN_self hr]
  have eL : (if 0 < r.val then (dv (srcN (r.val - 1)) * dv (tgtN (r.val - 1))) * a (srcN (r.val - 1)) else 0)
      = (if 0 < r.val then (dv (r.val - 1) * dv r.val) * a (r.val - 1) else 0) := by
    by_cases h0 : 0 < r.val
    · rw [if_pos h0, if_pos h0, srcN_left h0 hr, tgtN_left h0 hr]
    · rw [if_neg h0, if_neg h0]
  have eR : (if r.val < 131071 then (dv (srcN (131071 + r.val)) * dv (tgtN (131071 + r.val))) * a (srcN (131071 + r.val)) else 0)
      = (if r.val < 131071 then (dv r.val * dv (r.val + 1)) * a (r.val + 1) else 0) := by
    by_cases h1 : r.val < 131071
    · rw [if_pos h1, if_pos h1, srcN_right h1, tgtN_right h1, mul_comm (dv (r.val + 1)) (dv r.val)]
    · rw [if_neg h1, if_neg h1]
  rw [eL, eR]
  exact reorder3 _ _ _

/-- The bias broadcast down the rows, at (r, j). -/
private theorem bias128_apply (b : Vec Ideal S128 .f32) (r : Fin 131072) (j : Fin 128) :
    broadcastInDim S131072x128 ![0, 1] Gen.bcast_S1x128_S131072x128_0_1 (broadcastInDim S1x128 ![1] Gen.bcast_S128_S1x128_1 b) (ix2 r j)
      = b (ix1 j) := by
  rw [broadcastInDim_apply _ _ _ _ (ix2 0 j) (by
    intro a
    match a with
    | ⟨0, _⟩ => rfl
    | ⟨1, _⟩ => rfl)]
  exact broadcastInDim_apply _ _ _ _ (ix1 j) (by
    intro a
    obtain rfl : a = 0 := Subsingleton.elim _ _
    rfl)

/-- An edge's weight laid out over the 128 columns, at (e, j). -/
private theorem weight128_apply (v : FVec Ideal S393214 .f32) (e : Fin 393214) (j : Fin 128) :
    broadcastInDim S393214x128 ![0, 1] Gen.bcast_S393214x1_S393214x128_0_1
      (broadcastInDim S393214x1 ![0] Gen.bcast_S393214_S393214x1_0 v) (ix2 e j) = v (ix1 e) := by
  rw [broadcastInDim_apply _ _ _ _ (ix2 e 0) (by
    intro a
    match a with
    | ⟨0, _⟩ => rfl
    | ⟨1, _⟩ => rfl)]
  exact broadcastInDim_apply _ _ _ _ (ix1 e) (by
    intro a
    obtain rfl : a = 0 := Subsingleton.elim _ _
    rfl)

/-- The bias broadcast down the rows, at (r, j), for 64 columns. -/
private theorem bias64_apply (b : Vec Ideal S64 .f32) (r : Fin 131072) (j : Fin 64) :
    broadcastInDim S131072x64 ![0, 1] Gen.bcast_S1x64_S131072x64_0_1 (broadcastInDim S1x64 ![1] Gen.bcast_S64_S1x64_1 b) (ix2 r j)
      = b (ix1 j) := by
  rw [broadcastInDim_apply _ _ _ _ (ix2 0 j) (by
    intro a
    match a with
    | ⟨0, _⟩ => rfl
    | ⟨1, _⟩ => rfl)]
  exact broadcastInDim_apply _ _ _ _ (ix1 j) (by
    intro a
    obtain rfl : a = 0 := Subsingleton.elim _ _
    rfl)

/-- An edge's weight laid out over the 64 columns, at (e, j). -/
private theorem weight64_apply (v : FVec Ideal S393214 .f32) (e : Fin 393214) (j : Fin 64) :
    broadcastInDim S393214x64 ![0, 1] Gen.bcast_S393214x1_S393214x64_0_1
      (broadcastInDim S393214x1 ![0] Gen.bcast_S393214_S393214x1_0 v) (ix2 e j) = v (ix1 e) := by
  rw [broadcastInDim_apply _ _ _ _ (ix2 e 0) (by
    intro a
    match a with
    | ⟨0, _⟩ => rfl
    | ⟨1, _⟩ => rfl)]
  exact broadcastInDim_apply _ _ _ _ (ix1 e) (by
    intro a
    obtain rfl : a = 0 := Subsingleton.elim _ _
    rfl)

/-- The reference's 128-column graph convolution at an entry is the chain's three-term sum. -/
theorem gcn128_apply (XW : Vec Ideal S131072x128 .f32) (b : Vec Ideal S128 .f32) (r : Fin 131072) (j : Fin 128) :
    RefT.gcn128 (F := Ideal) XW b (ix2 r j) = stencil (col128 XW j) (b (ix1 j)) r.val := by
  -- update row e, column j: the edge's weight times the source row's entry
  have hU : ∀ e : Fin 393214,
      mulf (broadcastInDim S393214x128 ![0, 1] Gen.bcast_S393214x1_S393214x128_0_1
          (broadcastInDim S393214x1 ![0] Gen.bcast_S393214_S393214x1_0 (RefT.edgeNorm (F := Ideal))))
        (Host.gather gather_S131072x128_S393214x1_S393214x128_1_0_n_n_0_1_1128 XW (asCol (wrapNeg RefT.srcIdx))) (ix2 e j)
      = (dv (srcN e.val) * dv (tgtN e.val)) * col128 XW j (srcN e.val) := by
    intro e
    have hg : Host.gather gather_S131072x128_S393214x1_S393214x128_1_0_n_n_0_1_1128 XW (asCol (wrapNeg RefT.srcIdx)) (ix2 e j)
        = col128 XW j (srcN e.val) := by
      unfold col128
      rw [dif_pos (srcN_lt e.isLt)]
      exact gather_row_apply Gen.gather_S131072x128_S393214x1_S393214x128_1_0_n_n_0_1_1128_wf XW _ e j
        ⟨srcN e.val, srcN_lt e.isLt⟩ (srcNormCol_toInt e)
    rw [mulf_apply, weight128_apply, edgeNorm_apply, hg]
  have hc := gcn_core scatter_S131072x128_S393214x1_S393214x128_1_0_0_1 rfl rfl rfl rfl
    (broadcastInDim S131072x128 ![] Gen.bcast_S_S131072x128 (constant (F := Ideal) S_ .f32 0x00000000#32))
    (asCol RefT.tgtIdx) _ (col128 XW j) r j Ideal.ofBits_zero_f32 tgtCol_toInt hU
  unfold RefT.gcn128 stencil
  rw [addf_apply, bias128_apply, hc]

/-- The reference's 64-column graph convolution at an entry is the chain's three-term sum. -/
theorem gcn64_apply (XW : Vec Ideal S131072x64 .f32) (b : Vec Ideal S64 .f32) (r : Fin 131072) (j : Fin 64) :
    RefT.gcn64 (F := Ideal) XW b (ix2 r j) = stencil (col64 XW j) (b (ix1 j)) r.val := by
  -- update row e, column j: the edge's weight times the source row's entry
  have hU : ∀ e : Fin 393214,
      mulf (broadcastInDim S393214x64 ![0, 1] Gen.bcast_S393214x1_S393214x64_0_1
          (broadcastInDim S393214x1 ![0] Gen.bcast_S393214_S393214x1_0 (RefT.edgeNorm (F := Ideal))))
        (Host.gather gather_S131072x64_S393214x1_S393214x64_1_0_n_n_0_1_164 XW (asCol (wrapNeg RefT.srcIdx))) (ix2 e j)
      = (dv (srcN e.val) * dv (tgtN e.val)) * col64 XW j (srcN e.val) := by
    intro e
    have hg : Host.gather gather_S131072x64_S393214x1_S393214x64_1_0_n_n_0_1_164 XW (asCol (wrapNeg RefT.srcIdx)) (ix2 e j)
        = col64 XW j (srcN e.val) := by
      unfold col64
      rw [dif_pos (srcN_lt e.isLt)]
      exact gather_row_apply Gen.gather_S131072x64_S393214x1_S393214x64_1_0_n_n_0_1_164_wf XW _ e j
        ⟨srcN e.val, srcN_lt e.isLt⟩ (srcNormCol_toInt e)
    rw [mulf_apply, weight64_apply, edgeNorm_apply, hg]
  have hc := gcn_core scatter_S131072x64_S393214x1_S393214x64_1_0_0_1 rfl rfl rfl rfl
    (broadcastInDim S131072x64 ![] Gen.bcast_S_S131072x64 (constant (F := Ideal) S_ .f32 0x00000000#32))
    (asCol RefT.tgtIdx) _ (col64 XW j) r j Ideal.ofBits_zero_f32 tgtCol_toInt hU
  unfold RefT.gcn64 stencil
  rw [addf_apply, bias64_apply, hc]

end Cert.Proof.RefGcn

end
-- ==== Proof.StageC.lean ====
/-
  The first graph convolution and the second feature transform of a tile, against the reference's.  The tile works
  on the 514 rows 512·t − 1 … 512·t + 512: row p stands for node 512·t + p − 1, and its neighbours are extended rows
  p + 6 and p + 8 of the 528 transformed rows.  The tile computes each node's degree as 2 at nodes 0 and 131071 and 3
  elsewhere, and multiplies a neighbour's term by 1 if the neighbour exists and by 0 if not; the reference sums over
  the edges that exist.  On the extended reals (a · 0) · y = 0 and (a · 1) · y = a · y for every y, so the two agree
  at every node of the array; then both multiply by W_g2, a sum over the 128 columns.
-/
import proofs.«114131_j67370857005464_1_alg».proof.Proof.Tile
import proofs.«114131_j67370857005464_1_alg».proof.Proof.RefTerms
import proofs.«114131_j67370857005464_1_alg».proof.Proof.RefGcn
import Idealize.ShloMosaic.Lib.ValueIdx
import Idealize.ShloMosaic.Lib.ValueLayout
import Idealize.ShloMosaic.Lib.Pipeline.Value
import Idealize.ShloMosaic.PureOps.Ideal.Laws
import Idealize.ShloMosaic.Lib.StackMember

noncomputable section

namespace Cert.Proof.StageC

open Idealize.ShloMosaic Idealize.ShloMosaic.ValueIdx Cert.KernelIdeal Cert.KernelIdeal.Gen
open Cert.Proof.RefGcn (dv stencil col128)

/-! ## The two products with W_g2, read at an entry -/

/-- The tile's contraction record is the plain rows-by-columns product. -/
private theorem dotK_eq : dot_S514x128_S128x64_S514x64_1_0_0_1_n_n = DotDims.plain 514 128 64 := rfl

/-- So is the reference's. -/
private theorem dotR_eq :
    Cert.ReferenceIdeal.dot_S131072x128_S128x64_S131072x64_1_0_0_1_n_n = DotDims.plain 131072 128 64 := rfl

/-- The reference's second feature transform at (r, j): the sum over the 128 columns c of G (r, c) · W_g2 (c, j). -/
private theorem ref_xw2_apply (G : Vec Ideal Cert.ReferenceIdeal.S131072x128 .f32) (wg2 : Vec Ideal S128x64 .f32)
    (r : Fin 131072) (j : Fin 64) :
    Cert.ReferenceIdeal.RefT.xw2 G wg2 (ix2 r j) = ∑ c : Fin 128, G (ix2 r c) * wg2 (ix2 c j) := by
  unfold Cert.ReferenceIdeal.RefT.xw2
  rw [dotR_eq]
  exact StackMember.dotGeneral_plain_apply none G wg2 r j

/-- The tile's product into the zero accumulator at (p, j): the same sum, 0 + x = x. -/
private theorem ker_mm_apply (A : FVec Ideal S514x128 .bf16) (B : FVec Ideal S128x64 .bf16) (p : Fin 514) (j : Fin 64) :
    matmul dot_S514x128_S128x64_S514x64_1_0_0_1_n_n none A B (constant S514x64 .f32 0x00000000#32) (ix2 p j)
      = ∑ c : Fin 128, A (ix2 p c) * B (ix2 c j) := by
  rw [matmul_zero_eq_dotGeneral, dotK_eq]
  exact StackMember.dotGeneral_plain_apply none A B p j

/-! ## Node numbers as 32-bit words -/

/-- Extended row e of tile t carries the word e + (t · 512 − 8); read signed it is the integer 512·t + e − 8: for
    t < 256 and e < 528 nothing wraps except the intended negative values of tile 0's first eight rows. -/
private theorem nodeW_toInt (t e : ℕ) (ht : t < 256) (he : e < 528) :
    (BitVec.ofNat 32 e + (BitVec.ofNat 32 t * 512#32 - 8#32)).toInt = 512 * (t : ℤ) + e - 8 := by
  rw [BitVec.toInt_eq_toNat_cond]
  simp only [BitVec.toNat_add, BitVec.toNat_sub, BitVec.toNat_mul, BitVec.toNat_ofNat]
  split <;> omega

/-- The column of node numbers at extended row e. -/
private theorem node_apply (t : Fin 256) (e : Fin 528) (u : Fin 1) :
    k0_pay10 (BitVec.ofNat 32 t.val) (ix2 e u) = BitVec.ofNat 32 e.val + (BitVec.ofNat 32 t.val * 512#32 - 8#32) := by
  unfold k0_pay10
  show IntOp.addi (iota .tc S528x1 32 [0] _ (ix2 e u)) _ = _
  rw [iota_single_apply]
  rfl

/-- The pattern 0x40000000 is 2. -/
private theorem two_val : Ideal.ofBits .f32 0x40000000#32 = 2 := by
  simp [Ideal.ofBits, Ideal.ieee, -EReal.coe_mul]; norm_num; rfl

/-- The pattern 0x40400000 is 3. -/
private theorem three_val : Ideal.ofBits .f32 0x40400000#32 = 3 := by
  simp [Ideal.ofBits, Ideal.ieee, -EReal.coe_mul]; norm_num; rfl

/-- A condition widened to a word and converted is 1 where it holds and 0 where it does not. -/
private theorem mask_val (P : Prop) [Decidable P] :
    (FloatOps.sitofp (F := Ideal) .f32 ((BitVec.ofBool (decide P)).setWidth 32) : EReal) = if P then 1 else 0 := by
  show ((((BitVec.ofBool (decide P)).setWidth 32).toInt : ℝ) : EReal) = _
  rw [toInt_setWidth_bit]
  by_cases h : P <;> simp [h]

/-- The degree: a word whose signed value is n selects the first value exactly when n is 0 or 131071. -/
private theorem deg_sel {α : Type} (w : BitVec 32) (n : ℤ) (hw : w.toInt = n) (A B : α) :
    Scalar.select (IntOp.ori (IntOp.cmpi .eq w 0#32) (IntOp.cmpi .eq w 131071#32)) A B
      = if n = 0 ∨ n = 131071 then A else B := by
  have h0 : w = 0#32 ↔ n = 0 := by rw [← BitVec.toInt_inj, hw]; rfl
  have h1 : w = 131071#32 ↔ n = 131071 := by rw [← BitVec.toInt_inj, hw]; rfl
  unfold Scalar.select IntOp.ori IntOp.cmpi
  by_cases a : w = 0#32
  · have : n = 0 := h0.mp a
    simp [a, this]
  · by_cases b : w = 131071#32
    · have : n = 131071 := h1.mp b
      simp [b, this]
    · have ha : (w == 0#32) = false := beq_eq_false_iff_ne.mpr a
      have hb : (w == 131071#32) = false := beq_eq_false_iff_ne.mpr b
      have hn0 : ¬ n = 0 := fun h => a (h0.mpr h)
      have hn1 : ¬ n = 131071 := fun h => b (h1.mpr h)
      simp [ha, hb, hn0, hn1]

/-- "Greater than 0", compared signed, on a word whose signed value is the natural number n. -/
private theorem sgt_bit (w : BitVec 32) (n : ℕ) (hw : w.toInt = n) :
    IntOp.cmpi .sgt w 0#32 = BitVec.ofBool (decide (0 < n)) := by
  unfold IntOp.cmpi
  simp only [BitVec.slt, hw]
  exact congrArg BitVec.ofBool (decide_eq_decide.mpr (by show (0 : ℤ) < (n : ℤ) ↔ 0 < n; omega))

/-- "Less than 131071", compared signed, on such a word. -/
private theorem slt_bit (w : BitVec 32) (n : ℕ) (hw : w.toInt = n) :
    IntOp.cmpi .slt w 131071#32 = BitVec.ofBool (decide (n < 131071)) := by
  unfold IntOp.cmpi
  simp only [BitVec.slt, hw]
  exact congrArg BitVec.ofBool (decide_eq_decide.mpr (by show (n : ℤ) < (131071 : ℤ) ↔ n < 131071; omega))

/-! ## Layout -/

/-- A column [a, 1] broadcast to [a, b] reads, at (p, k), the column at p. -/
private theorem bcast_col {a b : ℕ} {α : Type} (c : (⟨2, ![a, 1]⟩ : Shape).Idx → α)
    (h : (⟨2, ![a, 1]⟩ : Shape).Broadcasts ⟨2, ![a, b]⟩) (p : Fin a) (k : Fin b) :
    broadcastTo ⟨2, ![a, b]⟩ c h (ix2 p k) = c (ix2 p (0 : Fin 1)) := by
  refine broadcastTo_apply c h (ix2 p k) (ix2 p (0 : Fin 1)) fun ax => ?_
  match ax with
  | ⟨0, _⟩ =>
    show p.val = if a = 1 then 0 else p.val
    split
    · have := p.isLt; omega
    · rfl
  | ⟨1, _⟩ => rfl

/-! ## deg^(−1/2) and the three weights of a row -/

/-- deg(node)^(−1/2) as the tile computes it at extended row e, when that row is node n of the array: the tile's
    degree is 2 at nodes 0 and 131071 and 3 elsewhere. -/
private theorem dinv_row (t : Fin 256) (e : Fin 528) (u : Fin 1) (n : ℕ) (hn : 512 * t.val + e.val = n + 8) :
    k0_pay13 (F := Ideal) (k0_pay10 (BitVec.ofNat 32 t.val)) (k0_pay11 (BitVec.ofNat 32 t.val)) k0_pay12 (ix2 e u) = dv n := by
  unfold k0_pay13 k0_pay11 k0_pay12
  show FloatOps.rsqrt (Scalar.select (IntOp.ori (IntOp.cmpi .eq (k0_pay10 _ (ix2 e u)) 0#32) (IntOp.cmpi .eq (k0_pay10 _ (ix2 e u)) 131071#32))
      (Ideal.ofBits .f32 0x40000000#32) (Ideal.ofBits .f32 0x40400000#32)) = _
  rw [node_apply, deg_sel _ ((n : ℕ) : ℤ) (by rw [nodeW_toInt t.val e.val t.isLt e.isLt]; omega), two_val, three_val]
  unfold dv
  show Ideal.rsqrt _ = Ideal.rsqrt _
  congr 1
  by_cases h : n = 0 ∨ n = 131071
  · rw [if_pos h, if_pos (by omega)]
  · rw [if_neg h, if_neg (by omega)]

/-- The slice at row offset 7 of the deg^(−1/2) column. -/
private theorem pay14_apply (N : IVec S528x1 32) (E : IVec S528x1 1) (M : IVec S528x1 32) (p : Fin 514) (u : Fin 1) :
    k0_pay14 (F := Ideal) N E M (ix2 p u) = k0_pay13 (F := Ideal) N E M (ix2 ⟨7 + p.val, by omega⟩ u) := by
  unfold k0_pay14
  exact slice2_axis0_eq 7 _ _ p u

/-- The slice at row offset 7 of the column of node numbers. -/
private theorem pay15_apply (N : IVec S528x1 32) (p : Fin 514) (u : Fin 1) :
    k0_pay15 N (ix2 p u) = N (ix2 ⟨7 + p.val, by omega⟩ u) := by
  unfold k0_pay15
  exact slice2_axis0_eq 7 _ _ p u

section Row
variable (t : Fin 256) (p : Fin 514) (r : Fin 131072) (hpr : 512 * t.val + p.val = r.val + 1)
include hpr

/-- Row p's own weight is deg(r)^(−1/2) · deg(r)^(−1/2). -/
private theorem self_norm (u : Fin 1) :
    k0_pay16 (F := Ideal) (k0_pay10 (BitVec.ofNat 32 t.val)) (k0_pay11 (BitVec.ofNat 32 t.val)) k0_pay12 (ix2 p u)
      = dv r.val * dv r.val := by
  unfold k0_pay16
  show k0_pay14 (F := Ideal) _ _ _ (ix2 p u) * k0_pay14 (F := Ideal) _ _ _ (ix2 p u) = _
  rw [pay14_apply, dinv_row t ⟨7 + p.val, by omega⟩ u r.val (by show 512 * t.val + (7 + p.val) = r.val + 8; omega)]

/-- Row p's left weight: whatever stands at the left row, times deg(r)^(−1/2), times 1 if r > 0 and 0 if r = 0. -/
private theorem left_norm (u : Fin 1) :
    k0_pay17 (F := Ideal) (k0_pay10 (BitVec.ofNat 32 t.val)) (k0_pay11 (BitVec.ofNat 32 t.val)) k0_pay12 (ix2 p u)
      = (k0_pay13 (F := Ideal) (k0_pay10 (BitVec.ofNat 32 t.val)) (k0_pay11 (BitVec.ofNat 32 t.val)) k0_pay12 (ix2 ⟨6 + p.val, by omega⟩ u)
          * dv r.val) * (if 0 < r.val then 1 else 0) := by
  unfold k0_pay17
  show (extractStridedSlice S514x1 ![6, 0] (k0_pay13 (F := Ideal) _ _ _) _ (ix2 p u) * k0_pay14 (F := Ideal) _ _ _ (ix2 p u))
      * FloatOps.sitofp .f32 ((IntOp.cmpi .sgt (k0_pay15 _ (ix2 p u)) 0#32).setWidth 32) = _
  rw [slice2_axis0_eq 6, pay14_apply, dinv_row t ⟨7 + p.val, by omega⟩ u r.val (by show 512 * t.val + (7 + p.val) = r.val + 8; omega),
    pay15_apply, node_apply,
    sgt_bit _ r.val (by rw [nodeW_toInt t.val _ t.isLt (by show 7 + p.val < 528; omega)]; show 512 * (t.val : ℤ) + ((7 + p.val : ℕ) : ℤ) - 8 = _; omega),
    mask_val]

/-- Row p's right weight: deg(r)^(−1/2), times whatever stands at the right row, times 1 if r < 131071 and 0 if not. -/
private theorem right_norm (u : Fin 1) :
    k0_pay18 (F := Ideal) (k0_pay10 (BitVec.ofNat 32 t.val)) (k0_pay11 (BitVec.ofNat 32 t.val)) k0_pay12 (ix2 p u)
      = (dv r.val
          * k0_pay13 (F := Ideal) (k0_pay10 (BitVec.ofNat 32 t.val)) (k0_pay11 (BitVec.ofNat 32 t.val)) k0_pay12 (ix2 ⟨8 + p.val, by omega⟩ u))
          * (if r.val < 131071 then 1 else 0) := by
  unfold k0_pay18
  show (k0_pay14 (F := Ideal) _ _ _ (ix2 p u) * extractStridedSlice S514x1 ![8, 0] (k0_pay13 (F := Ideal) _ _ _) _ (ix2 p u))
      * FloatOps.sitofp .f32 ((IntOp.cmpi .slt (k0_pay15 _ (ix2 p u)) 131071#32).setWidth 32) = _
  rw [slice2_axis0_eq 8, pay14_apply, dinv_row t ⟨7 + p.val, by omega⟩ u r.val (by show 512 * t.val + (7 + p.val) = r.val + 8; omega),
    pay15_apply, node_apply,
    slt_bit _ r.val (by rw [nodeW_toInt t.val _ t.isLt (by show 7 + p.val < 528; omega)]; show 512 * (t.val : ℤ) + ((7 + p.val : ℕ) : ℤ) - 8 = _; omega),
    mask_val]

end Row

/-! ## The convolved row, and the product -/

/-- The tile's second transformed features at (p, j): the sum over the columns c of the convolved row's entry (own term,
    left term, right term, bias, in this order and grouping) times W_g2 (c, j); the format changes are the identity. -/
private theorem pay19_apply (v133 : FVec Ideal S528x128 .f32) (N : IVec S528x1 32) (E : IVec S528x1 1) (M : IVec S528x1 32)
    (bg1 : Vec Ideal S128 .f32) (wg2 : Vec Ideal S128x64 .f32) (p : Fin 514) (j : Fin 64) :
    k0_pay19 v133 N E M bg1 wg2 (ix2 p j)
      = ∑ c : Fin 128,
          (((k0_pay16 (F := Ideal) N E M (ix2 p (0 : Fin 1)) * v133 (ix2 ⟨7 + p.val, by omega⟩ c)
            + k0_pay17 (F := Ideal) N E M (ix2 p (0 : Fin 1)) * v133 (ix2 ⟨6 + p.val, by omega⟩ c))
            + k0_pay18 (F := Ideal) N E M (ix2 p (0 : Fin 1)) * v133 (ix2 ⟨8 + p.val, by omega⟩ c))
            + bg1 (ix1 c)) * wg2 (ix2 c j) := by
  unfold k0_pay19
  refine (ker_mm_apply _ _ p j).trans ?_
  refine Finset.sum_congr rfl fun c _ => ?_
  simp only [truncf_apply, addf_apply, mulf_apply]
  rw [bcast_col, bcast_col, bcast_col, slice2_axis0_eq 7, slice2_axis0_eq 6, slice2_axis0_eq 8,
    broadcastTo_1b_ab_apply, shapeCast_a_1a_apply]

section Core
variable (t : Fin 256) (v133 : FVec Ideal S528x128 .f32) (XW1 : Vec Ideal S131072x128 .f32)
    (hxw : ∀ (e : Fin 528) (r : Fin 131072), 512 * t.val + e.val = r.val + 8 → ∀ j : Fin 128, v133 (ix2 e j) = XW1 (ix2 r j))
    (p : Fin 514) (r : Fin 131072) (hpr : 512 * t.val + p.val = r.val + 1) (k : Fin 128)
include hxw hpr

/-- Extended row p + 7 is node r. -/
private theorem self_val : v133 (ix2 ⟨7 + p.val, by omega⟩ k) = col128 XW1 k r.val := by
  unfold col128
  rw [dif_pos r.isLt]
  exact hxw ⟨7 + p.val, by omega⟩ r (by show 512 * t.val + (7 + p.val) = r.val + 8; omega) k

/-- The left term: for r > 0 extended row p + 6 is node r − 1 and the factor is 1; for r = 0 the factor is 0, and
    (a · 0) · y = 0 whatever a and y are. -/
private theorem left_term :
    ((k0_pay13 (F := Ideal) (k0_pay10 (BitVec.ofNat 32 t.val)) (k0_pay11 (BitVec.ofNat 32 t.val)) k0_pay12 (ix2 ⟨6 + p.val, by omega⟩ (0 : Fin 1))
        * dv r.val) * (if 0 < r.val then 1 else 0)) * v133 (ix2 ⟨6 + p.val, by omega⟩ k)
      = if 0 < r.val then (dv (r.val - 1) * dv r.val) * col128 XW1 k (r.val - 1) else 0 := by
  by_cases h : 0 < r.val
  · rw [if_pos h, if_pos h, mul_one,
      dinv_row t ⟨6 + p.val, by omega⟩ 0 (r.val - 1) (by show 512 * t.val + (6 + p.val) = (r.val - 1) + 8; omega)]
    congr 1
    unfold col128
    rw [dif_pos (by omega)]
    exact hxw ⟨6 + p.val, by omega⟩ ⟨r.val - 1, by omega⟩ (by show 512 * t.val + (6 + p.val) = (r.val - 1) + 8; omega) k
  · rw [if_neg h, if_neg h, mul_zero, zero_mul]

/-- The right term: for r < 131071 extended row p + 8 is node r + 1 and the factor is 1; for r = 131071 the factor
    is 0. -/
private theorem right_term :
    ((dv r.val
        * k0_pay13 (F := Ideal) (k0_pay10 (BitVec.ofNat 32 t.val)) (k0_pay11 (BitVec.ofNat 32 t.val)) k0_pay12 (ix2 ⟨8 + p.val, by omega⟩ (0 : Fin 1)))
        * (if r.val < 131071 then 1 else 0)) * v133 (ix2 ⟨8 + p.val, by omega⟩ k)
      = if r.val < 131071 then (dv r.val * dv (r.val + 1)) * col128 XW1 k (r.val + 1) else 0 := by
  by_cases h : r.val < 131071
  · rw [if_pos h, if_pos h, mul_one,
      dinv_row t ⟨8 + p.val, by omega⟩ 0 (r.val + 1) (by show 512 * t.val + (8 + p.val) = (r.val + 1) + 8; omega)]
    congr 1
    unfold col128
    rw [dif_pos (by omega)]
    exact hxw ⟨8 + p.val, by omega⟩ ⟨r.val + 1, by omega⟩ (by show 512 * t.val + (8 + p.val) = (r.val + 1) + 8; omega) k
  · rw [if_neg h, if_neg h, mul_zero, zero_mul]

/-- The tile's convolved row p at column k is the chain's three-term sum at node r. -/
private theorem g1_row (bg1 : Vec Ideal S128 .f32) :
    ((k0_pay16 (F := Ideal) (k0_pay10 (BitVec.ofNat 32 t.val)) (k0_pay11 (BitVec.ofNat 32 t.val)) k0_pay12 (ix2 p (0 : Fin 1))
          * v133 (ix2 ⟨7 + p.val, by omega⟩ k)
        + k0_pay17 (F := Ideal) (k0_pay10 (BitVec.ofNat 32 t.val)) (k0_pay11 (BitVec.ofNat 32 t.val)) k0_pay12 (ix2 p (0 : Fin 1))
          * v133 (ix2 ⟨6 + p.val, by omega⟩ k))
        + k0_pay18 (F := Ideal) (k0_pay10 (BitVec.ofNat 32 t.val)) (k0_pay11 (BitVec.ofNat 32 t.val)) k0_pay12 (ix2 p (0 : Fin 1))
          * v133 (ix2 ⟨8 + p.val, by omega⟩ k))
        + bg1 (ix1 k)
      = stencil (col128 XW1 k) (bg1 (ix1 k)) r.val := by
  rw [self_norm t p r hpr, left_norm t p r hpr, right_norm t p r hpr, left_term t v133 XW1 hxw p r hpr k,
    right_term t v133 XW1 hxw p r hpr k, self_val t v133 XW1 hxw p r hpr k]
  rfl

end Core

/-- Row p of the tile's second transformed features is row r of the reference's, for the node r = 512·t + p − 1 when
    it lies in the array, given that the tile's first transformed features agree with `XW1` on the rows in the array. -/
theorem xw2_row (t : Fin 256) (v133 : FVec Ideal S528x128 .f32) (XW1 : Vec Ideal S131072x128 .f32)
    (bg1 : Vec Ideal S128 .f32) (wg2 : Vec Ideal S128x64 .f32)
    (hxw : ∀ (e : Fin 528) (r : Fin 131072), 512 * t.val + e.val = r.val + 8 → ∀ j : Fin 128, v133 (ix2 e j) = XW1 (ix2 r j))
    (p : Fin 514) (r : Fin 131072) (hpr : 512 * t.val + p.val = r.val + 1) (j : Fin 64) :
    Tile.xw2 (BitVec.ofNat 32 t.val) v133 bg1 wg2 (ix2 p j) = Cert.ReferenceIdeal.RefT.xw2 (Cert.ReferenceIdeal.RefT.gcn128 XW1 bg1) wg2 (ix2 r j) := by
  refine Eq.trans ?_ (ref_xw2_apply _ wg2 r j).symm
  unfold Tile.xw2
  rw [pay19_apply]
  refine Finset.sum_congr rfl fun c _ => ?_
  rw [Cert.Proof.RefGcn.gcn128_apply, g1_row t v133 XW1 hxw p r hpr c bg1]

end Cert.Proof.StageC

end
-- ==== Proof.StageD.lean ====
/-
  The second graph convolution and the final linear layer of a tile, against the reference's.  Output row q of
  the tile is node 512·t + q, always inside the array; its neighbours are rows q and q + 2 of the tile's 514 rows of
  second transformed features.  A neighbour outside the array (before node 0, after node 131071) enters with the
  factor 0, so whatever the tile holds there does not matter.  Then both sides multiply by W_fc (a sum over 64
  columns) and add the bias.
-/
import proofs.«114131_j67370857005464_1_alg».proof.Proof.Tile
import proofs.«114131_j67370857005464_1_alg».proof.Proof.RefTerms
import proofs.«114131_j67370857005464_1_alg».proof.Proof.RefGcn
import Idealize.ShloMosaic.Lib.ValueIdx
import Idealize.ShloMosaic.Lib.ValueLayout
import Idealize.ShloMosaic.Lib.Pipeline.Value
import Idealize.ShloMosaic.PureOps.Ideal.Laws

noncomputable section

namespace Cert.Proof.StageD

open Idealize.ShloMosaic Idealize.ShloMosaic.ValueIdx Cert.KernelIdeal Cert.KernelIdeal.Gen

/-! ## A plain product of an m×k by a k×n array, read at an entry

With one contracted axis the contraction index is its one coordinate, so the sum over it is a sum over `Fin k` of
the products of the entries (a, c) and (c, b). -/

section Plain
variable {m k n : ℕ} {φ₁ φ₂ : FTy}
  (w : DotDims.WF ⟨2, ![m, k]⟩ ⟨2, ![k, n]⟩ ⟨2, ![m, n]⟩ [1] [0] [0] [1] [] [])

/-- The left operand's index at output (a, b) and contraction coordinate c is (a, c). -/
private theorem lhsIdx2 (a : Fin m) (b : Fin n) (c : Fin k) :
    (⟨[1], [0], [0], [1], [], [], w⟩ : DotDims ⟨2, ![m, k]⟩ ⟨2, ![k, n]⟩ ⟨2, ![m, n]⟩).lhsIdx (ix2 a b)
      ((contrEquiv1 (⟨[1], [0], [0], [1], [], [], w⟩ : DotDims ⟨2, ![m, k]⟩ ⟨2, ![k, n]⟩ ⟨2, ![m, n]⟩) k rfl rfl).symm c) = ix2 a c := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.lhsIdx]; rfl
  | ⟨1, _⟩ => simp [DotDims.lhsIdx]; exact c2

/-- The right operand's index at output (a, b) and contraction coordinate c is (c, b). -/
private theorem rhsIdx2 (a : Fin m) (b : Fin n) (c : Fin k) :
    (⟨[1], [0], [0], [1], [], [], w⟩ : DotDims ⟨2, ![m, k]⟩ ⟨2, ![k, n]⟩ ⟨2, ![m, n]⟩).rhsIdx (ix2 a b)
      ((contrEquiv1 (⟨[1], [0], [0], [1], [], [], w⟩ : DotDims ⟨2, ![m, k]⟩ ⟨2, ![k, n]⟩ ⟨2, ![m, n]⟩) k rfl rfl).symm c) = ix2 c b := by
  have c2 := contrEquiv1_symm_val (⟨[1], [0], [0], [1], [], [], w⟩ : DotDims ⟨2, ![m, k]⟩ ⟨2, ![k, n]⟩ ⟨2, ![m, n]⟩) k rfl rfl c
  funext ax; apply Fin.ext
  match ax with
  | ⟨0, _⟩ => simp [DotDims.rhsIdx]; exact c2
  | ⟨1, _⟩ => simp [DotDims.rhsIdx]; rfl

/-- The kernel's product into the zero accumulator at (a, b): the sum over c of A(a, c) · B(c, b). -/
private theorem matmul2_apply (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant _ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx2 w a b c, rhsIdx2 w a b c]

/-- The reference's product at (a, b): the same sum. -/
private theorem dotGeneral2_apply (prec : Option ContractPrecision) (sched : HostSchedule) (A : FVec Ideal ⟨2, ![m, k]⟩ φ₁)
    (B : FVec Ideal ⟨2, ![k, n]⟩ φ₂) (a : Fin m) (b : Fin n) :
    FloatOps.dotGeneral (⟨[1], [0], [0], [1], [], [], w⟩ : DotDims ⟨2, ![m, k]⟩ ⟨2, ![k, n]⟩ ⟨2, ![m, n]⟩) prec sched A B (ix2 a b)
      = ∑ c : Fin k, A (ix2 a c) * B (ix2 c b) := by
  rw [Ideal.dotGeneral_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  rw [lhsIdx2 w a b c, rhsIdx2 w a b c]

end Plain

/-! ## Layout operations on rank-2 arrays, read at an entry -/

section Layout
variable {α : Type}

/-- Rows o … of an array: row p of the slice is row o + p of the array. -/
private theorem slice_rows {R C R' : ℕ} (o : ℕ) (x : (⟨2, ![R, C]⟩ : Shape).Idx → α)
    (h : (⟨2, ![R, C]⟩ : Shape).Slices ![o, 0] ⟨2, ![R', C]⟩) (p : Fin R') (c : Fin C) (hp : o + p.val < R) :
    extractStridedSlice ⟨2, ![R', C]⟩ ![o, 0] x h (ix2 p c) = x (ix2 ⟨o + p.val, hp⟩ c) :=
  extractStridedSlice_apply _ x h _ _ fun a => match a with
    | ⟨0, _⟩ => rfl
    | ⟨1, _⟩ => by show c.val = 0 + c.val; omega

/-- A column laid along every column: entry (p, c) is the column's entry p. -/
private theorem bcast_col {R C : ℕ} (x : (⟨2, ![R, 1]⟩ : Shape).Idx → α)
    (h : (⟨2, ![R, 1]⟩ : Shape).Broadcasts ⟨2, ![R, C]⟩) (p : Fin R) (c : Fin C) :
    broadcastTo ⟨2, ![R, C]⟩ x h (ix2 p c) = x (ix2 p (0 : Fin 1)) :=
  broadcastTo_apply x h _ _ fun a => match a with
    | ⟨0, _⟩ => by
        show p.val = if R = 1 then 0 else p.val
        split
        · have := p.isLt; omega
        · rfl
    | ⟨1, _⟩ => by
        show (0 : ℕ) = if (1 : ℕ) = 1 then 0 else c.val
        rw [if_pos rfl]

/-- A vector laid along every row (the kernel's way): entry (p, c) is the vector's entry c. -/
private theorem bcast_row {R C : ℕ} (x : (⟨1, ![C]⟩ : Shape).Idx → α) (h1 : (⟨1, ![C]⟩ : Shape).ShapeCasts ⟨2, ![1, C]⟩)
    (hb : (⟨2, ![1, C]⟩ : Shape).Broadcasts ⟨2, ![R, C]⟩) (p : Fin R) (c : Fin C) :
    broadcastTo ⟨2, ![R, C]⟩ (shapeCast ⟨2, ![1, C]⟩ x h1) hb (ix2 p c) = x (ix1 c) := by
  refine (broadcastTo_apply _ hb _ (ix2 (0 : Fin 1) c) fun a => ?_).trans (shapeCast_apply x h1 _ (ix1 c) ?_)
  · match a with
    | ⟨0, _⟩ => rfl
    | ⟨1, _⟩ =>
      show c.val = if C = 1 then 0 else c.val
      split
      · have := c.isLt; omega
      · rfl
  · rw [Shape.rowMajor_val_two, Shape.rowMajor_val_one]
    show c.val = 0 * C + c.val
    omega

/-- A vector laid along every row (the reference's way): entry (p, c) is the vector's entry c. -/
private theorem bcastInDim_row {R C : ℕ} (x : (⟨1, ![C]⟩ : Shape).Idx → α)
    (h1 : (⟨1, ![C]⟩ : Shape).BroadcastsInDim ⟨2, ![1, C]⟩ ![1])
    (h2 : (⟨2, ![1, C]⟩ : Shape).BroadcastsInDim ⟨2, ![R, C]⟩ ![0, 1]) (p : Fin R) (c : Fin C) :
    broadcastInDim ⟨2, ![R, C]⟩ ![0, 1] h2 (broadcastInDim ⟨2, ![1, C]⟩ ![1] h1 x) (ix2 p c) = x (ix1 c) := by
  refine (broadcastInDim_apply ![0, 1] h2 _ _ (ix2 (0 : Fin 1) c) fun a => ?_).trans
    (broadcastInDim_apply ![1] h1 x _ (ix1 c) fun a => ?_)
  · match a with
    | ⟨0, _⟩ =>
      show (0 : ℕ) = if (1 : ℕ) = 1 then 0 else p.val
      rw [if_pos rfl]
    | ⟨1, _⟩ =>
      show c.val = if C = 1 then 0 else c.val
      split
      · have := c.isLt; omega
      · rfl
  · match a with
    | ⟨0, _⟩ =>
      show c.val = if C = 1 then 0 else c.val
      split
      · have := c.isLt; omega
      · rfl

end Layout

/-! ## The node numbers of a tile's extended rows, as 32-bit words

Extended row e of tile t is node 512·t + e − 8.  With t < 256 and e < 528 the kernel's word arithmetic (multiply by
512, subtract 8, add the row) does not overflow: read as a signed word the result is that integer, negative only for
t = 0 and e < 8. -/

/-- The word the kernel computes for extended row `e` of tile `t`. -/
private def nodeW (t e : ℕ) : BitVec 32 := BitVec.ofNat 32 e + (BitVec.ofNat 32 t * 512#32 - 8#32)

private theorem nodeW_toInt (t e : ℕ) (ht : t < 256) (he : e < 528) : (nodeW t e).toInt = 512 * (t : ℤ) + e - 8 := by
  unfold nodeW
  rw [BitVec.toInt_eq_toNat_cond]
  simp only [BitVec.toNat_add, BitVec.toNat_sub, BitVec.toNat_mul, BitVec.toNat_ofNat]
  omega

/-- The two float constants of the degree: 2 and 3. -/
private theorem ofBits_two_f32 : Ideal.ofBits .f32 0x40000000#32 = 2 := by
  rw [show (2 : EReal) = ((2 : ℝ) : EReal) by norm_cast]
  simp [Ideal.ofBits, Ideal.ieee, -EReal.coe_mul]; norm_num

private theorem ofBits_three_f32 : Ideal.ofBits .f32 0x40400000#32 = 3 := by
  rw [show (3 : EReal) = ((3 : ℝ) : EReal) by norm_cast]
  simp [Ideal.ofBits, Ideal.ieee, -EReal.coe_mul]; norm_num

/-- deg^(−1/2) as the kernel computes it from a node-number word: the degree is 2 when the word is 0 or 131071, else 3. -/
private def dinvW (x : BitVec 32) : EReal :=
  Ideal.rsqrt (Scalar.select (IntOp.ori (IntOp.cmpi .eq x 0#32) (IntOp.cmpi .eq x 131071#32))
    (Ideal.ofBits .f32 0x40000000#32) (Ideal.ofBits .f32 0x40400000#32))

/-- On a word that is a node number r ≥ 0 it is the reference's deg(r)^(−1/2). -/
private theorem dinvW_of_toInt (x : BitVec 32) (r : ℕ) (hx : x.toInt = (r : ℤ)) : dinvW x = RefGcn.dv r := by
  unfold dinvW RefGcn.dv
  rw [ofBits_two_f32, ofBits_three_f32]
  by_cases h0 : r = 0
  · have hx0 : x = 0#32 := BitVec.eq_of_toInt_eq (by rw [hx, h0]; rfl)
    subst hx0
    rw [if_pos (Or.inl h0), show IntOp.ori (IntOp.cmpi .eq (0#32) 0#32) (IntOp.cmpi .eq (0#32) 131071#32) = 1#1 by decide,
      select_one]
  · by_cases h1 : r = 131071
    · have hx1 : x = 131071#32 := BitVec.eq_of_toInt_eq (by rw [hx, h1]; rfl)
      subst hx1
      rw [if_pos (Or.inr h1),
        show IntOp.ori (IntOp.cmpi .eq (131071#32) 0#32) (IntOp.cmpi .eq (131071#32) 131071#32) = 1#1 by decide, select_one]
    · have hx0 : ¬ x = 0#32 := fun h => h0 (by rw [h] at hx; have : ((0#32 : BitVec 32)).toInt = 0 := rfl; omega)
      have hx1 : ¬ x = 131071#32 := fun h => h1 (by
        rw [h] at hx; have : ((131071#32 : BitVec 32)).toInt = 131071 := by decide
        omega)
      have e0 : IntOp.cmpi .eq x 0#32 = 0#1 := by
        show BitVec.ofBool (x == 0#32) = 0#1
        rw [beq_eq_false_iff_ne.mpr hx0]; rfl
      have e1 : IntOp.cmpi .eq x 131071#32 = 0#1 := by
        show BitVec.ofBool (x == 131071#32) = 0#1
        rw [beq_eq_false_iff_ne.mpr hx1]; rfl
      rw [if_neg (by omega), e0, e1, show IntOp.ori (0#1) (0#1) = 0#1 by decide, select_zero]

/-- The left mask as an ideal value: 1 when the word, read signed, is positive, else 0. -/
private theorem maskL_of_toInt (x : BitVec 32) :
    (FloatOps.sitofp (F := Ideal) .f32 ((IntOp.cmpi .sgt x 0#32).setWidth 32) : EReal) = if 0 < x.toInt then 1 else 0 := by
  show (((((IntOp.cmpi .sgt x 0#32).setWidth 32).toInt : ℤ) : ℝ) : EReal) = _
  have hc : IntOp.cmpi .sgt x 0#32 = BitVec.ofBool (decide ((0#32 : BitVec 32).toInt < x.toInt)) := rfl
  rw [hc, show ((0#32 : BitVec 32)).toInt = 0 from rfl]
  by_cases h : 0 < x.toInt
  · rw [if_pos h, decide_eq_true h]
    show ((((1 : ℤ)) : ℝ) : EReal) = 1
    norm_cast
  · rw [if_neg h, decide_eq_false h]
    show ((((0 : ℤ)) : ℝ) : EReal) = 0
    norm_cast

/-- The right mask as an ideal value: 1 when the word, read signed, is below 131071, else 0. -/
private theorem maskR_of_toInt (x : BitVec 32) :
    (FloatOps.sitofp (F := Ideal) .f32 ((IntOp.cmpi .slt x 131071#32).setWidth 32) : EReal) = if x.toInt < 131071 then 1 else 0 := by
  show (((((IntOp.cmpi .slt x 131071#32).setWidth 32).toInt : ℤ) : ℝ) : EReal) = _
  have hc : IntOp.cmpi .slt x 131071#32 = BitVec.ofBool (decide (x.toInt < (131071#32 : BitVec 32).toInt)) := rfl
  rw [hc, show ((131071#32 : BitVec 32)).toInt = 131071 by decide]
  by_cases h : x.toInt < 131071
  · rw [if_pos h, decide_eq_true h]
    show ((((1 : ℤ)) : ℝ) : EReal) = 1
    norm_cast
  · rw [if_neg h, decide_eq_false h]
    show ((((0 : ℤ)) : ℝ) : EReal) = 0
    norm_cast

/-! ## The tile's norm columns, read at an entry

Row p of the 514-row columns is extended row p + 7, node 512·t + p − 1; the three 528-row slices at offsets 7, 6, 8
give a row's own deg^(−1/2), its left neighbour's and its right neighbour's. -/

section Reads
variable (a0 : BitVec 32)

/-- The node-number column at extended row e. -/
private theorem pay10_at (t : ℕ) (e : Fin 528) : k0_pay10 (BitVec.ofNat 32 t) (ix2 e (0 : Fin 1)) = nodeW t e.val := by
  unfold k0_pay10
  show IntOp.addi (iota .tc S528x1 32 [0] iota_S528x1_d0_w32 (ix2 e (0 : Fin 1))) _ = _
  rw [iota_single_apply]
  rfl

/-- deg^(−1/2) on the extended rows, from the node-number word of the row. -/
private theorem pay13_at (i : S528x1.Idx) :
    k0_pay13 (F := Ideal) (k0_pay10 a0) (k0_pay11 a0) k0_pay12 i = dinvW (k0_pay10 a0 i) := rfl

/-- Row p of the own-row slice. -/
private theorem pay14_at (p : Fin 514) :
    k0_pay14 (F := Ideal) (k0_pay10 a0) (k0_pay11 a0) k0_pay12 (ix2 p (0 : Fin 1))
      = dinvW (k0_pay10 a0 (ix2 (⟨7 + p.val, by omega⟩ : Fin 528) (0 : Fin 1))) := by
  unfold k0_pay14
  exact (slice_rows 7 _ slices_S528x1_o7_0_S514x1 p 0 (by omega)).trans (pay13_at a0 _)

/-- Row p of the node numbers' slice. -/
private theorem pay15_at (p : Fin 514) :
    k0_pay15 (k0_pay10 a0) (ix2 p (0 : Fin 1)) = k0_pay10 a0 (ix2 (⟨7 + p.val, by omega⟩ : Fin 528) (0 : Fin 1)) := by
  unfold k0_pay15
  exact slice_rows 7 _ slices_S528x1_o7_0_S514x1 p 0 (by omega)

/-- The own-term norm: the square of the row's deg^(−1/2). -/
private theorem pay16_at (p : Fin 514) :
    k0_pay16 (F := Ideal) (k0_pay10 a0) (k0_pay11 a0) k0_pay12 (ix2 p (0 : Fin 1))
      = dinvW (k0_pay10 a0 (ix2 (⟨7 + p.val, by omega⟩ : Fin 528) (0 : Fin 1)))
        * dinvW (k0_pay10 a0 (ix2 (⟨7 + p.val, by omega⟩ : Fin 528) (0 : Fin 1))) := by
  unfold k0_pay16
  rw [mulf_apply, pay14_at]

/-- The left-term norm: left neighbour's deg^(−1/2) times the row's, times the left mask. -/
private theorem pay17_at (p : Fin 514) :
    k0_pay17 (F := Ideal) (k0_pay10 a0) (k0_pay11 a0) k0_pay12 (ix2 p (0 : Fin 1))
      = (dinvW (k0_pay10 a0 (ix2 (⟨6 + p.val, by omega⟩ : Fin 528) (0 : Fin 1)))
          * dinvW (k0_pay10 a0 (ix2 (⟨7 + p.val, by omega⟩ : Fin 528) (0 : Fin 1))))
        * (if 0 < (k0_pay10 a0 (ix2 (⟨7 + p.val, by omega⟩ : Fin 528) (0 : Fin 1))).toInt then 1 else 0) := by
  unfold k0_pay17
  show (extractStridedSlice S514x1 ![6, 0] (k0_pay13 (F := Ideal) (k0_pay10 a0) (k0_pay11 a0) k0_pay12) slices_S528x1_o6_0_S514x1 (ix2 p (0 : Fin 1))
        * k0_pay14 (F := Ideal) (k0_pay10 a0) (k0_pay11 a0) k0_pay12 (ix2 p (0 : Fin 1)))
      * FloatOps.sitofp (F := Ideal) .f32 ((IntOp.cmpi .sgt (k0_pay15 (k0_pay10 a0) (ix2 p (0 : Fin 1))) 0#32).setWidth 32) = _
  rw [slice_rows 6 _ slices_S528x1_o6_0_S514x1 p 0 (by omega), pay13_at, pay14_at, pay15_at, maskL_of_toInt]

/-- The right-term norm: the row's deg^(−1/2) times the right neighbour's, times the right mask. -/
private theorem pay18_at (p : Fin 514) :
    k0_pay18 (F := Ideal) (k0_pay10 a0) (k0_pay11 a0) k0_pay12 (ix2 p (0 : Fin 1))
      = (dinvW (k0_pay10 a0 (ix2 (⟨7 + p.val, by omega⟩ : Fin 528) (0 : Fin 1)))
          * dinvW (k0_pay10 a0 (ix2 (⟨8 + p.val, by omega⟩ : Fin 528) (0 : Fin 1))))
        * (if (k0_pay10 a0 (ix2 (⟨7 + p.val, by omega⟩ : Fin 528) (0 : Fin 1))).toInt < 131071 then 1 else 0) := by
  unfold k0_pay18
  show (k0_pay14 (F := Ideal) (k0_pay10 a0) (k0_pay11 a0) k0_pay12 (ix2 p (0 : Fin 1))
        * extractStridedSlice S514x1 ![8, 0] (k0_pay13 (F := Ideal) (k0_pay10 a0) (k0_pay11 a0) k0_pay12) slices_S528x1_o8_0_S514x1 (ix2 p (0 : Fin 1)))
      * FloatOps.sitofp (F := Ideal) .f32 ((IntOp.cmpi .slt (k0_pay15 (k0_pay10 a0) (ix2 p (0 : Fin 1))) 131071#32).setWidth 32) = _
  rw [slice_rows 8 _ slices_S528x1_o8_0_S514x1 p 0 (by omega), pay13_at, pay14_at, pay15_at, maskR_of_toInt]

end Reads

/-! ## The three neighbour terms of an output row, and the product with W_fc -/

section Terms
variable (a0 : BitVec 32) (v133 : FVec Ideal S528x128 .f32) (bg1 : Vec Ideal S128 .f32) (wg2 : Vec Ideal S128x64 .f32)

/-- The own term of output row q: the own-term norm of row q + 1 times that row of the transformed features. -/
private theorem pay22_at (q : Fin 512) (k : Fin 64) :
    k0_pay22 (F := Ideal) v133 (k0_pay10 a0) (k0_pay11 a0) k0_pay12 bg1 wg2 (ix2 q k)
      = k0_pay16 (F := Ideal) (k0_pay10 a0) (k0_pay11 a0) k0_pay12 (ix2 (⟨1 + q.val, by omega⟩ : Fin 514) (0 : Fin 1))
        * Tile.xw2 a0 v133 bg1 wg2 (ix2 (⟨1 + q.val, by omega⟩ : Fin 514) k) := by
  unfold k0_pay22
  show broadcastTo S512x64 (extractStridedSlice S512x1 ![1, 0] (k0_pay16 (F := Ideal) (k0_pay10 a0) (k0_pay11 a0) k0_pay12) slices_S514x1_o1_0_S512x1) broadcasts_S512x1_S512x64 (ix2 q k)
      * extractStridedSlice S512x64 ![1, 0] (Tile.xw2 a0 v133 bg1 wg2) slices_S514x64_o1_0_S512x64 (ix2 q k) = _
  rw [bcast_col, slice_rows 1 _ slices_S514x1_o1_0_S512x1 q 0 (by omega), slice_rows 1 _ slices_S514x64_o1_0_S512x64 q k (by omega)]

/-- The left term of output row q: the left-term norm of row q + 1 times row q of the transformed features. -/
private theorem pay23_at (q : Fin 512) (k : Fin 64) :
    k0_pay23 (F := Ideal) v133 (k0_pay10 a0) (k0_pay11 a0) k0_pay12 bg1 wg2 (ix2 q k)
      = k0_pay17 (F := Ideal) (k0_pay10 a0) (k0_pay11 a0) k0_pay12 (ix2 (⟨1 + q.val, by omega⟩ : Fin 514) (0 : Fin 1))
        * Tile.xw2 a0 v133 bg1 wg2 (ix2 (⟨0 + q.val, by omega⟩ : Fin 514) k) := by
  unfold k0_pay23
  show broadcastTo S512x64 (extractStridedSlice S512x1 ![1, 0] (k0_pay17 (F := Ideal) (k0_pay10 a0) (k0_pay11 a0) k0_pay12) slices_S514x1_o1_0_S512x1) broadcasts_S512x1_S512x64 (ix2 q k)
      * extractStridedSlice S512x64 ![0, 0] (Tile.xw2 a0 v133 bg1 wg2) slices_S514x64_o0_0_S512x64 (ix2 q k) = _
  rw [bcast_col, slice_rows 1 _ slices_S514x1_o1_0_S512x1 q 0 (by omega), slice_rows 0 _ slices_S514x64_o0_0_S512x64 q k (by omega)]

/-- The right-term norm of output row q is that of row q + 1 of the 514. -/
private theorem pay20_at (q : Fin 512) :
    k0_pay20 (F := Ideal) (k0_pay10 a0) (k0_pay11 a0) k0_pay12 (ix2 q (0 : Fin 1))
      = k0_pay18 (F := Ideal) (k0_pay10 a0) (k0_pay11 a0) k0_pay12 (ix2 (⟨1 + q.val, by omega⟩ : Fin 514) (0 : Fin 1)) := by
  unfold k0_pay20
  exact slice_rows 1 _ slices_S514x1_o1_0_S512x1 q 0 (by omega)

/-- The right neighbour's row of output row q is row q + 2 of the transformed features. -/
private theorem pay21_at (q : Fin 512) (k : Fin 64) :
    k0_pay21 (F := Ideal) v133 (k0_pay10 a0) (k0_pay11 a0) k0_pay12 bg1 wg2 (ix2 q k)
      = Tile.xw2 a0 v133 bg1 wg2 (ix2 (⟨2 + q.val, by omega⟩ : Fin 514) k) := by
  unfold k0_pay21
  exact slice_rows 2 (Tile.xw2 a0 v133 bg1 wg2) slices_S514x64_o2_0_S512x64 q k (by omega)

/-- The tile's output at (q, j): the sum over the 64 columns of the convolved row times W_fc, plus the bias. -/
private theorem out_at (bg2 : Vec Ideal S64 .f32) (wfc : Vec Ideal S64x10 .f32) (bfc : Vec Ideal S10 .f32) (q : Fin 512) (j : Fin 10) :
    Tile.out (F := Ideal) a0 v133 bg1 wg2 bg2 wfc bfc (ix2 q j)
      = (∑ k : Fin 64,
          (((k0_pay22 (F := Ideal) v133 (k0_pay10 a0) (k0_pay11 a0) k0_pay12 bg1 wg2 (ix2 q k)
              + k0_pay23 (F := Ideal) v133 (k0_pay10 a0) (k0_pay11 a0) k0_pay12 bg1 wg2 (ix2 q k))
            + k0_pay20 (F := Ideal) (k0_pay10 a0) (k0_pay11 a0) k0_pay12 (ix2 q (0 : Fin 1))
              * k0_pay21 (F := Ideal) v133 (k0_pay10 a0) (k0_pay11 a0) k0_pay12 bg1 wg2 (ix2 q k))
           + bg2 (ix1 k)) * wfc (ix2 k j))
        + bfc (ix1 j) := by
  unfold Tile.out k0_pay1
  have hd : dot_S512x64_S64x10_S512x10_1_0_0_1_n_n
      = (⟨[1], [0], [0], [1], [], [], dot_S512x64_S64x10_S512x10_1_0_0_1_n_n_wf⟩ : DotDims S512x64 S64x10 S512x10) := rfl
  rw [addf_apply, hd]
  refine congrArg₂ (· + ·) ((matmul2_apply _ none _ _ q j).trans (Finset.sum_congr rfl fun k _ => ?_)) (bcast_row bfc _ _ q j)
  refine congrArg₂ (· * ·) ?_ rfl
  rw [truncf_apply, addf_apply, addf_apply, addf_apply, mulf_apply, bcast_col, bcast_row]

end Terms

/-! ## The convolved row is the chain's three-term sum -/

section Core
variable (t : Fin 256)

/-- The word of extended row e of tile t, read signed, is 512·t + e − 8. -/
private theorem node_toInt (e : Fin 528) :
    (k0_pay10 (BitVec.ofNat 32 t.val) (ix2 e (0 : Fin 1))).toInt = 512 * (t.val : ℤ) + e.val - 8 := by
  rw [pay10_at]; exact nodeW_toInt _ _ t.isLt e.isLt

/-- On an extended row that is node r, the kernel's deg^(−1/2) is the reference's. -/
private theorem dinv_row (e : Fin 528) (r : ℕ) (h : 512 * t.val + e.val = r + 8) :
    dinvW (k0_pay10 (BitVec.ofNat 32 t.val) (ix2 e (0 : Fin 1))) = RefGcn.dv r :=
  dinvW_of_toInt _ r (by rw [node_toInt]; omega)

/-- Inside the array a column function reads the array. -/
private theorem col64_in (XW2 : Vec Ideal Cert.ReferenceIdeal.S131072x64 .f32) (k : Fin 64) (n : ℕ) (h : n < 131072) :
    RefGcn.col64 XW2 k n = XW2 (ix2 ⟨n, h⟩ k) := by
  unfold RefGcn.col64; rw [dif_pos h]

/-- The norm columns at row p of the 514, with the extended rows named freely. -/
private theorem pay16_at' (a0 : BitVec 32) (p : Fin 514) (e : Fin 528) (he : e.val = 7 + p.val) :
    k0_pay16 (F := Ideal) (k0_pay10 a0) (k0_pay11 a0) k0_pay12 (ix2 p (0 : Fin 1))
      = dinvW (k0_pay10 a0 (ix2 e (0 : Fin 1))) * dinvW (k0_pay10 a0 (ix2 e (0 : Fin 1))) := by
  obtain rfl : e = ⟨7 + p.val, by clear he; omega⟩ := Fin.ext he
  exact pay16_at a0 p

private theorem pay17_at' (a0 : BitVec 32) (p : Fin 514) (eL e : Fin 528) (hL : eL.val = 6 + p.val) (he : e.val = 7 + p.val) :
    k0_pay17 (F := Ideal) (k0_pay10 a0) (k0_pay11 a0) k0_pay12 (ix2 p (0 : Fin 1))
      = (dinvW (k0_pay10 a0 (ix2 eL (0 : Fin 1))) * dinvW (k0_pay10 a0 (ix2 e (0 : Fin 1))))
        * (if 0 < (k0_pay10 a0 (ix2 e (0 : Fin 1))).toInt then 1 else 0) := by
  obtain rfl : e = ⟨7 + p.val, by clear he hL; omega⟩ := Fin.ext he
  obtain rfl : eL = ⟨6 + p.val, by clear hL; omega⟩ := Fin.ext hL
  exact pay17_at a0 p

private theorem pay18_at' (a0 : BitVec 32) (p : Fin 514) (e eR : Fin 528) (he : e.val = 7 + p.val) (hR : eR.val = 8 + p.val) :
    k0_pay18 (F := Ideal) (k0_pay10 a0) (k0_pay11 a0) k0_pay12 (ix2 p (0 : Fin 1))
      = (dinvW (k0_pay10 a0 (ix2 e (0 : Fin 1))) * dinvW (k0_pay10 a0 (ix2 eR (0 : Fin 1))))
        * (if (k0_pay10 a0 (ix2 e (0 : Fin 1))).toInt < 131071 then 1 else 0) := by
  obtain rfl : e = ⟨7 + p.val, by clear he hR; omega⟩ := Fin.ext he
  obtain rfl : eR = ⟨8 + p.val, by clear hR; omega⟩ := Fin.ext hR
  exact pay18_at a0 p

/-- Column k of the tile's convolved row q is the chain's three-term sum at node 512·t + q: the own term always; the
    left term when the node is not 0 (else its factor is 0); the right term when the node is not 131071 (else its
    factor is 0); then the bias. -/
private theorem g2_at (v133 : FVec Ideal S528x128 .f32) (XW2 : Vec Ideal Cert.ReferenceIdeal.S131072x64 .f32)
    (bg1 : Vec Ideal S128 .f32) (wg2 : Vec Ideal S128x64 .f32) (bg2 : Vec Ideal S64 .f32)
    (hxw : ∀ (p : Fin 514) (r : Fin 131072), 512 * t.val + p.val = r.val + 1 →
      ∀ j : Fin 64, Tile.xw2 (BitVec.ofNat 32 t.val) v133 bg1 wg2 (ix2 p j) = XW2 (ix2 r j))
    (q : Fin 512) (k : Fin 64) :
    ((k0_pay22 (F := Ideal) v133 (k0_pay10 (BitVec.ofNat 32 t.val)) (k0_pay11 (BitVec.ofNat 32 t.val)) k0_pay12 bg1 wg2 (ix2 q k)
          + k0_pay23 (F := Ideal) v133 (k0_pay10 (BitVec.ofNat 32 t.val)) (k0_pay11 (BitVec.ofNat 32 t.val)) k0_pay12 bg1 wg2 (ix2 q k))
        + k0_pay20 (F := Ideal) (k0_pay10 (BitVec.ofNat 32 t.val)) (k0_pay11 (BitVec.ofNat 32 t.val)) k0_pay12 (ix2 q (0 : Fin 1))
          * k0_pay21 (F := Ideal) v133 (k0_pay10 (BitVec.ofNat 32 t.val)) (k0_pay11 (BitVec.ofNat 32 t.val)) k0_pay12 bg1 wg2 (ix2 q k))
      + bg2 (ix1 k)
    = RefGcn.stencil (RefGcn.col64 XW2 k) (bg2 (ix1 k)) (512 * t.val + q.val) := by
  have hq := q.isLt
  have ht := t.isLt
  -- extended row q + 8 is the node 512·t + q itself
  have hnode : (k0_pay10 (BitVec.ofNat 32 t.val) (ix2 (⟨q.val + 8, by omega⟩ : Fin 528) (0 : Fin 1))).toInt
      = ((512 * t.val + q.val : ℕ) : ℤ) := by
    rw [node_toInt]; push_cast; omega
  have hself : dinvW (k0_pay10 (BitVec.ofNat 32 t.val) (ix2 (⟨q.val + 8, by omega⟩ : Fin 528) (0 : Fin 1)))
      = RefGcn.dv (512 * t.val + q.val) :=
    dinv_row t _ _ (by show 512 * t.val + (q.val + 8) = _; omega)
  -- the own term
  have hS : k0_pay22 (F := Ideal) v133 (k0_pay10 (BitVec.ofNat 32 t.val)) (k0_pay11 (BitVec.ofNat 32 t.val)) k0_pay12 bg1 wg2 (ix2 q k)
      = (RefGcn.dv (512 * t.val + q.val) * RefGcn.dv (512 * t.val + q.val)) * RefGcn.col64 XW2 k (512 * t.val + q.val) := by
    rw [pay22_at, pay16_at' _ ⟨1 + q.val, by omega⟩ ⟨q.val + 8, by omega⟩ (by show q.val + 8 = 7 + (1 + q.val); omega), hself,
      hxw ⟨1 + q.val, by omega⟩ ⟨512 * t.val + q.val, by omega⟩ (by show 512 * t.val + (1 + q.val) = 512 * t.val + q.val + 1; omega) k,
      col64_in XW2 k _ (by omega)]
  -- the left term
  have hL : k0_pay23 (F := Ideal) v133 (k0_pay10 (BitVec.ofNat 32 t.val)) (k0_pay11 (BitVec.ofNat 32 t.val)) k0_pay12 bg1 wg2 (ix2 q k)
      = if 0 < 512 * t.val + q.val then
          (RefGcn.dv (512 * t.val + q.val - 1) * RefGcn.dv (512 * t.val + q.val)) * RefGcn.col64 XW2 k (512 * t.val + q.val - 1)
        else 0 := by
    rw [pay23_at, pay17_at' _ ⟨1 + q.val, by omega⟩ ⟨q.val + 7, by omega⟩ ⟨q.val + 8, by omega⟩
        (by show q.val + 7 = 6 + (1 + q.val); omega) (by show q.val + 8 = 7 + (1 + q.val); omega), hself, hnode]
    by_cases h : 0 < 512 * t.val + q.val
    · rw [if_pos h, if_pos (by exact_mod_cast h), mul_one,
        dinv_row t ⟨q.val + 7, by omega⟩ (512 * t.val + q.val - 1) (by show 512 * t.val + (q.val + 7) = _; omega),
        hxw ⟨0 + q.val, by omega⟩ ⟨512 * t.val + q.val - 1, by omega⟩ (by show 512 * t.val + (0 + q.val) = 512 * t.val + q.val - 1 + 1; omega) k,
        col64_in XW2 k _ (by omega)]
    · rw [if_neg h, if_neg (by exact_mod_cast h), mul_zero, zero_mul]
  -- the right term
  have hR : k0_pay20 (F := Ideal) (k0_pay10 (BitVec.ofNat 32 t.val)) (k0_pay11 (BitVec.ofNat 32 t.val)) k0_pay12 (ix2 q (0 : Fin 1))
        * k0_pay21 (F := Ideal) v133 (k0_pay10 (BitVec.ofNat 32 t.val)) (k0_pay11 (BitVec.ofNat 32 t.val)) k0_pay12 bg1 wg2 (ix2 q k)
      = if 512 * t.val + q.val < 131071 then
          (RefGcn.dv (512 * t.val + q.val) * RefGcn.dv (512 * t.val + q.val + 1)) * RefGcn.col64 XW2 k (512 * t.val + q.val + 1)
        else 0 := by
    rw [pay20_at, pay21_at, pay18_at' _ ⟨1 + q.val, by omega⟩ ⟨q.val + 8, by omega⟩ ⟨q.val + 9, by omega⟩
        (by show q.val + 8 = 7 + (1 + q.val); omega) (by show q.val + 9 = 8 + (1 + q.val); omega), hself, hnode]
    by_cases h : 512 * t.val + q.val < 131071
    · rw [if_pos h, if_pos (by exact_mod_cast h), mul_one,
        dinv_row t ⟨q.val + 9, by omega⟩ (512 * t.val + q.val + 1) (by show 512 * t.val + (q.val + 9) = _; omega),
        hxw ⟨2 + q.val, by omega⟩ ⟨512 * t.val + q.val + 1, by omega⟩ (by show 512 * t.val + (2 + q.val) = 512 * t.val + q.val + 1 + 1; omega) k,
        col64_in XW2 k _ (by omega)]
    · rw [if_neg h, if_neg (by exact_mod_cast h), mul_zero, zero_mul]
  unfold RefGcn.stencil
  rw [hS, hL, hR]

end Core

/-- Row q of the tile's output is row 512·t + q of the reference's, given that the tile's second transformed features
    agree with `XW2` on the rows in the array. -/
theorem out_row (t : Fin 256) (v133 : FVec Ideal S528x128 .f32) (XW2 : Vec Ideal Cert.ReferenceIdeal.S131072x64 .f32)
    (bg1 : Vec Ideal S128 .f32) (wg2 : Vec Ideal S128x64 .f32) (bg2 : Vec Ideal S64 .f32) (wfc : Vec Ideal S64x10 .f32) (bfc : Vec Ideal S10 .f32)
    (hxw : ∀ (p : Fin 514) (r : Fin 131072), 512 * t.val + p.val = r.val + 1 →
      ∀ j : Fin 64, Tile.xw2 (BitVec.ofNat 32 t.val) v133 bg1 wg2 (ix2 p j) = XW2 (ix2 r j))
    (q : Fin 512) (j : Fin 10) :
    Tile.out (BitVec.ofNat 32 t.val) v133 bg1 wg2 bg2 wfc bfc (ix2 q j)
      = Cert.ReferenceIdeal.RefT.fc (Cert.ReferenceIdeal.RefT.gcn64 XW2 bg2) wfc bfc (ix2 (⟨512 * t.val + q.val, by omega⟩ : Fin 131072) j) := by
  have hq := q.isLt
  have ht := t.isLt
  have hd : Cert.ReferenceIdeal.dot_S131072x64_S64x10_S131072x10_1_0_0_1_n_n
      = (⟨[1], [0], [0], [1], [], [], Cert.ReferenceIdeal.dot_S131072x64_S64x10_S131072x10_1_0_0_1_n_n.wf⟩ :
          DotDims Cert.ReferenceIdeal.S131072x64 Cert.ReferenceIdeal.S64x10 Cert.ReferenceIdeal.S131072x10) := rfl
  rw [out_at]
  unfold Cert.ReferenceIdeal.RefT.fc
  rw [addf_apply, hd]
  refine congrArg₂ (· + ·)
    (Eq.trans (Finset.sum_congr rfl fun k _ => ?_) (dotGeneral2_apply _ none .single _ _ _ j).symm)
    (bcastInDim_row bfc _ _ _ j).symm
  rw [RefGcn.gcn64_apply]
  exact congrArg₂ (· * ·) (g2_at t v133 XW2 bg1 wg2 bg2 hxw q k) rfl

end Cert.Proof.StageD

end
-- ==== Proof.TileValue.lean ====
/-
  One grid point's stored block is the reference's output on the point's 512 rows.

  If the 528 extended input rows of point t hold the input array's rows 512·t − 8 … 512·t + 519 wherever those lie in
  the array, then: both recurrent layers and the first feature transform agree with the reference row by row (they
  are row-local); so the first graph convolution and second feature transform agree on every node of the 514 middle
  rows that lies in the array; so the second convolution and the final layer agree on the point's own 512 rows, which
  always lie in the array.  Rows that stand for no node only ever enter with the factor 0.
-/
import proofs.«114131_j67370857005464_1_alg».proof.Proof.StageA
import proofs.«114131_j67370857005464_1_alg».proof.Proof.StageB
import proofs.«114131_j67370857005464_1_alg».proof.Proof.StageC
import proofs.«114131_j67370857005464_1_alg».proof.Proof.StageD

noncomputable section

namespace Cert.Proof.TileValue

open Idealize.ShloMosaic Idealize.ShloMosaic.ValueIdx Cert.KernelIdeal Cert.KernelIdeal.Gen

/-- The tile function at point `t` on blocks that hold the input array's rows is the reference on rows
    512·t … 512·t + 511. -/
theorem tile_eq (t : Fin 256) (xm : Vec Ideal S512x128 .f32) (xp xn : Vec Ideal S8x128 .f32) (X : Vec Ideal S131072x128 .f32)
    (wf1 : Vec Ideal S384x128 .f32) (uf1 hf1 : Vec Ideal S384 .f32) (wb1 : Vec Ideal S384x128 .f32) (ub1 hb1 : Vec Ideal S384 .f32) (wf2 : Vec Ideal S384x256 .f32) (uf2 hf2 : Vec Ideal S384 .f32) (wb2 : Vec Ideal S384x256 .f32) (ub2 hb2 : Vec Ideal S384 .f32) (wg1 : Vec Ideal S256x128 .f32) (bg1 : Vec Ideal S128 .f32) (wg2 : Vec Ideal S128x64 .f32) (bg2 : Vec Ideal S64 .f32) (wfc : Vec Ideal S64x10 .f32) (bfc : Vec Ideal S10 .f32)
    (hx : ∀ (e : Fin 528) (r : Fin 131072), 512 * t.val + e.val = r.val + 8 → ∀ k : Fin 128, Tile.ext xp xm xn (ix2 e k) = X (ix2 r k))
    (q : Fin 512) (j : Fin 10) :
    Tile.tile (BitVec.ofNat 32 t.val) xm xp xn wf1 uf1 hf1 wb1 ub1 hb1 wf2 uf2 hf2 wb2 ub2 hb2 wg1 bg1 wg2 bg2 wfc bfc (ix2 q j)
      = Cert.ReferenceIdeal.RefT.whole X wf1 uf1 hf1 wb1 ub1 hb1 wf2 uf2 hf2 wb2 ub2 hb2 wg1 bg1 wg2 bg2 wfc bfc (ix2 (⟨512 * t.val + q.val, by omega⟩ : Fin 131072) j) := by
  unfold Tile.tile Cert.ReferenceIdeal.RefT.whole
  refine Cert.Proof.StageD.out_row t _ (Cert.ReferenceIdeal.RefT.xw2 (Cert.ReferenceIdeal.RefT.gcn128 (Cert.ReferenceIdeal.RefT.xw1 (Cert.ReferenceIdeal.RefT.layer2 (Cert.ReferenceIdeal.RefT.layer1 X wf1 uf1 hf1 wb1 ub1 hb1) wf2 uf2 hf2 wb2 ub2 hb2) wg1) bg1) wg2)
    bg1 wg2 bg2 wfc bfc ?_ q j
  intro p r hpr j2
  refine Cert.Proof.StageC.xw2_row t _ (Cert.ReferenceIdeal.RefT.xw1 (Cert.ReferenceIdeal.RefT.layer2 (Cert.ReferenceIdeal.RefT.layer1 X wf1 uf1 hf1 wb1 ub1 hb1) wf2 uf2 hf2 wb2 ub2 hb2) wg1) bg1 wg2 ?_ p r hpr j2
  intro e r2 he j1
  refine Cert.Proof.StageB.xw1_row _ _ hb1 (Cert.ReferenceIdeal.RefT.layer1 X wf1 uf1 hf1 wb1 ub1 hb1) wf2 uf2 hf2 wb2 ub2 hb2 wg1 e r2 ?_ j1
  intro j0
  exact Cert.Proof.StageA.layer1_row xp xm xn X wf1 uf1 hf1 wb1 ub1 hb1 e r2 (hx e r2 he) j0

end Cert.Proof.TileValue

end
-- ==== Proof.ExtRows.lean ====
/-
  The 528 extended rows of a grid point, read row by row: rows 0 … 7 are the 8 rows before, rows 8 … 519 the
  point's 512 rows, rows 520 … 527 the 8 rows after (a concatenation along the row axis).
-/
import proofs.«114131_j67370857005464_1_alg».proof.Proof.Tile
import Idealize.ShloMosaic.Lib.ValueIdx
import Idealize.ShloMosaic.Lib.Pipeline.Value

noncomputable section

namespace Cert.Proof.ExtRows

open Idealize.ShloMosaic Idealize.ShloMosaic.ValueIdx Cert.KernelIdeal Cert.KernelIdeal.Gen

variable {F : FTy → Type} [FloatOps F]

/-- An extended row below 8 is a row of the block before. -/
theorem ext_prev (xp : Vec F S8x128 .f32) (xm : Vec F S512x128 .f32) (xn : Vec F S8x128 .f32) (e : Fin 528) (k : Fin 128)
    (h : e.val < 8) : Tile.ext xp xm xn (ix2 e k) = xp (ix2 (⟨e.val, h⟩ : Fin 8) k) := by
  unfold Tile.ext k0_pay2
  refine concatenate_apply_piece (t := S528x128) (0 : Fin 2) [⟨S8x128, xp⟩, ⟨S512x128, xm⟩, ⟨S8x128, xn⟩] concatenates_S8x128_S512x128_S8x128_S528x128_d0 (ix2 e k) 0 (by simp) S8x128 xp rfl rfl 0 rfl (ix2 (⟨e.val, h⟩ : Fin 8) k) ?_ ?_
  · intro b hb
    match b with
    | ⟨0, _⟩ => exact absurd rfl hb
    | ⟨1, _⟩ => rfl
  · show 0 + e.val = e.val; omega

/-- An extended row from 8 to 519 is a row of the point's own block. -/
theorem ext_main (xp : Vec F S8x128 .f32) (xm : Vec F S512x128 .f32) (xn : Vec F S8x128 .f32) (e : Fin 528) (k : Fin 128)
    (h1 : 8 ≤ e.val) (h2 : e.val < 520) : Tile.ext xp xm xn (ix2 e k) = xm (ix2 (⟨e.val - 8, by omega⟩ : Fin 512) k) := by
  unfold Tile.ext k0_pay2
  refine concatenate_apply_piece (t := S528x128) (0 : Fin 2) [⟨S8x128, xp⟩, ⟨S512x128, xm⟩, ⟨S8x128, xn⟩] concatenates_S8x128_S512x128_S8x128_S528x128_d0 (ix2 e k) 1 (by simp) S512x128 xm rfl rfl 8 rfl (ix2 (⟨e.val - 8, by omega⟩ : Fin 512) k) ?_ ?_
  · intro b hb
    match b with
    | ⟨0, _⟩ => exact absurd rfl hb
    | ⟨1, _⟩ => rfl
  · show 8 + (e.val - 8) = e.val; omega

/-- An extended row from 520 on is a row of the block after. -/
theorem ext_next (xp : Vec F S8x128 .f32) (xm : Vec F S512x128 .f32) (xn : Vec F S8x128 .f32) (e : Fin 528) (k : Fin 128)
    (h : 520 ≤ e.val) : Tile.ext xp xm xn (ix2 e k) = xn (ix2 (⟨e.val - 520, by have := e.isLt; omega⟩ : Fin 8) k) := by
  unfold Tile.ext k0_pay2
  refine concatenate_apply_piece (t := S528x128) (0 : Fin 2) [⟨S8x128, xp⟩, ⟨S512x128, xm⟩, ⟨S8x128, xn⟩] concatenates_S8x128_S512x128_S8x128_S528x128_d0 (ix2 e k) 2 (by simp) S8x128 xn rfl rfl 520 rfl (ix2 (⟨e.val - 520, by have := e.isLt; omega⟩ : Fin 8) k) ?_ ?_
  · intro b hb
    match b with
    | ⟨0, _⟩ => exact absurd rfl hb
    | ⟨1, _⟩ => rfl
  · show 520 + (e.val - 520) = e.val; omega

end Cert.Proof.ExtRows

end
-- ==== Proof.Cover.lean ====
/-
  The kernel program's result array, read off its run: it is the reference function of the argument arrays.

  Grid point t stages rows 512·t … 512·t + 511 of the input (block t of 512 rows), the 8 rows before (block
  max(64·t − 1, 0) of 8 rows) and the 8 rows after (block min(64·(t + 1), 16383)); every weight and bias window is its
  whole array at every point; the output window's block t is rows 512·t … 512·t + 511 of the result.  So the 528
  extended rows of point t hold the input's rows 512·t − 8 + e wherever that row exists — the clamped blocks at the
  two ends of the grid hold other rows, but only where no row exists —, the tile's stored block is the reference's
  output on the point's rows, and the 256 output blocks tile the result array.
-/
import proofs.«114131_j67370857005464_1_alg».proof.Proof.KFrame
import proofs.«114131_j67370857005464_1_alg».proof.Proof.TileValue
import proofs.«114131_j67370857005464_1_alg».proof.Proof.ExtRows

set_option maxRecDepth 16384

noncomputable section

namespace Cert.KernelIdeal.KValue

open Cert.KernelIdeal Cert.KernelIdeal.Gen Cert.KernelIdeal.KF
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-! ## The index maps over the grid -/

/-- The moving windows' block indices at point `t`, and the grid coordinate. -/
theorem idx_facts : ∀ t : Fin cfg0.N,
    win0_21.index t (0 : Fin 2) = t.val ∧ win0_21.index t (1 : Fin 2) = 0
    ∧ win0_0.index t (0 : Fin 2) = t.val ∧ win0_0.index t (1 : Fin 2) = 0
    ∧ win0_1.index t (0 : Fin 2) = 64 * t.val - 1 ∧ win0_1.index t (1 : Fin 2) = 0
    ∧ win0_2.index t (0 : Fin 2) = min (64 * (t.val + 1)) 16383 ∧ win0_2.index t (1 : Fin 2) = 0
    ∧ ((grid0.coords t) 0).val = t.val :=
  (by decide +kernel : ∀ t : Fin grid0.N, _)

theorem idxW3 : ∀ t : Fin cfg0.N, win0_3.index t (0 : Fin 2) = 0 ∧ win0_3.index t (1 : Fin 2) = 0 :=
  (by decide +kernel : ∀ t : Fin grid0.N, _)

/-- Window 3's block is its whole array at every point. -/
theorem iblk3 (c : Dev nD) (t : Fin cfg0.N) : iblk m c 3 t = V m c main_arg1 := by
  funext y
  show V m c main_arg1 (((cfg0.win 3).blk t).view.emb y) = V m c main_arg1 y
  congr 1
  funext a; apply Fin.ext
  obtain ⟨h0, h1⟩ := idxW3 t
  match a with
    | ⟨0, _⟩ => show win0_3.index t (0 : Fin 2) * 384 + 1 * (y 0).val = (y 0).val; omega
    | ⟨1, _⟩ => show win0_3.index t (1 : Fin 2) * 128 + 1 * (y 1).val = (y 1).val; omega

theorem idxW4 : ∀ t : Fin cfg0.N, win0_4.index t (0 : Fin 1) = 0 :=
  (by decide +kernel : ∀ t : Fin grid0.N, _)

/-- Window 4's block is its whole array at every point. -/
theorem iblk4 (c : Dev nD) (t : Fin cfg0.N) : iblk m c 4 t = V m c main_arg2 := by
  funext y
  show V m c main_arg2 (((cfg0.win 4).blk t).view.emb y) = V m c main_arg2 y
  congr 1
  funext a; apply Fin.ext
  have h0 := idxW4 t
  match a with
    | ⟨0, _⟩ => show win0_4.index t (0 : Fin 1) * 384 + 1 * (y 0).val = (y 0).val; omega

theorem idxW5 : ∀ t : Fin cfg0.N, win0_5.index t (0 : Fin 1) = 0 :=
  (by decide +kernel : ∀ t : Fin grid0.N, _)

/-- Window 5's block is its whole array at every point. -/
theorem iblk5 (c : Dev nD) (t : Fin cfg0.N) : iblk m c 5 t = V m c main_arg3 := by
  funext y
  show V m c main_arg3 (((cfg0.win 5).blk t).view.emb y) = V m c main_arg3 y
  congr 1
  funext a; apply Fin.ext
  have h0 := idxW5 t
  match a with
    | ⟨0, _⟩ => show win0_5.index t (0 : Fin 1) * 384 + 1 * (y 0).val = (y 0).val; omega

theorem idxW6 : ∀ t : Fin cfg0.N, win0_6.index t (0 : Fin 2) = 0 ∧ win0_6.index t (1 : Fin 2) = 0 :=
  (by decide +kernel : ∀ t : Fin grid0.N, _)

/-- Window 6's block is its whole array at every point. -/
theorem iblk6 (c : Dev nD) (t : Fin cfg0.N) : iblk m c 6 t = V m c main_arg4 := by
  funext y
  show V m c main_arg4 (((cfg0.win 6).blk t).view.emb y) = V m c main_arg4 y
  congr 1
  funext a; apply Fin.ext
  obtain ⟨h0, h1⟩ := idxW6 t
  match a with
    | ⟨0, _⟩ => show win0_6.index t (0 : Fin 2) * 384 + 1 * (y 0).val = (y 0).val; omega
    | ⟨1, _⟩ => show win0_6.index t (1 : Fin 2) * 128 + 1 * (y 1).val = (y 1).val; omega

theorem idxW7 : ∀ t : Fin cfg0.N, win0_7.index t (0 : Fin 1) = 0 :=
  (by decide +kernel : ∀ t : Fin grid0.N, _)

/-- Window 7's block is its whole array at every point. -/
theorem iblk7 (c : Dev nD) (t : Fin cfg0.N) : iblk m c 7 t = V m c main_arg5 := by
  funext y
  show V m c main_arg5 (((cfg0.win 7).blk t).view.emb y) = V m c main_arg5 y
  congr 1
  funext a; apply Fin.ext
  have h0 := idxW7 t
  match a with
    | ⟨0, _⟩ => show win0_7.index t (0 : Fin 1) * 384 + 1 * (y 0).val = (y 0).val; omega

theorem idxW8 : ∀ t : Fin cfg0.N, win0_8.index t (0 : Fin 1) = 0 :=
  (by decide +kernel : ∀ t : Fin grid0.N, _)

/-- Window 8's block is its whole array at every point. -/
theorem iblk8 (c : Dev nD) (t : Fin cfg0.N) : iblk m c 8 t = V m c main_arg6 := by
  funext y
  show V m c main_arg6 (((cfg0.win 8).blk t).view.emb y) = V m c main_arg6 y
  congr 1
  funext a; apply Fin.ext
  have h0 := idxW8 t
  match a with
    | ⟨0, _⟩ => show win0_8.index t (0 : Fin 1) * 384 + 1 * (y 0).val = (y 0).val; omega

theorem idxW9 : ∀ t : Fin cfg0.N, win0_9.index t (0 : Fin 2) = 0 ∧ win0_9.index t (1 : Fin 2) = 0 :=
  (by decide +kernel : ∀ t : Fin grid0.N, _)

/-- Window 9's block is its whole array at every point. -/
theorem iblk9 (c : Dev nD) (t : Fin cfg0.N) : iblk m c 9 t = V m c main_arg7 := by
  funext y
  show V m c main_arg7 (((cfg0.win 9).blk t).view.emb y) = V m c main_arg7 y
  congr 1
  funext a; apply Fin.ext
  obtain ⟨h0, h1⟩ := idxW9 t
  match a with
    | ⟨0, _⟩ => show win0_9.index t (0 : Fin 2) * 384 + 1 * (y 0).val = (y 0).val; omega
    | ⟨1, _⟩ => show win0_9.index t (1 : Fin 2) * 256 + 1 * (y 1).val = (y 1).val; omega

theorem idxW10 : ∀ t : Fin cfg0.N, win0_10.index t (0 : Fin 1) = 0 :=
  (by decide +kernel : ∀ t : Fin grid0.N, _)

/-- Window 10's block is its whole array at every point. -/
theorem iblk10 (c : Dev nD) (t : Fin cfg0.N) : iblk m c 10 t = V m c main_arg8 := by
  funext y
  show V m c main_arg8 (((cfg0.win 10).blk t).view.emb y) = V m c main_arg8 y
  congr 1
  funext a; apply Fin.ext
  have h0 := idxW10 t
  match a with
    | ⟨0, _⟩ => show win0_10.index t (0 : Fin 1) * 384 + 1 * (y 0).val = (y 0).val; omega

theorem idxW11 : ∀ t : Fin cfg0.N, win0_11.index t (0 : Fin 1) = 0 :=
  (by decide +kernel : ∀ t : Fin grid0.N, _)

/-- Window 11's block is its whole array at every point. -/
theorem iblk11 (c : Dev nD) (t : Fin cfg0.N) : iblk m c 11 t = V m c main_arg9 := by
  funext y
  show V m c main_arg9 (((cfg0.win 11).blk t).view.emb y) = V m c main_arg9 y
  congr 1
  funext a; apply Fin.ext
  have h0 := idxW11 t
  match a with
    | ⟨0, _⟩ => show win0_11.index t (0 : Fin 1) * 384 + 1 * (y 0).val = (y 0).val; omega

theorem idxW12 : ∀ t : Fin cfg0.N, win0_12.index t (0 : Fin 2) = 0 ∧ win0_12.index t (1 : Fin 2) = 0 :=
  (by decide +kernel : ∀ t : Fin grid0.N, _)

/-- Window 12's block is its whole array at every point. -/
theorem iblk12 (c : Dev nD) (t : Fin cfg0.N) : iblk m c 12 t = V m c main_arg10 := by
  funext y
  show V m c main_arg10 (((cfg0.win 12).blk t).view.emb y) = V m c main_arg10 y
  congr 1
  funext a; apply Fin.ext
  obtain ⟨h0, h1⟩ := idxW12 t
  match a with
    | ⟨0, _⟩ => show win0_12.index t (0 : Fin 2) * 384 + 1 * (y 0).val = (y 0).val; omega
    | ⟨1, _⟩ => show win0_12.index t (1 : Fin 2) * 256 + 1 * (y 1).val = (y 1).val; omega

theorem idxW13 : ∀ t : Fin cfg0.N, win0_13.index t (0 : Fin 1) = 0 :=
  (by decide +kernel : ∀ t : Fin grid0.N, _)

/-- Window 13's block is its whole array at every point. -/
theorem iblk13 (c : Dev nD) (t : Fin cfg0.N) : iblk m c 13 t = V m c main_arg11 := by
  funext y
  show V m c main_arg11 (((cfg0.win 13).blk t).view.emb y) = V m c main_arg11 y
  congr 1
  funext a; apply Fin.ext
  have h0 := idxW13 t
  match a with
    | ⟨0, _⟩ => show win0_13.index t (0 : Fin 1) * 384 + 1 * (y 0).val = (y 0).val; omega

theorem idxW14 : ∀ t : Fin cfg0.N, win0_14.index t (0 : Fin 1) = 0 :=
  (by decide +kernel : ∀ t : Fin grid0.N, _)

/-- Window 14's block is its whole array at every point. -/
theorem iblk14 (c : Dev nD) (t : Fin cfg0.N) : iblk m c 14 t = V m c main_arg12 := by
  funext y
  show V m c main_arg12 (((cfg0.win 14).blk t).view.emb y) = V m c main_arg12 y
  congr 1
  funext a; apply Fin.ext
  have h0 := idxW14 t
  match a with
    | ⟨0, _⟩ => show win0_14.index t (0 : Fin 1) * 384 + 1 * (y 0).val = (y 0).val; omega

theorem idxW15 : ∀ t : Fin cfg0.N, win0_15.index t (0 : Fin 2) = 0 ∧ win0_15.index t (1 : Fin 2) = 0 :=
  (by decide +kernel : ∀ t : Fin grid0.N, _)

/-- Window 15's block is its whole array at every point. -/
theorem iblk15 (c : Dev nD) (t : Fin cfg0.N) : iblk m c 15 t = V m c main_arg13 := by
  funext y
  show V m c main_arg13 (((cfg0.win 15).blk t).view.emb y) = V m c main_arg13 y
  congr 1
  funext a; apply Fin.ext
  obtain ⟨h0, h1⟩ := idxW15 t
  match a with
    | ⟨0, _⟩ => show win0_15.index t (0 : Fin 2) * 256 + 1 * (y 0).val = (y 0).val; omega
    | ⟨1, _⟩ => show win0_15.index t (1 : Fin 2) * 128 + 1 * (y 1).val = (y 1).val; omega

theorem idxW16 : ∀ t : Fin cfg0.N, win0_16.index t (0 : Fin 1) = 0 :=
  (by decide +kernel : ∀ t : Fin grid0.N, _)

/-- Window 16's block is its whole array at every point. -/
theorem iblk16 (c : Dev nD) (t : Fin cfg0.N) : iblk m c 16 t = V m c main_arg14 := by
  funext y
  show V m c main_arg14 (((cfg0.win 16).blk t).view.emb y) = V m c main_arg14 y
  congr 1
  funext a; apply Fin.ext
  have h0 := idxW16 t
  match a with
    | ⟨0, _⟩ => show win0_16.index t (0 : Fin 1) * 128 + 1 * (y 0).val = (y 0).val; omega

theorem idxW17 : ∀ t : Fin cfg0.N, win0_17.index t (0 : Fin 2) = 0 ∧ win0_17.index t (1 : Fin 2) = 0 :=
  (by decide +kernel : ∀ t : Fin grid0.N, _)

/-- Window 17's block is its whole array at every point. -/
theorem iblk17 (c : Dev nD) (t : Fin cfg0.N) : iblk m c 17 t = V m c main_arg15 := by
  funext y
  show V m c main_arg15 (((cfg0.win 17).blk t).view.emb y) = V m c main_arg15 y
  congr 1
  funext a; apply Fin.ext
  obtain ⟨h0, h1⟩ := idxW17 t
  match a with
    | ⟨0, _⟩ => show win0_17.index t (0 : Fin 2) * 128 + 1 * (y 0).val = (y 0).val; omega
    | ⟨1, _⟩ => show win0_17.index t (1 : Fin 2) * 64 + 1 * (y 1).val = (y 1).val; omega

theorem idxW18 : ∀ t : Fin cfg0.N, win0_18.index t (0 : Fin 1) = 0 :=
  (by decide +kernel : ∀ t : Fin grid0.N, _)

/-- Window 18's block is its whole array at every point. -/
theorem iblk18 (c : Dev nD) (t : Fin cfg0.N) : iblk m c 18 t = V m c main_arg16 := by
  funext y
  show V m c main_arg16 (((cfg0.win 18).blk t).view.emb y) = V m c main_arg16 y
  congr 1
  funext a; apply Fin.ext
  have h0 := idxW18 t
  match a with
    | ⟨0, _⟩ => show win0_18.index t (0 : Fin 1) * 64 + 1 * (y 0).val = (y 0).val; omega

theorem idxW19 : ∀ t : Fin cfg0.N, win0_19.index t (0 : Fin 2) = 0 ∧ win0_19.index t (1 : Fin 2) = 0 :=
  (by decide +kernel : ∀ t : Fin grid0.N, _)

/-- Window 19's block is its whole array at every point. -/
theorem iblk19 (c : Dev nD) (t : Fin cfg0.N) : iblk m c 19 t = V m c main_arg17 := by
  funext y
  show V m c main_arg17 (((cfg0.win 19).blk t).view.emb y) = V m c main_arg17 y
  congr 1
  funext a; apply Fin.ext
  obtain ⟨h0, h1⟩ := idxW19 t
  match a with
    | ⟨0, _⟩ => show win0_19.index t (0 : Fin 2) * 64 + 1 * (y 0).val = (y 0).val; omega
    | ⟨1, _⟩ => show win0_19.index t (1 : Fin 2) * 10 + 1 * (y 1).val = (y 1).val; omega

theorem idxW20 : ∀ t : Fin cfg0.N, win0_20.index t (0 : Fin 1) = 0 :=
  (by decide +kernel : ∀ t : Fin grid0.N, _)

/-- Window 20's block is its whole array at every point. -/
theorem iblk20 (c : Dev nD) (t : Fin cfg0.N) : iblk m c 20 t = V m c main_arg18 := by
  funext y
  show V m c main_arg18 (((cfg0.win 20).blk t).view.emb y) = V m c main_arg18 y
  congr 1
  funext a; apply Fin.ext
  have h0 := idxW20 t
  match a with
    | ⟨0, _⟩ => show win0_20.index t (0 : Fin 1) * 10 + 1 * (y 0).val = (y 0).val; omega

/-! ## The extended rows of a point are the input's rows -/

/-- The reference function of the argument arrays as the region finds them. -/
abbrev G (c : Dev nD) : S131072x10.Idx → Elt Ideal .f32 :=
  Cert.ReferenceIdeal.RefT.whole (V m c main_arg0) (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18)

/-- Extended row e of point t is row 512·t + e − 8 of the input array, wherever that row exists. -/
theorem ext_rows (c : Dev nD) (t : Fin cfg0.N) (e : Fin 528) (r : Fin 131072) (he : 512 * t.val + e.val = r.val + 8) (k : Fin 128) :
    Tile.ext (iblk m c 1 t) (iblk m c 0 t) (iblk m c 2 t) (ix2 e k) = V m c main_arg0 (ix2 r k) := by
  have ht : t.val < 256 := N_0 ▸ t.isLt
  have hr : r.val < 131072 := r.isLt
  have hk : k.val < 128 := k.isLt
  obtain ⟨e0, e1, e2, e3, e4, e5, e6, e7, e8⟩ := idx_facts t
  by_cases h1 : e.val < 8
  · rw [Cert.Proof.ExtRows.ext_prev _ _ _ e k h1]
    show V m c main_arg0 (((cfg0.win 1).blk t).view.emb (ix2 (⟨e.val, h1⟩ : Fin 8) k)) = V m c main_arg0 (ix2 r k)
    congr 1
    funext a; apply Fin.ext
    match a with
    | ⟨0, _⟩ => show win0_1.index t (0 : Fin 2) * 8 + 1 * e.val = r.val; rw [e4]; omega
    | ⟨1, _⟩ => show win0_1.index t (1 : Fin 2) * 128 + 1 * k.val = k.val; rw [e5]; omega
  · by_cases h2 : e.val < 520
    · rw [Cert.Proof.ExtRows.ext_main _ _ _ e k (by omega) h2]
      show V m c main_arg0 (((cfg0.win 0).blk t).view.emb (ix2 (⟨e.val - 8, by omega⟩ : Fin 512) k)) = V m c main_arg0 (ix2 r k)
      congr 1
      funext a; apply Fin.ext
      match a with
      | ⟨0, _⟩ => show win0_0.index t (0 : Fin 2) * 512 + 1 * (e.val - 8) = r.val; rw [e2]; omega
      | ⟨1, _⟩ => show win0_0.index t (1 : Fin 2) * 128 + 1 * k.val = k.val; rw [e3]; omega
    · have he' : e.val < 528 := e.isLt
      rw [Cert.Proof.ExtRows.ext_next _ _ _ e k (by omega)]
      show V m c main_arg0 (((cfg0.win 2).blk t).view.emb (ix2 (⟨e.val - 520, by omega⟩ : Fin 8) k)) = V m c main_arg0 (ix2 r k)
      congr 1
      funext a; apply Fin.ext
      match a with
      | ⟨0, _⟩ => show win0_2.index t (0 : Fin 2) * 8 + 1 * (e.val - 520) = r.val; rw [e6]; omega
      | ⟨1, _⟩ => show win0_2.index t (1 : Fin 2) * 128 + 1 * k.val = k.val; rw [e7]; omega

/-! ## What a point writes back, and the cover -/

/-- What point `t` writes back is block `t` of the reference function of the argument arrays. -/
theorem flushed21_eq (c : Dev nD) (t : Fin cfg0.N) :
    (dats m 0 c).flushed 21 t = ((cfg0.win 21).blk t).view.read (Elt Ideal) (G m c) := by
  show (cfg0.win 21).cut (grid0.coords t) ((dats m 0 c).after 21 t) = _
  rw [after0_21]
  have ht : t.val < 256 := N_0 ▸ t.isLt
  obtain ⟨e0, e1, e2, e3, e4, e5, e6, e7, e8⟩ := idx_facts t
  rw [iblk3 m c t, iblk4 m c t, iblk5 m c t, iblk6 m c t, iblk7 m c t, iblk8 m c t, iblk9 m c t, iblk10 m c t, iblk11 m c t, iblk12 m c t, iblk13 m c t, iblk14 m c t, iblk15 m c t, iblk16 m c t, iblk17 m c t, iblk18 m c t, iblk19 m c t, iblk20 m c t, e8]
  funext y
  have hy0 : (y 0).val < 512 := (y 0).isLt
  have hy1 : (y 1).val < 10 := (y 1).isLt
  obtain ⟨q, j, rfl⟩ : ∃ (q : Fin 512) (j : Fin 10), y = ix2 q j := ⟨y 0, y 1, eq_ix2 y⟩
  refine (Cert.Proof.TileValue.tile_eq ⟨t.val, ht⟩ (iblk m c 0 t) (iblk m c 1 t) (iblk m c 2 t) (V m c main_arg0)
    (V m c main_arg1) (V m c main_arg2) (V m c main_arg3) (V m c main_arg4) (V m c main_arg5) (V m c main_arg6) (V m c main_arg7) (V m c main_arg8) (V m c main_arg9) (V m c main_arg10) (V m c main_arg11) (V m c main_arg12) (V m c main_arg13) (V m c main_arg14) (V m c main_arg15) (V m c main_arg16) (V m c main_arg17) (V m c main_arg18) (fun e r he k => ext_rows m c t e r he k) q j).trans ?_
  show G m c (ix2 (⟨512 * t.val + q.val, by omega⟩ : Fin 131072) j) = G m c (((cfg0.win 21).blk t).view.emb (ix2 q j))
  congr 1
  funext a; apply Fin.ext
  match a with
  | ⟨0, _⟩ => show 512 * t.val + q.val = win0_21.index t (0 : Fin 2) * 512 + 1 * q.val; rw [e0]; omega
  | ⟨1, _⟩ => show j.val = win0_21.index t (1 : Fin 2) * 10 + 1 * j.val; rw [e1]; omega

/-- An index of the result array is in point `t`'s block iff its row is among the point's 512 rows. -/
theorem mem_blk21 (t : Fin cfg0.N) (i : S131072x10.Idx) :
    i ∈ ((cfg0.win 21).blk t).view.set ↔ ∀ a : Fin 2, win0_21.index t a * S512x10.size a ≤ (i a).val ∧ (i a).val < win0_21.index t a * S512x10.size a + S512x10.size a := by
  show i ∈ ((View.whole main_v0).slice (win0_21.rect t)).set ↔ _
  rw [View.set_slice_whole, Rect.mem_set_unit]
  exact Iff.rfl

/-- Every index of the result array is in some point's block: the point of row r is r / 512. -/
theorem cover21 (i : S131072x10.Idx) : ∃ t : Fin cfg0.N, (cfg0.win 21).flush t = true ∧ i ∈ ((cfg0.win 21).blk t).view.set := by
  have hi0 : (i 0).val < 131072 := (i 0).isLt
  have hi1 : (i 1).val < 10 := (i 1).isLt
  have hN : cfg0.N = 256 := N_0
  refine ⟨⟨(i 0).val / 512, by rw [hN]; omega⟩, flush0_21 _, ?_⟩
  rw [mem_blk21]
  obtain ⟨e0, e1, -⟩ := idx_facts ⟨(i 0).val / 512, by rw [hN]; omega⟩
  intro a
  match a with
  | ⟨0, _⟩ => show win0_21.index _ (0 : Fin 2) * 512 ≤ (i 0).val ∧ (i 0).val < win0_21.index _ (0 : Fin 2) * 512 + 512; rw [e0]; dsimp only; omega
  | ⟨1, _⟩ => show win0_21.index _ (1 : Fin 2) * 10 ≤ (i 1).val ∧ (i 1).val < win0_21.index _ (1 : Fin 2) * 10 + 10; rw [e1]; omega

/-- The result array after the run is the reference function of the argument arrays. -/
theorem final21 (c : Dev nD) : (dats m 0 c).arrAt 21 cfg0.N = G m c :=
  (dats m 0 c).arrAt_eq_of_cover 21 (G m c) (fun t _ => flushed21_eq m c t) cover21

/-! ## The run, read -/

/-- Every weakly fair execution of the kernel program terminates; the result array ends at the reference function of
    the argument arrays, and the argument arrays end unchanged. -/
theorem run : θ_run defs (onTc (τ := τ) (main (F := Ideal))) ⟨m, fun _ => 0, ρ⟩ fun r => ∀ c : Dev nD,
      r.2.mem ((c : Thread nD τ).loc main_v0) = Cert.ReferenceIdeal.RefT.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18) :=
  (θ_run defs _ _).mono (fun r h c => ⟨(h c 21).trans (final21 m c),
      ((h c 0).trans (((dats m 0 c).arrAt_in 0 rfl _).trans (A_eq m c 0))),
      ((h c 3).trans (((dats m 0 c).arrAt_in 3 rfl _).trans (A_eq m c 3))),
      ((h c 4).trans (((dats m 0 c).arrAt_in 4 rfl _).trans (A_eq m c 4))),
      ((h c 5).trans (((dats m 0 c).arrAt_in 5 rfl _).trans (A_eq m c 5))),
      ((h c 6).trans (((dats m 0 c).arrAt_in 6 rfl _).trans (A_eq m c 6))),
      ((h c 7).trans (((dats m 0 c).arrAt_in 7 rfl _).trans (A_eq m c 7))),
      ((h c 8).trans (((dats m 0 c).arrAt_in 8 rfl _).trans (A_eq m c 8))),
      ((h c 9).trans (((dats m 0 c).arrAt_in 9 rfl _).trans (A_eq m c 9))),
      ((h c 10).trans (((dats m 0 c).arrAt_in 10 rfl _).trans (A_eq m c 10))),
      ((h c 11).trans (((dats m 0 c).arrAt_in 11 rfl _).trans (A_eq m c 11))),
      ((h c 12).trans (((dats m 0 c).arrAt_in 12 rfl _).trans (A_eq m c 12))),
      ((h c 13).trans (((dats m 0 c).arrAt_in 13 rfl _).trans (A_eq m c 13))),
      ((h c 14).trans (((dats m 0 c).arrAt_in 14 rfl _).trans (A_eq m c 14))),
      ((h c 15).trans (((dats m 0 c).arrAt_in 15 rfl _).trans (A_eq m c 15))),
      ((h c 16).trans (((dats m 0 c).arrAt_in 16 rfl _).trans (A_eq m c 16))),
      ((h c 17).trans (((dats m 0 c).arrAt_in 17 rfl _).trans (A_eq m c 17))),
      ((h c 18).trans (((dats m 0 c).arrAt_in 18 rfl _).trans (A_eq m c 18))),
      ((h c 19).trans (((dats m 0 c).arrAt_in 19 rfl _).trans (A_eq m c 19))),
      ((h c 20).trans (((dats m 0 c).arrAt_in 20 rfl _).trans (A_eq m c 20)))⟩)
    (run_main m ρ)

end Cert.KernelIdeal.KValue

end
-- ==== Proof.RefValue.lean ====
/-
  The reference program's run, with its result named: the result array ends at the whole reference function (two
  recurrent layers, two graph convolutions on the chain, the final linear layer) of the launched argument arrays, and
  the arguments end unchanged.  The run's own term and that function are the same composition of the same operations.
-/
import proofs.«114131_j67370857005464_1_alg».proof.Proof.Gen.ReferenceIdeal.Run
import proofs.«114131_j67370857005464_1_alg».proof.Proof.RefTerms

noncomputable section

namespace Cert.ReferenceIdeal.RefValue

open Cert.ReferenceIdeal Cert.ReferenceIdeal.Gen Cert.ReferenceIdeal.Value
open Idealize.ShloMosaic Idealize.ShloMosaic.TcCoe Idealize.SL.Sem Idealize.ShloMosaic.StableHlo

variable {F : FTy → Type} [FloatOps F]

set_option maxRecDepth 8192 in
/-- The reference's run: the result at the whole reference function of the launched arguments, the arguments kept. -/
theorem run_whole (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v234) = RefT.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun _ h c => ⟨(h c).1.trans (by
      simp only [RefT.whole, RefT.fc, RefT.gcn64, RefT.gcn128, RefT.xw1, RefT.xw2, RefT.layer1, RefT.layer2, RefT.pair, RefT.cell,
        RefT.gates1, RefT.gates2, RefT.edgeNorm, RefT.dinv, RefT.srcIdx, RefT.tgtIdx,
        res_main_v4, res_main_v41, res_main_v74, res_main_v79, res_main_v116, res_main_v150, res_main_v153, res_main_v154,
        res_main_v155, res_main_v156, res_main_v162, res_main_v187, res_main_v199]), (h c).2⟩)
    (Value.run (F := F) m ρ)

end Cert.ReferenceIdeal.RefValue

end
-- ==== Proof.lean ====
/-
  The kernel is a fused two-layer bidirectional recurrent network (sequences of length one, zero hidden state),
  two graph convolutions on the chain graph of 131072 nodes, and a final linear layer, computed tile by tile: each
  grid point handles 512 rows and reads 8 rows on either side, because each convolution needs a row's two neighbours.
  The reference computes the same network on the whole arrays, the convolutions as scatter-adds over an explicit edge
  list.

  On the extended reals the two programs compute the same function of their arguments:
    * the recurrent layers and the feature transforms are row-local, and per row both sides are the same sums and
      the same logistic, tanh and products (a change of float format is the identity; the kernel's logistic is the
      reference's 1 / (1 + e^(−v)));
    * in a convolution the kernel multiplies a missing neighbour's term by 0 where the reference has no edge, and
      (a · 0) · y = 0 for every extended real y, so rows the tile holds for nodes that do not exist never count;
      a node's degree is 3 inside the chain and 2 at its ends, the kernel by a comparison, the reference by a sum
      of ones; sums of extended reals commute and associate, so the order of the scatter does not matter;
    * the 256 output blocks tile the result array.
  No step needs the inputs to be finite.  The frames: the kernel program runs the body at every grid point through
  the pipeline (three of its windows read the one input array, whose ownership is split in three at the launch) and
  only ever writes the result array; the reference is a straight line of host operations.  The idealized kernel is
  the kernel's text at the extended reals with no rewrite applied, so there is nothing to preserve.
-/
import proofs.«114131_j67370857005464_1_alg».proof.Defs
import proofs.«114131_j67370857005464_1_alg».proof.Proof.Gen.Kernel
import proofs.«114131_j67370857005464_1_alg».proof.Proof.Gen.KernelIdeal
import proofs.«114131_j67370857005464_1_alg».proof.Proof.Gen.ReferenceIdeal
import proofs.«114131_j67370857005464_1_alg».proof.Proof.Gen.Pre_finite_inputs
import proofs.«114131_j67370857005464_1_alg».proof.Proof.KArgs
import proofs.«114131_j67370857005464_1_alg».proof.Proof.KArgsBits
import proofs.«114131_j67370857005464_1_alg».proof.Proof.RefFrame
import proofs.«114131_j67370857005464_1_alg».proof.Proof.Cover
import proofs.«114131_j67370857005464_1_alg».proof.Proof.RefValue

noncomputable section

namespace Cert.Proof

open Idealize.ShloMosaic Idealize.SL.Sem

/-- The word-level kernel program runs to the end without a fault and keeps its arguments. -/
theorem frame_kernel : Cert.frame_Kernel := fun m ρ _ => Cert.Kernel.KF.frame (F := Bits) m ρ

/-- So does the idealized kernel program. -/
theorem frame_kernelIdeal : Cert.frame_KernelIdeal := fun m ρ _ => Cert.KernelIdeal.KF.frame (F := Ideal) m ρ

/-- The ideal pass rewrote nothing. -/
theorem preserves : Cert.preserves_Kernel_KernelIdeal := trivial

/-- From memories that agree on the nineteen arguments both idealized programs end with the same result array: the
    whole reference function of the arguments. -/
theorem algebraic : Cert.algebraic_KernelIdeal_ReferenceIdeal := by
  intro m ρ m' ρ' _ hagree
  refine ⟨_, Cert.KernelIdeal.KValue.run m ρ, ?_⟩
  refine (θ_run Cert.ReferenceIdeal.defs _ _).mono (fun _ h c => ⟨(h c).1.trans ?_, (h c).2⟩)
    (Cert.ReferenceIdeal.RefValue.run_whole (F := Ideal) m' ρ')
  obtain ⟨h0, h1, h2, h3, h4, h5, h6, h7, h8, h9, h10, h11, h12, h13, h14, h15, h16, h17, h18⟩ := hagree c
  rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.RefFrame.frame_reference, preserves, algebraic⟩

end Cert.Proof

end
